-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x600x50 : Shape := ⟨3, ![64, 600, 50]⟩
abbrev S38400x8 : Shape := ⟨2, ![38400, 8]⟩
abbrev S100x50 : Shape := ⟨2, ![100, 50]⟩
abbrev S100 : Shape := ⟨1, ![100]⟩
abbrev S200x100 : Shape := ⟨2, ![200, 100]⟩
abbrev S200 : Shape := ⟨1, ![200]⟩
abbrev S600x200 : Shape := ⟨2, ![600, 200]⟩
abbrev S600 : Shape := ⟨1, ![600]⟩
abbrev S300x600 : Shape := ⟨2, ![300, 600]⟩
abbrev S300 : Shape := ⟨1, ![300]⟩
abbrev S300x300 : Shape := ⟨2, ![300, 300]⟩
abbrev S100x300 : Shape := ⟨2, ![100, 300]⟩
abbrev S50x100 : Shape := ⟨2, ![50, 100]⟩
abbrev S50 : Shape := ⟨1, ![50]⟩
abbrev S9x50 : Shape := ⟨2, ![9, 50]⟩
abbrev S9 : Shape := ⟨1, ![9]⟩
abbrev S_ : Shape := ⟨0, ![]⟩
abbrev S64x600x8 : Shape := ⟨3, ![64, 600, 8]⟩

class Facts : Prop where
  bcast_S_S64x600x50 : S_.BroadcastsInDim S64x600x50 (![] : Fin 0 → Fin S64x600x50.rank)
  reducesTo_S64x600x50_S_d0_1_2 : S64x600x50.ReducesTo [0, 1, 2] S_
  h_S_ : 0 < S_.numel
  bcast_S_S100x50 : S_.BroadcastsInDim S100x50 (![] : Fin 0 → Fin S100x50.rank)
  reducesTo_S100x50_S_d0_1 : S100x50.ReducesTo [0, 1] S_
  bcast_S_S100 : S_.BroadcastsInDim S100 (![] : Fin 0 → Fin S100.rank)
  reducesTo_S100_S_d0 : S100.ReducesTo [0] S_
  bcast_S_S200x100 : S_.BroadcastsInDim S200x100 (![] : Fin 0 → Fin S200x100.rank)
  reducesTo_S200x100_S_d0_1 : S200x100.ReducesTo [0, 1] S_
  bcast_S_S200 : S_.BroadcastsInDim S200 (![] : Fin 0 → Fin S200.rank)
  reducesTo_S200_S_d0 : S200.ReducesTo [0] S_
  bcast_S_S600x200 : S_.BroadcastsInDim S600x200 (![] : Fin 0 → Fin S600x200.rank)
  reducesTo_S600x200_S_d0_1 : S600x200.ReducesTo [0, 1] S_
  bcast_S_S600 : S_.BroadcastsInDim S600 (![] : Fin 0 → Fin S600.rank)
  reducesTo_S600_S_d0 : S600.ReducesTo [0] S_
  bcast_S_S300x600 : S_.BroadcastsInDim S300x600 (![] : Fin 0 → Fin S300x600.rank)
  reducesTo_S300x600_S_d0_1 : S300x600.ReducesTo [0, 1] S_
  bcast_S_S300 : S_.BroadcastsInDim S300 (![] : Fin 0 → Fin S300.rank)
  reducesTo_S300_S_d0 : S300.ReducesTo [0] S_
  bcast_S_S300x300 : S_.BroadcastsInDim S300x300 (![] : Fin 0 → Fin S300x300.rank)
  reducesTo_S300x300_S_d0_1 : S300x300.ReducesTo [0, 1] S_
  bcast_S_S100x300 : S_.BroadcastsInDim S100x300 (![] : Fin 0 → Fin S100x300.rank)
  reducesTo_S100x300_S_d0_1 : S100x300.ReducesTo [0, 1] S_
  bcast_S_S50x100 : S_.BroadcastsInDim S50x100 (![] : Fin 0 → Fin S50x100.rank)
  reducesTo_S50x100_S_d0_1 : S50x100.ReducesTo [0, 1] S_
  bcast_S_S50 : S_.BroadcastsInDim S50 (![] : Fin 0 → Fin S50.rank)
  reducesTo_S50_S_d0 : S50.ReducesTo [0] S_
  bcast_S_S9x50 : S_.BroadcastsInDim S9x50 (![] : Fin 0 → Fin S9x50.rank)
  reducesTo_S9x50_S_d0_1 : S9x50.ReducesTo [0, 1] S_
  bcast_S_S9 : S_.BroadcastsInDim S9 (![] : Fin 0 → Fin S9.rank)
  reducesTo_S9_S_d0 : S9.ReducesTo [0] S_
  shapeCasts_S38400x8_S64x600x8 : S38400x8.ShapeCasts S64x600x8
  bcast_S_S64x600x8 : S_.BroadcastsInDim S64x600x8 (![] : Fin 0 → Fin S64x600x8.rank)
  reducesTo_S64x600x8_S_d0_1_2 : S64x600x8.ReducesTo [0, 1, 2] S_

variable [Facts]

def fn_part7 {F : FTy → Type} [FloatOps F] (main_v113 : IVec S_ 1) (main_v114 : IVec S64x600x8 32) (main_v117 : IVec S64x600x8 32) (main_v118 : IVec S64x600x8 1) (main_v119 : IVec S64x600x8 32) : IVec S_ 1 :=
  let main_v120 : IVec S64x600x8 32 := addi main_v117 main_v119
  let main_v121 : IVec S64x600x8 1 := cmpi .slt main_v114 main_v120
  let main_v122 : IVec S64x600x8 1 := andi main_v118 main_v121
  let main_c_46 : IVec S_ 1 := constantI S_ 1 1#1
  let main_v123 : IVec S_ 1 := (fun x v => Host.reduce IntOp.andi x v reducesTo_S64x600x8_S_d0_1_2 h_S_) main_v122 main_c_46
  let main_v124 : IVec S_ 1 := andi main_v113 main_v123
  main_v124

def fn_part6 {F : FTy → Type} [FloatOps F] (main_arg1 : IVec S38400x8 32) (main_arg22 : FVec F S9x50 .f32) (main_arg23 : FVec F S9 .f32) (main_v98 : IVec S_ 1) (main_v101 : IVec S50 1) (main_c_39 : IVec S_ 1) : IVec S_ 1 :=
  let main_v102 : IVec S_ 1 := (fun x v => Host.reduce IntOp.andi x v reducesTo_S50_S_d0 h_S_) main_v101 main_c_39
  let main_v103 : IVec S_ 1 := andi main_v98 main_v102
  let main_v104 : FVec F S9x50 .f32 := Host.absf main_arg22
  let main_cst_40 : FVec F S_ .f32 := constant S_ .f32 0x7F800000#32
  let main_v105 : FVec F S9x50 .f32 := broadcastInDim S9x50 ![] bcast_S_S9x50 main_cst_40
  let main_v106 : IVec S9x50 1 := cmpf .olt main_v104 main_v105
  let main_c_41 : IVec S_ 1 := constantI S_ 1 1#1
  let main_v107 : IVec S_ 1 := (fun x v => Host.reduce IntOp.andi x v reducesTo_S9x50_S_d0_1 h_S_) main_v106 main_c_41
  let main_v108 : IVec S_ 1 := andi main_v103 main_v107
  let main_v109 : FVec F S9 .f32 := Host.absf main_arg23
  let main_cst_42 : FVec F S_ .f32 := constant S_ .f32 0x7F800000#32
  let main_v110 : FVec F S9 .f32 := broadcastInDim S9 ![] bcast_S_S9 main_cst_42
  let main_v111 : IVec S9 1 := cmpf .olt main_v109 main_v110
  let main_c_43 : IVec S_ 1 := constantI S_ 1 1#1
  let main_v112 : IVec S_ 1 := (fun x v => Host.reduce IntOp.andi x v reducesTo_S9_S_d0 h_S_) main_v111 main_c_43
  let main_v113 : IVec S_ 1 := andi main_v108 main_v112
  let main_v114 : IVec S64x600x8 32 := shapeCast S64x600x8 main_arg1 shapeCasts_S38400x8_S64x600x8
  let main_v115 : IVec S64x600x8 32 := iotaInDim S64x600x8 32 0
  let main_c_44 : IVec S_ 32 := constantI S_ 32 600#32
  let main_v116 : IVec S64x600x8 32 := broadcastInDim S64x600x8 ![] bcast_S_S64x600x8 main_c_44
  let main_v117 : IVec S64x600x8 32 := muli main_v115 main_v116
  let main_v118 : IVec S64x600x8 1 := cmpi .sge main_v114 main_v117
  let main_c_45 : IVec S_ 32 := constantI S_ 32 600#32
  let main_v119 : IVec S64x600x8 32 := broadcastInDim S64x600x8 ![] bcast_S_S64x600x8 main_c_45
  fn_part7 (F := F) main_v113 main_v114 main_v117 main_v118 main_v119

def fn_part5 {F : FTy → Type} [FloatOps F] (main_arg1 : IVec S38400x8 32) (main_arg19 : FVec F S100 .f32) (main_arg20 : FVec F S50x100 .f32) (main_arg21 : FVec F S50 .f32) (main_arg22 : FVec F S9x50 .f32) (main_arg23 : FVec F S9 .f32) (main_v83 : IVec S_ 1) (main_v84 : FVec F S100x300 .f32) (main_cst_32 : FVec F S_ .f32) : IVec S_ 1 :=
  let main_v85 : FVec F S100x300 .f32 := broadcastInDim S100x300 ![] bcast_S_S100x300 main_cst_32
  let main_v86 : IVec S100x300 1 := cmpf .olt main_v84 main_v85
  let main_c_33 : IVec S_ 1 := constantI S_ 1 1#1
  let main_v87 : IVec S_ 1 := (fun x v => Host.reduce IntOp.andi x v reducesTo_S100x300_S_d0_1 h_S_) main_v86 main_c_33
  let main_v88 : IVec S_ 1 := andi main_v83 main_v87
  let main_v89 : FVec F S100 .f32 := Host.absf main_arg19
  let main_cst_34 : FVec F S_ .f32 := constant S_ .f32 0x7F800000#32
  let main_v90 : FVec F S100 .f32 := broadcastInDim S100 ![] bcast_S_S100 main_cst_34
  let main_v91 : IVec S100 1 := cmpf .olt main_v89 main_v90
  let main_c_35 : IVec S_ 1 := constantI S_ 1 1#1
  let main_v92 : IVec S_ 1 := (fun x v => Host.reduce IntOp.andi x v reducesTo_S100_S_d0 h_S_) main_v91 main_c_35
  let main_v93 : IVec S_ 1 := andi main_v88 main_v92
  let main_v94 : FVec F S50x100 .f32 := Host.absf main_arg20
  let main_cst_36 : FVec F S_ .f32 := constant S_ .f32 0x7F800000#32
  let main_v95 : FVec F S50x100 .f32 := broadcastInDim S50x100 ![] bcast_S_S50x100 main_cst_36
  let main_v96 : IVec S50x100 1 := cmpf .olt main_v94 main_v95
  let main_c_37 : IVec S_ 1 := constantI S_ 1 1#1
  let main_v97 : IVec S_ 1 := (fun x v => Host.reduce IntOp.andi x v reducesTo_S50x100_S_d0_1 h_S_) main_v96 main_c_37
  let main_v98 : IVec S_ 1 := andi main_v93 main_v97
  let main_v99 : FVec F S50 .f32 := Host.absf main_arg21
  let main_cst_38 : FVec F S_ .f32 := constant S_ .f32 0x7F800000#32
  let main_v100 : FVec F S50 .f32 := broadcastInDim S50 ![] bcast_S_S50 main_cst_38
  let main_v101 : IVec S50 1 := cmpf .olt main_v99 main_v100
  let main_c_39 : IVec S_ 1 := constantI S_ 1 1#1
  fn_part6 (F := F) main_arg1 main_arg22 main_arg23 main_v98 main_v101 main_c_39

def fn_part4 {F : FTy → Type} [FloatOps F] (main_arg1 : IVec S38400x8 32) (main_arg15 : FVec F S300 .f32) (main_arg16 : FVec F S300x300 .f32) (main_arg17 : FVec F S300 .f32) (main_arg18 : FVec F S100x300 .f32) (main_arg19 : FVec F S100 .f32) (main_arg20 : FVec F S50x100 .f32) (main_arg21 : FVec F S50 .f32) (main_arg22 : FVec F S9x50 .f32) (main_arg23 : FVec F S9 .f32) (main_v63 : IVec S_ 1) (main_v67 : IVec S_ 1) : IVec S_ 1 :=
  let main_v68 : IVec S_ 1 := andi main_v63 main_v67
  let main_v69 : FVec F S300 .f32 := Host.absf main_arg15
  let main_cst_26 : FVec F S_ .f32 := constant S_ .f32 0x7F800000#32
  let main_v70 : FVec F S300 .f32 := broadcastInDim S300 ![] bcast_S_S300 main_cst_26
  let main_v71 : IVec S300 1 := cmpf .olt main_v69 main_v70
  let main_c_27 : IVec S_ 1 := constantI S_ 1 1#1
  let main_v72 : IVec S_ 1 := (fun x v => Host.reduce IntOp.andi x v reducesTo_S300_S_d0 h_S_) main_v71 main_c_27
  let main_v73 : IVec S_ 1 := andi main_v68 main_v72
  let main_v74 : FVec F S300x300 .f32 := Host.absf main_arg16
  let main_cst_28 : FVec F S_ .f32 := constant S_ .f32 0x7F800000#32
  let main_v75 : FVec F S300x300 .f32 := broadcastInDim S300x300 ![] bcast_S_S300x300 main_cst_28
  let main_v76 : IVec S300x300 1 := cmpf .olt main_v74 main_v75
  let main_c_29 : IVec S_ 1 := constantI S_ 1 1#1
  let main_v77 : IVec S_ 1 := (fun x v => Host.reduce IntOp.andi x v reducesTo_S300x300_S_d0_1 h_S_) main_v76 main_c_29
  let main_v78 : IVec S_ 1 := andi main_v73 main_v77
  let main_v79 : FVec F S300 .f32 := Host.absf main_arg17
  let main_cst_30 : FVec F S_ .f32 := constant S_ .f32 0x7F800000#32
  let main_v80 : FVec F S300 .f32 := broadcastInDim S300 ![] bcast_S_S300 main_cst_30
  let main_v81 : IVec S300 1 := cmpf .olt main_v79 main_v80
  let main_c_31 : IVec S_ 1 := constantI S_ 1 1#1
  let main_v82 : IVec S_ 1 := (fun x v => Host.reduce IntOp.andi x v reducesTo_S300_S_d0 h_S_) main_v81 main_c_31
  let main_v83 : IVec S_ 1 := andi main_v78 main_v82
  let main_v84 : FVec F S100x300 .f32 := Host.absf main_arg18
  let main_cst_32 : FVec F S_ .f32 := constant S_ .f32 0x7F800000#32
  fn_part5 (F := F) main_arg1 main_arg19 main_arg20 main_arg21 main_arg22 main_arg23 main_v83 main_v84 main_cst_32

def fn_part3 {F : FTy → Type} [FloatOps F] (main_arg1 : IVec S38400x8 32) (main_arg12 : FVec F S600x200 .f32) (main_arg13 : FVec F S600 .f32) (main_arg14 : FVec F S300x600 .f32) (main_arg15 : FVec F S300 .f32) (main_arg16 : FVec F S300x300 .f32) (main_arg17 : FVec F S300 .f32) (main_arg18 : FVec F S100x300 .f32) (main_arg19 : FVec F S100 .f32) (main_arg20 : FVec F S50x100 .f32) (main_arg21 : FVec F S50 .f32) (main_arg22 : FVec F S9x50 .f32) (main_arg23 : FVec F S9 .f32) (main_v48 : IVec S_ 1) (main_v49 : FVec F S600 .f32) (main_v50 : FVec F S600 .f32) : IVec S_ 1 :=
  let main_v51 : IVec S600 1 := cmpf .olt main_v49 main_v50
  let main_c_19 : IVec S_ 1 := constantI S_ 1 1#1
  let main_v52 : IVec S_ 1 := (fun x v => Host.reduce IntOp.andi x v reducesTo_S600_S_d0 h_S_) main_v51 main_c_19
  let main_v53 : IVec S_ 1 := andi main_v48 main_v52
  let main_v54 : FVec F S600x200 .f32 := Host.absf main_arg12
  let main_cst_20 : FVec F S_ .f32 := constant S_ .f32 0x7F800000#32
  let main_v55 : FVec F S600x200 .f32 := broadcastInDim S600x200 ![] bcast_S_S600x200 main_cst_20
  let main_v56 : IVec S600x200 1 := cmpf .olt main_v54 main_v55
  let main_c_21 : IVec S_ 1 := constantI S_ 1 1#1
  let main_v57 : IVec S_ 1 := (fun x v => Host.reduce IntOp.andi x v reducesTo_S600x200_S_d0_1 h_S_) main_v56 main_c_21
  let main_v58 : IVec S_ 1 := andi main_v53 main_v57
  let main_v59 : FVec F S600 .f32 := Host.absf main_arg13
  let main_cst_22 : FVec F S_ .f32 := constant S_ .f32 0x7F800000#32
  let main_v60 : FVec F S600 .f32 := broadcastInDim S600 ![] bcast_S_S600 main_cst_22
  let main_v61 : IVec S600 1 := cmpf .olt main_v59 main_v60
  let main_c_23 : IVec S_ 1 := constantI S_ 1 1#1
  let main_v62 : IVec S_ 1 := (fun x v => Host.reduce IntOp.andi x v reducesTo_S600_S_d0 h_S_) main_v61 main_c_23
  let main_v63 : IVec S_ 1 := andi main_v58 main_v62
  let main_v64 : FVec F S300x600 .f32 := Host.absf main_arg14
  let main_cst_24 : FVec F S_ .f32 := constant S_ .f32 0x7F800000#32
  let main_v65 : FVec F S300x600 .f32 := broadcastInDim S300x600 ![] bcast_S_S300x600 main_cst_24
  let main_v66 : IVec S300x600 1 := cmpf .olt main_v64 main_v65
  let main_c_25 : IVec S_ 1 := constantI S_ 1 1#1
  let main_v67 : IVec S_ 1 := (fun x v => Host.reduce IntOp.andi x v reducesTo_S300x600_S_d0_1 h_S_) main_v66 main_c_25
  fn_part4 (F := F) main_arg1 main_arg15 main_arg16 main_arg17 main_arg18 main_arg19 main_arg20 main_arg21 main_arg22 main_arg23 main_v63 main_v67

def fn_part2 {F : FTy → Type} [FloatOps F] (main_arg1 : IVec S38400x8 32) (main_arg8 : FVec F S200x100 .f32) (main_arg9 : FVec F S200 .f32) (main_arg10 : FVec F S600x200 .f32) (main_arg11 : FVec F S600 .f32) (main_arg12 : FVec F S600x200 .f32) (main_arg13 : FVec F S600 .f32) (main_arg14 : FVec F S300x600 .f32) (main_arg15 : FVec F S300 .f32) (main_arg16 : FVec F S300x300 .f32) (main_arg17 : FVec F S300 .f32) (main_arg18 : FVec F S100x300 .f32) (main_arg19 : FVec F S100 .f32) (main_arg20 : FVec F S50x100 .f32) (main_arg21 : FVec F S50 .f32) (main_arg22 : FVec F S9x50 .f32) (main_arg23 : FVec F S9 .f32) (main_v33 : IVec S_ 1) : IVec S_ 1 :=
  let main_v34 : FVec F S200x100 .f32 := Host.absf main_arg8
  let main_cst_12 : FVec F S_ .f32 := constant S_ .f32 0x7F800000#32
  let main_v35 : FVec F S200x100 .f32 := broadcastInDim S200x100 ![] bcast_S_S200x100 main_cst_12
  let main_v36 : IVec S200x100 1 := cmpf .olt main_v34 main_v35
  let main_c_13 : IVec S_ 1 := constantI S_ 1 1#1
  let main_v37 : IVec S_ 1 := (fun x v => Host.reduce IntOp.andi x v reducesTo_S200x100_S_d0_1 h_S_) main_v36 main_c_13
  let main_v38 : IVec S_ 1 := andi main_v33 main_v37
  let main_v39 : FVec F S200 .f32 := Host.absf main_arg9
  let main_cst_14 : FVec F S_ .f32 := constant S_ .f32 0x7F800000#32
  let main_v40 : FVec F S200 .f32 := broadcastInDim S200 ![] bcast_S_S200 main_cst_14
  let main_v41 : IVec S200 1 := cmpf .olt main_v39 main_v40
  let main_c_15 : IVec S_ 1 := constantI S_ 1 1#1
  let main_v42 : IVec S_ 1 := (fun x v => Host.reduce IntOp.andi x v reducesTo_S200_S_d0 h_S_) main_v41 main_c_15
  let main_v43 : IVec S_ 1 := andi main_v38 main_v42
  let main_v44 : FVec F S600x200 .f32 := Host.absf main_arg10
  let main_cst_16 : FVec F S_ .f32 := constant S_ .f32 0x7F800000#32
  let main_v45 : FVec F S600x200 .f32 := broadcastInDim S600x200 ![] bcast_S_S600x200 main_cst_16
  let main_v46 : IVec S600x200 1 := cmpf .olt main_v44 main_v45
  let main_c_17 : IVec S_ 1 := constantI S_ 1 1#1
  let main_v47 : IVec S_ 1 := (fun x v => Host.reduce IntOp.andi x v reducesTo_S600x200_S_d0_1 h_S_) main_v46 main_c_17
  let main_v48 : IVec S_ 1 := andi main_v43 main_v47
  let main_v49 : FVec F S600 .f32 := Host.absf main_arg11
  let main_cst_18 : FVec F S_ .f32 := constant S_ .f32 0x7F800000#32
  let main_v50 : FVec F S600 .f32 := broadcastInDim S600 ![] bcast_S_S600 main_cst_18
  fn_part3 (F := F) main_arg1 main_arg12 main_arg13 main_arg14 main_arg15 main_arg16 main_arg17 main_arg18 main_arg19 main_arg20 main_arg21 main_arg22 main_arg23 main_v48 main_v49 main_v50

def fn_part1 {F : FTy → Type} [FloatOps F] (main_arg1 : IVec S38400x8 32) (main_arg5 : FVec F S100 .f32) (main_arg6 : FVec F S200x100 .f32) (main_arg7 : FVec F S200 .f32) (main_arg8 : FVec F S200x100 .f32) (main_arg9 : FVec F S200 .f32) (main_arg10 : FVec F S600x200 .f32) (main_arg11 : FVec F S600 .f32) (main_arg12 : FVec F S600x200 .f32) (main_arg13 : FVec F S600 .f32) (main_arg14 : FVec F S300x600 .f32) (main_arg15 : FVec F S300 .f32) (main_arg16 : FVec F S300x300 .f32) (main_arg17 : FVec F S300 .f32) (main_arg18 : FVec F S100x300 .f32) (main_arg19 : FVec F S100 .f32) (main_arg20 : FVec F S50x100 .f32) (main_arg21 : FVec F S50 .f32) (main_arg22 : FVec F S9x50 .f32) (main_arg23 : FVec F S9 .f32) (main_v13 : IVec S_ 1) (main_v16 : IVec S100x50 1) : IVec S_ 1 :=
  let main_c_5 : IVec S_ 1 := constantI S_ 1 1#1
  let main_v17 : IVec S_ 1 := (fun x v => Host.reduce IntOp.andi x v reducesTo_S100x50_S_d0_1 h_S_) main_v16 main_c_5
  let main_v18 : IVec S_ 1 := andi main_v13 main_v17
  let main_v19 : FVec F S100 .f32 := Host.absf main_arg5
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S200x100 .f32 := Host.absf main_arg6
  let main_cst_8 : FVec F S_ .f32 := constant S_ .f32 0x7F800000#32
  let main_v25 : FVec F S200x100 .f32 := broadcastInDim S200x100 ![] bcast_S_S200x100 main_cst_8
  let main_v26 : IVec S200x100 1 := cmpf .olt main_v24 main_v25
  let main_c_9 : IVec S_ 1 := constantI S_ 1 1#1
  let main_v27 : IVec S_ 1 := (fun x v => Host.reduce IntOp.andi x v reducesTo_S200x100_S_d0_1 h_S_) main_v26 main_c_9
  let main_v28 : IVec S_ 1 := andi main_v23 main_v27
  let main_v29 : FVec F S200 .f32 := Host.absf main_arg7
  let main_cst_10 : FVec F S_ .f32 := constant S_ .f32 0x7F800000#32
  let main_v30 : FVec F S200 .f32 := broadcastInDim S200 ![] bcast_S_S200 main_cst_10
  let main_v31 : IVec S200 1 := cmpf .olt main_v29 main_v30
  let main_c_11 : IVec S_ 1 := constantI S_ 1 1#1
  let main_v32 : IVec S_ 1 := (fun x v => Host.reduce IntOp.andi x v reducesTo_S200_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S64x600x50 .f32) (main_arg1 : IVec S38400x8 32) (main_arg2 : FVec F S100x50 .f32) (main_arg3 : FVec F S100 .f32) (main_arg4 : FVec F S100x50 .f32) (main_arg5 : FVec F S100 .f32) (main_arg6 : FVec F S200x100 .f32) (main_arg7 : FVec F S200 .f32) (main_arg8 : FVec F S200x100 .f32) (main_arg9 : FVec F S200 .f32) (main_arg10 : FVec F S600x200 .f32) (main_arg11 : FVec F S600 .f32) (main_arg12 : FVec F S600x200 .f32) (main_arg13 : FVec F S600 .f32) (main_arg14 : FVec F S300x600 .f32) (main_arg15 : FVec F S300 .f32) (main_arg16 : FVec F S300x300 .f32) (main_arg17 : FVec F S300 .f32) (main_arg18 : FVec F S100x300 .f32) (main_arg19 : FVec F S100 .f32) (main_arg20 : FVec F S50x100 .f32) (main_arg21 : FVec F S50 .f32) (main_arg22 : FVec F S9x50 .f32) (main_arg23 : FVec F S9 .f32) : IVec S_ 1 :=
  let main_v0 : FVec F S64x600x50 .f32 := Host.absf main_arg0
  let main_cst : FVec F S_ .f32 := constant S_ .f32 0x7F800000#32
  let main_v1 : FVec F S64x600x50 .f32 := broadcastInDim S64x600x50 ![] bcast_S_S64x600x50 main_cst
  let main_v2 : IVec S64x600x50 1 := cmpf .olt main_v0 main_v1
  let main_c : IVec S_ 1 := constantI S_ 1 1#1
  let main_v3 : IVec S_ 1 := (fun x v => Host.reduce IntOp.andi x v reducesTo_S64x600x50_S_d0_1_2 h_S_) main_v2 main_c
  let main_v4 : FVec F S100x50 .f32 := Host.absf main_arg2
  let main_cst_0 : FVec F S_ .f32 := constant S_ .f32 0x7F800000#32
  let main_v5 : FVec F S100x50 .f32 := broadcastInDim S100x50 ![] bcast_S_S100x50 main_cst_0
  let main_v6 : IVec S100x50 1 := cmpf .olt main_v4 main_v5
  let main_c_1 : IVec S_ 1 := constantI S_ 1 1#1
  let main_v7 : IVec S_ 1 := (fun x v => Host.reduce IntOp.andi x v reducesTo_S100x50_S_d0_1 h_S_) main_v6 main_c_1
  let main_v8 : IVec S_ 1 := andi main_v3 main_v7
  let main_v9 : FVec F S100 .f32 := Host.absf main_arg3
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x50 .f32 := Host.absf main_arg4
  let main_cst_4 : FVec F S_ .f32 := constant S_ .f32 0x7F800000#32
  let main_v15 : FVec F S100x50 .f32 := broadcastInDim S100x50 ![] bcast_S_S100x50 main_cst_4
  let main_v16 : IVec S100x50 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S64x600x50 : Shape := ⟨3, ![64, 600, 50]⟩
abbrev S38400x8 : Shape := ⟨2, ![38400, 8]⟩
abbrev S100x50 : Shape := ⟨2, ![100, 50]⟩
abbrev S100 : Shape := ⟨1, ![100]⟩
abbrev S200x100 : Shape := ⟨2, ![200, 100]⟩
abbrev S200 : Shape := ⟨1, ![200]⟩
abbrev S600x200 : Shape := ⟨2, ![600, 200]⟩
abbrev S600 : Shape := ⟨1, ![600]⟩
abbrev S300x600 : Shape := ⟨2, ![300, 600]⟩
abbrev S300 : Shape := ⟨1, ![300]⟩
abbrev S300x300 : Shape := ⟨2, ![300, 300]⟩
abbrev S100x300 : Shape := ⟨2, ![100, 300]⟩
abbrev S50x100 : Shape := ⟨2, ![50, 100]⟩
abbrev S50 : Shape := ⟨1, ![50]⟩
abbrev S9x50 : Shape := ⟨2, ![9, 50]⟩
abbrev S9 : Shape := ⟨1, ![9]⟩
abbrev S64x600x8 : Shape := ⟨3, ![64, 600, 8]⟩
abbrev S64 : Shape := ⟨1, ![64]⟩
abbrev S_ : Shape := ⟨0, ![]⟩
abbrev S64x1x1 : Shape := ⟨3, ![64, 1, 1]⟩
abbrev S100x200 : Shape := ⟨2, ![100, 200]⟩
abbrev S200x600 : Shape := ⟨2, ![200, 600]⟩
abbrev S1x100 : Shape := ⟨2, ![1, 100]⟩
abbrev S1x200 : Shape := ⟨2, ![1, 200]⟩
abbrev S1x600 : Shape := ⟨2, ![1, 600]⟩
abbrev S64x600 : Shape := ⟨2, ![64, 600]⟩
abbrev S8x600x50 : Shape := ⟨3, ![8, 600, 50]⟩
abbrev S8x600x8 : Shape := ⟨3, ![8, 600, 8]⟩
abbrev S8x600 : Shape := ⟨2, ![8, 600]⟩
abbrev S1x600x50 : Shape := ⟨3, ![1, 600, 50]⟩
abbrev S600x50 : Shape := ⟨2, ![600, 50]⟩
abbrev S1x600x8 : Shape := ⟨3, ![1, 600, 8]⟩
abbrev S600x8 : Shape := ⟨2, ![600, 8]⟩
abbrev S600x600 : Shape := ⟨2, ![600, 600]⟩
abbrev S600x1 : Shape := ⟨2, ![600, 1]⟩
abbrev S600x100 : Shape := ⟨2, ![600, 100]⟩
abbrev S600x300 : Shape := ⟨2, ![600, 300]⟩
abbrev S64x300 : Shape := ⟨2, ![64, 300]⟩
abbrev S1x300 : Shape := ⟨2, ![1, 300]⟩
abbrev S300x100 : Shape := ⟨2, ![300, 100]⟩
abbrev S64x100 : Shape := ⟨2, ![64, 100]⟩
abbrev S64x50 : Shape := ⟨2, ![64, 50]⟩
abbrev S1x50 : Shape := ⟨2, ![1, 50]⟩
abbrev S50x9 : Shape := ⟨2, ![50, 9]⟩
abbrev S64x9 : Shape := ⟨2, ![64, 9]⟩
abbrev S1x9 : Shape := ⟨2, ![1, 9]⟩

abbrev nBuf : Space → Nat
  | .hbm => 88
  | .vmem => 18
  | .smem => 0
  | _ => 0

abbrev bufTy : (tb : Table) → Fin (tcTables nBuf tb) → BufTy
  | .hbm, ⟨0, _⟩ => ⟨S64x600x50, .f32⟩
  | .hbm, ⟨1, _⟩ => ⟨S38400x8, .i32⟩
  | .hbm, ⟨2, _⟩ => ⟨S100x50, .f32⟩
  | .hbm, ⟨3, _⟩ => ⟨S100, .f32⟩
  | .hbm, ⟨4, _⟩ => ⟨S100x50, .f32⟩
  | .hbm, ⟨5, _⟩ => ⟨S100, .f32⟩
  | .hbm, ⟨6, _⟩ => ⟨S200x100, .f32⟩
  | .hbm, ⟨7, _⟩ => ⟨S200, .f32⟩
  | .hbm, ⟨8, _⟩ => ⟨S200x100, .f32⟩
  | .hbm, ⟨9, _⟩ => ⟨S200, .f32⟩
  | .hbm, ⟨10, _⟩ => ⟨S600x200, .f32⟩
  | .hbm, ⟨11, _⟩ => ⟨S600, .f32⟩
  | .hbm, ⟨12, _⟩ => ⟨S600x200, .f32⟩
  | .hbm, ⟨13, _⟩ => ⟨S600, .f32⟩
  | .hbm, ⟨14, _⟩ => ⟨S300x600, .f32⟩
  | .hbm, ⟨15, _⟩ => ⟨S300, .f32⟩
  | .hbm, ⟨16, _⟩ => ⟨S300x300, .f32⟩
  | .hbm, ⟨17, _⟩ => ⟨S300, .f32⟩
  | .hbm, ⟨18, _⟩ => ⟨S100x300, .f32⟩
  | .hbm, ⟨19, _⟩ => ⟨S100, .f32⟩
  | .hbm, ⟨20, _⟩ => ⟨S50x100, .f32⟩
  | .hbm, ⟨21, _⟩ => ⟨S50, .f32⟩
  | .hbm, ⟨22, _⟩ => ⟨S9x50, .f32⟩
  | .hbm, ⟨23, _⟩ => ⟨S9, .f32⟩
  | .hbm, ⟨24, _⟩ => ⟨S64x600x8, .i32⟩
  | .hbm, ⟨25, _⟩ => ⟨S64, .i32⟩
  | .hbm, ⟨26, _⟩ => ⟨S_, .i32⟩
  | .hbm, ⟨27, _⟩ => ⟨S64, .i32⟩
  | .hbm, ⟨28, _⟩ => ⟨S64, .i32⟩
  | .hbm, ⟨29, _⟩ => ⟨S64x1x1, .i32⟩
  | .hbm, ⟨30, _⟩ => ⟨S64x600x8, .i32⟩
  | .hbm, ⟨31, _⟩ => ⟨S64x600x8, .i32⟩
  | .hbm, ⟨32, _⟩ => ⟨S100x50, .bf16⟩
  | .hbm, ⟨33, _⟩ => ⟨S50x100, .bf16⟩
  | .hbm, ⟨34, _⟩ => ⟨S100x50, .bf16⟩
  | .hbm, ⟨35, _⟩ => ⟨S50x100, .bf16⟩
  | .hbm, ⟨36, _⟩ => ⟨S200x100, .bf16⟩
  | .hbm, ⟨37, _⟩ => ⟨S100x200, .bf16⟩
  | .hbm, ⟨38, _⟩ => ⟨S200x100, .bf16⟩
  | .hbm, ⟨39, _⟩ => ⟨S100x200, .bf16⟩
  | .hbm, ⟨40, _⟩ => ⟨S600x200, .bf16⟩
  | .hbm, ⟨41, _⟩ => ⟨S200x600, .bf16⟩
  | .hbm, ⟨42, _⟩ => ⟨S600x200, .bf16⟩
  | .hbm, ⟨43, _⟩ => ⟨S200x600, .bf16⟩
  | .hbm, ⟨44, _⟩ => ⟨S1x100, .f32⟩
  | .hbm, ⟨45, _⟩ => ⟨S1x100, .f32⟩
  | .hbm, ⟨46, _⟩ => ⟨S1x200, .f32⟩
  | .hbm, ⟨47, _⟩ => ⟨S1x200, .f32⟩
  | .hbm, ⟨48, _⟩ => ⟨S1x600, .f32⟩
  | .hbm, ⟨49, _⟩ => ⟨S1x600, .f32⟩
  | .hbm, ⟨50, _⟩ => ⟨S64x600, .f32⟩
  | .hbm, ⟨51, _⟩ => ⟨S600x300, .f32⟩
  | .hbm, ⟨52, _⟩ => ⟨S64x300, .f32⟩
  | .hbm, ⟨53, _⟩ => ⟨S1x300, .f32⟩
  | .hbm, ⟨54, _⟩ => ⟨S64x300, .f32⟩
  | .hbm, ⟨55, _⟩ => ⟨S64x300, .f32⟩
  | .hbm, ⟨56, _⟩ => ⟨S64x300, .f32⟩
  | .hbm, ⟨57, _⟩ => ⟨S300x300, .f32⟩
  | .hbm, ⟨58, _⟩ => ⟨S64x300, .f32⟩
  | .hbm, ⟨59, _⟩ => ⟨S1x300, .f32⟩
  | .hbm, ⟨60, _⟩ => ⟨S64x300, .f32⟩
  | .hbm, ⟨61, _⟩ => ⟨S64x300, .f32⟩
  | .hbm, ⟨62, _⟩ => ⟨S64x300, .f32⟩
  | .hbm, ⟨63, _⟩ => ⟨S300x100, .f32⟩
  | .hbm, ⟨64, _⟩ => ⟨S64x100, .f32⟩
  | .hbm, ⟨65, _⟩ => ⟨S1x100, .f32⟩
  | .hbm, ⟨66, _⟩ => ⟨S64x100, .f32⟩
  | .hbm, ⟨67, _⟩ => ⟨S64x100, .f32⟩
  | .hbm, ⟨68, _⟩ => ⟨S64x100, .f32⟩
  | .hbm, ⟨69, _⟩ => ⟨S100x50, .f32⟩
  | .hbm, ⟨70, _⟩ => ⟨S64x50, .f32⟩
  | .hbm, ⟨71, _⟩ => ⟨S1x50, .f32⟩
  | .hbm, ⟨72, _⟩ => ⟨S64x50, .f32⟩
  | .hbm, ⟨73, _⟩ => ⟨S64x50, .f32⟩
  | .hbm, ⟨74, _⟩ => ⟨S64x50, .f32⟩
  | .hbm, ⟨75, _⟩ => ⟨S50x9, .f32⟩
  | .hbm, ⟨76, _⟩ => ⟨S64x9, .f32⟩
  | .hbm, ⟨77, _⟩ => ⟨S1x9, .f32⟩
  | .hbm, ⟨78, _⟩ => ⟨S64x9, .f32⟩
  | .hbm, ⟨79, _⟩ => ⟨S64x9, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S64x9, .f32⟩
  | .hbm, ⟨84, _⟩ => ⟨S64x9, .f32⟩
  | .hbm, ⟨85, _⟩ => ⟨S_, .f32⟩
  | .hbm, ⟨86, _⟩ => ⟨S64x9, .f32⟩
  | .hbm, ⟨87, _⟩ => ⟨S64x9, .f32⟩
  | .local _ .vmem, ⟨0, _⟩ => ⟨S8x600x50, .f32⟩
  | .local _ .vmem, ⟨1, _⟩ => ⟨S8x600x50, .f32⟩
  | .local _ .vmem, ⟨2, _⟩ => ⟨S8x600x8, .i32⟩
  | .local _ .vmem, ⟨3, _⟩ => ⟨S8x600x8, .i32⟩
  | .local _ .vmem, ⟨4, _⟩ => ⟨S50x100, .bf16⟩
  | .local _ .vmem, ⟨5, _⟩ => ⟨S1x100, .f32⟩
  | .local _ .vmem, ⟨6, _⟩ => ⟨S50x100, .bf16⟩
  | .local _ .vmem, ⟨7, _⟩ => ⟨S1x100, .f32⟩
  | .local _ .vmem, ⟨8, _⟩ => ⟨S100x200, .bf16⟩
  | .local _ .vmem, ⟨9, _⟩ => ⟨S1x200, .f32⟩
  | .local _ .vmem, ⟨10, _⟩ => ⟨S100x200, .bf16⟩
  | .local _ .vmem, ⟨11, _⟩ => ⟨S1x200, .f32⟩
  | .local _ .vmem, ⟨12, _⟩ => ⟨S200x600, .bf16⟩
  | .local _ .vmem, ⟨13, _⟩ => ⟨S1x600, .f32⟩
  | .local _ .vmem, ⟨14, _⟩ => ⟨S200x600, .bf16⟩
  | .local _ .vmem, ⟨15, _⟩ => ⟨S1x600, .f32⟩
  | .local _ .vmem, ⟨16, _⟩ => ⟨S8x600, .f32⟩
  | .local _ .vmem, ⟨17, _⟩ => ⟨S8x600, .f32⟩
  | _, _ => ⟨S64x600x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_c : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst : Ref sig .tc := ⟨.hbm, 80, rfl⟩
abbrev main_cst_0 : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_v55 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v24 : BitVec 32 := Scalar.addi c0_i32 c8_i32
  let c1_i32 : BitVec 32 := 1#32
  ⟨c0_i32, v24, c1_i32⟩
def k0_off1 (k0_t1 : Fin k0_t1_loop.trips) : Fin 3 → Nat :=
  let c0_i32_25 : BitVec 32 := 0#32
  let c0_i32 : BitVec 32 := 0#32
  let c1_i32 : BitVec 32 := 1#32
  let arg16 : BitVec 32 := Scf.iv c0_i32 c1_i32 k0_t1
  let c1_i32_24 : BitVec 32 := 1#32
  let v25 : BitVec 32 := Scalar.muli arg16 c1_i32_24
  let v26 : BitVec 32 := Scalar.addi c0_i32_25 v25
  let v27 : Index := Scalar.indexCast v26
  let c0_26 : Index := 0#32
  let c0_27 : Index := 0#32
  ![v27.toNat, 0, 0]
def k0_off2 (k0_t1 : Fin k0_t1_loop.trips) : Fin 3 → Nat :=
  let c0_i32_25 : BitVec 32 := 0#32
  let c0_i32 : BitVec 32 := 0#32
  let c1_i32 : BitVec 32 := 1#32
  let arg16 : BitVec 32 := Scf.iv c0_i32 c1_i32 k0_t1
  let c1_i32_24 : BitVec 32 := 1#32
  let v25 : BitVec 32 := Scalar.muli arg16 c1_i32_24
  let v26 : BitVec 32 := Scalar.addi c0_i32_25 v25
  let v30 : Index := Scalar.indexCast v26
  let c0_28 : Index := 0#32
  let c0_29 : Index := 0#32
  ![v30.toNat, 0, 0]
def k0_off3 (k0_t1 : Fin k0_t1_loop.trips) : Fin 2 → Nat :=
  let c0_i32_25 : BitVec 32 := 0#32
  let c0_i32 : BitVec 32 := 0#32
  let c1_i32 : BitVec 32 := 1#32
  let arg16 : BitVec 32 := Scf.iv c0_i32 c1_i32 k0_t1
  let c1_i32_24 : BitVec 32 := 1#32
  let v25 : BitVec 32 := Scalar.muli arg16 c1_i32_24
  let v26 : BitVec 32 := Scalar.addi c0_i32_25 v25
  let v227 : Index := Scalar.indexCast v26
  let c0_87 : Index := 0#32
  ![v227.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x600x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x600x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x100 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x100 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S100x200 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x200 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S100x200 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x200 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S200x600 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x600 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S200x600 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x600 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S8x600 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S38400x8_S64x600x8 : S38400x8.ShapeCasts S64x600x8
  bcast_S_S64 : S_.BroadcastsInDim S64 (![] : Fin 0 → Fin S64.rank)
  bcast_S64_S64x1x1_0 : S64.BroadcastsInDim S64x1x1 (![0] : Fin 1 → Fin S64x1x1.rank)
  bcast_S64x1x1_S64x600x8_0_1_2 : S64x1x1.BroadcastsInDim S64x600x8 (![0, 1, 2] : Fin 3 → Fin S64x600x8.rank)
  bitsLt_bf16_f32 : FTy.bits .bf16 < FTy.bits .f32
  transposes_S100x50_S50x100_1_0 : S100x50.Transposes [1, 0] S50x100
  transposes_S200x100_S100x200_1_0 : S200x100.Transposes [1, 0] S100x200
  transposes_S600x200_S200x600_1_0 : S600x200.Transposes [1, 0] S200x600
  shapeCasts_S100_S1x100 : S100.ShapeCasts S1x100
  shapeCasts_S200_S1x200 : S200.ShapeCasts S1x200
  shapeCasts_S600_S1x600 : S600.ShapeCasts S1x600
  inb_S50x100_S50x100_0_0 : ∀ a, (![0, 0] : Fin 2 → Nat) a + S50x100.size a ≤ S50x100.size a
  h_S50x100 : 0 < S50x100.numel
  shapeCasts_S50x100_S50x100 : S50x100.ShapeCasts S50x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  inb_S100x200_S100x200_0_0 : ∀ a, (![0, 0] : Fin 2 → Nat) a + S100x200.size a ≤ S100x200.size a
  h_S100x200 : 0 < S100x200.numel
  shapeCasts_S100x200_S100x200 : S100x200.ShapeCasts S100x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  inb_S200x600_S200x600_0_0 : ∀ a, (![0, 0] : Fin 2 → Nat) a + S200x600.size a ≤ S200x600.size a
  h_S200x600 : 0 < S200x600.numel
  shapeCasts_S200x600_S200x600 : S200x600.ShapeCasts S200x600
  inb_S1x600_S1x600_0_0 : ∀ a, (![0, 0] : Fin 2 → Nat) a + S1x600.size a ≤ S1x600.size a
  h_S1x600 : 0 < S1x600.numel
  shapeCasts_S1x600_S1x600 : S1x600.ShapeCasts S1x600
  h_S1x600x50 : 0 < S1x600x50.numel
  shapeCasts_S1x600x50_S600x50 : S1x600x50.ShapeCasts S600x50
  h_S1x600x8 : 0 < S1x600x8.numel
  shapeCasts_S1x600x8_S600x8 : S1x600x8.ShapeCasts S600x8
  iota_S600x600_d1_w32 : S600x600.Iotas .tc 32 [1]
  slices_S600x8_o0_0_S600x1 : S600x8.Slices ![0, 0] S600x1
  shapeCasts_S600x1_S600 : S600x1.ShapeCasts S600
  shapeCasts_S600_S600x1 : S600.ShapeCasts S600x1
  broadcasts_S600x1_S600x600 : S600x1.Broadcasts S600x600
  natLt_1_32 : 1 < 32
  slices_S600x8_o0_1_S600x1 : S600x8.Slices ![0, 1] S600x1
  slices_S600x8_o0_2_S600x1 : S600x8.Slices ![0, 2] S600x1
  slices_S600x8_o0_3_S600x1 : S600x8.Slices ![0, 3] S600x1
  slices_S600x8_o0_4_S600x1 : S600x8.Slices ![0, 4] S600x1
  slices_S600x8_o0_5_S600x1 : S600x8.Slices ![0, 5] S600x1
  slices_S600x8_o0_6_S600x1 : S600x8.Slices ![0, 6] S600x1
  slices_S600x8_o0_7_S600x1 : S600x8.Slices ![0, 7] S600x1
  broadcasts_S1x100_S600x100 : S1x100.Broadcasts S600x100
  broadcasts_S1x200_S600x200 : S1x200.Broadcasts S600x200
  broadcasts_S1x600_S600x600 : S1x600.Broadcasts S600x600
  reduces_S600x600_S600 : S600x600.Reduces [1] S600
  shapeCasts_S1x600_S600 : S1x600.ShapeCasts S600
  transposes_S300x600_S600x300_1_0 : S300x600.Transposes [1, 0] S600x300
  bcast_S300_S1x300_1 : S300.BroadcastsInDim S1x300 (![1] : Fin 1 → Fin S1x300.rank)
  bcast_S1x300_S64x300_0_1 : S1x300.BroadcastsInDim S64x300 (![0, 1] : Fin 2 → Fin S64x300.rank)
  transposes_S300x300_S300x300_1_0 : S300x300.Transposes [1, 0] S300x300
  transposes_S100x300_S300x100_1_0 : S100x300.Transposes [1, 0] S300x100
  bcast_S100_S1x100_1 : S100.BroadcastsInDim S1x100 (![1] : Fin 1 → Fin S1x100.rank)
  bcast_S1x100_S64x100_0_1 : S1x100.BroadcastsInDim S64x100 (![0, 1] : Fin 2 → Fin S64x100.rank)
  transposes_S50x100_S100x50_1_0 : S50x100.Transposes [1, 0] S100x50
  bcast_S50_S1x50_1 : S50.BroadcastsInDim S1x50 (![1] : Fin 1 → Fin S1x50.rank)
  bcast_S1x50_S64x50_0_1 : S1x50.BroadcastsInDim S64x50 (![0, 1] : Fin 2 → Fin S64x50.rank)
  transposes_S9x50_S50x9_1_0 : S9x50.Transposes [1, 0] S50x9
  bcast_S9_S1x9_1 : S9.BroadcastsInDim S1x9 (![1] : Fin 1 → Fin S1x9.rank)
  bcast_S1x9_S64x9_0_1 : S1x9.BroadcastsInDim S64x9 (![0, 1] : Fin 2 → Fin S64x9.rank)
  bcast_S_S64x9 : S_.BroadcastsInDim S64x9 (![] : Fin 0 → Fin S64x9.rank)
  dot_S600x50_S50x100_S600x100_1_0_0_1_n_n_wf : DotDims.WF S600x50 S50x100 S600x100 [1] [0] [0] [1] [] []
  dot_S600x600_S600x50_S600x50_1_0_0_1_n_n_wf : DotDims.WF S600x600 S600x50 S600x50 [1] [0] [0] [1] [] []
  dot_S600x100_S100x200_S600x200_1_0_0_1_n_n_wf : DotDims.WF S600x100 S100x200 S600x200 [1] [0] [0] [1] [] []
  dot_S600x600_S600x100_S600x100_1_0_0_1_n_n_wf : DotDims.WF S600x600 S600x100 S600x100 [1] [0] [0] [1] [] []
  dot_S600x200_S200x600_S600x600_1_0_0_1_n_n_wf : DotDims.WF S600x200 S200x600 S600x600 [1] [0] [0] [1] [] []
  dot_S600x600_S600x200_S600x200_1_0_0_1_n_n_wf : DotDims.WF S600x600 S600x200 S600x200 [1] [0] [0] [1] [] []
  dot_S64x600_S600x300_S64x300_1_0_0_1_n_n_wf : DotDims.WF S64x600 S600x300 S64x300 [1] [0] [0] [1] [] []
  dot_S64x300_S300x300_S64x300_1_0_0_1_n_n_wf : DotDims.WF S64x300 S300x300 S64x300 [1] [0] [0] [1] [] []
  dot_S64x300_S300x100_S64x100_1_0_0_1_n_n_wf : DotDims.WF S64x300 S300x100 S64x100 [1] [0] [0] [1] [] []
  dot_S64x100_S100x50_S64x50_1_0_0_1_n_n_wf : DotDims.WF S64x100 S100x50 S64x50 [1] [0] [0] [1] [] []
  dot_S64x50_S50x9_S64x9_1_0_0_1_n_n_wf : DotDims.WF S64x50 S50x9 S64x9 [1] [0] [0] [1] [] []
  hrank0 : 0 < grid0.rank
  k0_t1_ok : k0_t1_loop.OK
  k0_off1_inb : ∀ k0_t1 : Fin k0_t1_loop.trips, ∀ a, (k0_off1 k0_t1) a + S1x600x50.size a ≤ S8x600x50.size a
  k0_off2_inb : ∀ k0_t1 : Fin k0_t1_loop.trips, ∀ a, (k0_off2 k0_t1) a + S1x600x8.size a ≤ S8x600x8.size a
  k0_off3_inb : ∀ k0_t1 : Fin k0_t1_loop.trips, ∀ a, (k0_off3 k0_t1) a + S1x600.size a ≤ S8x600.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x600x50.size a ≤ S64x600x50.size a
  hwx0_0 : ∀ i : grid0.Coords, EltTy.bits .f32 = 32 ∨ (Rect.block (s := S64x600x50) S8x600x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x600x8.size a ≤ S64x600x8.size a
  hwx0_1 : ∀ i : grid0.Coords, EltTy.bits .i32 = 32 ∨ (Rect.block (s := S64x600x8) S8x600x8.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x100.size a ≤ S50x100.size a
  hwx0_2 : ∀ i : grid0.Coords, EltTy.bits .bf16 = 32 ∨ (Rect.block (s := S50x100) S50x100.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x100.size a ≤ S1x100.size a
  hwx0_3 : ∀ i : grid0.Coords, EltTy.bits .f32 = 32 ∨ (Rect.block (s := S1x100) S1x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x100.size a ≤ S50x100.size a
  hwx0_4 : ∀ i : grid0.Coords, EltTy.bits .bf16 = 32 ∨ (Rect.block (s := S50x100) S50x100.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x100.size a ≤ S1x100.size a
  hwx0_5 : ∀ i : grid0.Coords, EltTy.bits .f32 = 32 ∨ (Rect.block (s := S1x100) S1x100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S100x200.size a ≤ S100x200.size a
  hwx0_6 : ∀ i : grid0.Coords, EltTy.bits .bf16 = 32 ∨ (Rect.block (s := S100x200) S100x200.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x200.size a ≤ S1x200.size a
  hwx0_7 : ∀ i : grid0.Coords, EltTy.bits .f32 = 32 ∨ (Rect.block (s := S1x200) S1x200.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S100x200.size a ≤ S100x200.size a
  hwx0_8 : ∀ i : grid0.Coords, EltTy.bits .bf16 = 32 ∨ (Rect.block (s := S100x200) S100x200.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x200.size a ≤ S1x200.size a
  hwx0_9 : ∀ i : grid0.Coords, EltTy.bits .f32 = 32 ∨ (Rect.block (s := S1x200) S1x200.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S200x600.size a ≤ S200x600.size a
  hwx0_10 : ∀ i : grid0.Coords, EltTy.bits .bf16 = 32 ∨ (Rect.block (s := S200x600) S200x600.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x600.size a ≤ S1x600.size a
  hwx0_11 : ∀ i : grid0.Coords, EltTy.bits .f32 = 32 ∨ (Rect.block (s := S1x600) S1x600.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S200x600.size a ≤ S200x600.size a
  hwx0_12 : ∀ i : grid0.Coords, EltTy.bits .bf16 = 32 ∨ (Rect.block (s := S200x600) S200x600.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x600.size a ≤ S1x600.size a
  hwx0_13 : ∀ i : grid0.Coords, EltTy.bits .f32 = 32 ∨ (Rect.block (s := S1x600) S1x600.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S8x600.size a ≤ S64x600.size a
  hwx0_14 : ∀ i : grid0.Coords, EltTy.bits .f32 = 32 ∨ (Rect.block (s := S64x600) S8x600.size (cc0_transform_14 i) (hinb0_14 i)).WholeWords (EltTy.packing .f32)

variable [Facts₀]

def dot_S600x50_S50x100_S600x100_1_0_0_1_n_n : DotDims S600x50 S50x100 S600x100 where
  lhsContracting := [1]
  rhsContracting := [0]
  lhsNonContracting := [0]
  rhsNonContracting := [1]
  lhsBatch := []
  rhsBatch := []
  wf := dot_S600x50_S50x100_S600x100_1_0_0_1_n_n_wf
def dot_S600x600_S600x50_S600x50_1_0_0_1_n_n : DotDims S600x600 S600x50 S600x50 where
  lhsContracting := [1]
  rhsContracting := [0]
  lhsNonContracting := [0]
  rhsNonContracting := [1]
  lhsBatch := []
  rhsBatch := []
  wf := dot_S600x600_S600x50_S600x50_1_0_0_1_n_n_wf
def dot_S600x100_S100x200_S600x200_1_0_0_1_n_n : DotDims S600x100 S100x200 S600x200 where
  lhsContracting := [1]
  rhsContracting := [0]
  lhsNonContracting := [0]
  rhsNonContracting := [1]
  lhsBatch := []
  rhsBatch := []
  wf := dot_S600x100_S100x200_S600x200_1_0_0_1_n_n_wf
def dot_S600x600_S600x100_S600x100_1_0_0_1_n_n : DotDims S600x600 S600x100 S600x100 where
  lhsContracting := [1]
  rhsContracting := [0]
  lhsNonContracting := [0]
  rhsNonContracting := [1]
  lhsBatch := []
  rhsBatch := []
  wf := dot_S600x600_S600x100_S600x100_1_0_0_1_n_n_wf
def dot_S600x200_S200x600_S600x600_1_0_0_1_n_n : DotDims S600x200 S200x600 S600x600 where
  lhsContracting := [1]
  rhsContracting := [0]
  lhsNonContracting := [0]
  rhsNonContracting := [1]
  lhsBatch := []
  rhsBatch := []
  wf := dot_S600x200_S200x600_S600x600_1_0_0_1_n_n_wf
def dot_S600x600_S600x200_S600x200_1_0_0_1_n_n : DotDims S600x600 S600x200 S600x200 where
  lhsContracting := [1]
  rhsContracting := [0]
  lhsNonContracting := [0]
  rhsNonContracting := [1]
  lhsBatch := []
  rhsBatch := []
  wf := dot_S600x600_S600x200_S600x200_1_0_0_1_n_n_wf
def dot_S64x600_S600x300_S64x300_1_0_0_1_n_n : DotDims S64x600 S600x300 S64x300 where
  lhsContracting := [1]
  rhsContracting := [0]
  lhsNonContracting := [0]
  rhsNonContracting := [1]
  lhsBatch := []
  rhsBatch := []
  wf := dot_S64x600_S600x300_S64x300_1_0_0_1_n_n_wf
def dot_S64x300_S300x300_S64x300_1_0_0_1_n_n : DotDims S64x300 S300x300 S64x300 where
  lhsContracting := [1]
  rhsContracting := [0]
  lhsNonContracting := [0]
  rhsNonContracting := [1]
  lhsBatch := []
  rhsBatch := []
  wf := dot_S64x300_S300x300_S64x300_1_0_0_1_n_n_wf
def dot_S64x300_S300x100_S64x100_1_0_0_1_n_n : DotDims S64x300 S300x100 S64x100 where
  lhsContracting := [1]
  rhsContracting := [0]
  lhsNonContracting := [0]
  rhsNonContracting := [1]
  lhsBatch := []
  rhsBatch := []
  wf := dot_S64x300_S300x100_S64x100_1_0_0_1_n_n_wf
def dot_S64x100_S100x50_S64x50_1_0_0_1_n_n : DotDims S64x100 S100x50 S64x50 where
  lhsContracting := [1]
  rhsContracting := [0]
  lhsNonContracting := [0]
  rhsNonContracting := [1]
  lhsBatch := []
  rhsBatch := []
  wf := dot_S64x100_S100x50_S64x50_1_0_0_1_n_n_wf
def dot_S64x50_S50x9_S64x9_1_0_0_1_n_n : DotDims S64x50 S50x9 S64x9 where
  lhsContracting := [1]
  rhsContracting := [0]
  lhsNonContracting := [0]
  rhsNonContracting := [1]
  lhsBatch := []
  rhsBatch := []
  wf := dot_S64x50_S50x9_S64x9_1_0_0_1_n_n_wf

abbrev win0_0 : Pipeline.Window sig grid0 :=
  Pipeline.Window.ofSpec (Memref.whole main_arg0) S8x600x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8x600x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S50x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S50x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S100x200.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x200.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S100x200.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1x200.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S200x600.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S1x600.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v18) S200x600.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v24) S1x600.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v25) S8x600.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S64x600x50 : Shape := ⟨3, ![64, 600, 50]⟩
abbrev S38400x8 : Shape := ⟨2, ![38400, 8]⟩
abbrev S100x50 : Shape := ⟨2, ![100, 50]⟩
abbrev S100 : Shape := ⟨1, ![100]⟩
abbrev S200x100 : Shape := ⟨2, ![200, 100]⟩
abbrev S200 : Shape := ⟨1, ![200]⟩
abbrev S600x200 : Shape := ⟨2, ![600, 200]⟩
abbrev S600 : Shape := ⟨1, ![600]⟩
abbrev S300x600 : Shape := ⟨2, ![300, 600]⟩
abbrev S300 : Shape := ⟨1, ![300]⟩
abbrev S300x300 : Shape := ⟨2, ![300, 300]⟩
abbrev S100x300 : Shape := ⟨2, ![100, 300]⟩
abbrev S50x100 : Shape := ⟨2, ![50, 100]⟩
abbrev S50 : Shape := ⟨1, ![50]⟩
abbrev S9x50 : Shape := ⟨2, ![9, 50]⟩
abbrev S9 : Shape := ⟨1, ![9]⟩
abbrev S38400x50 : Shape := ⟨2, ![38400, 50]⟩
abbrev S_ : Shape := ⟨0, ![]⟩
abbrev S38400x8x1 : Shape := ⟨3, ![38400, 8, 1]⟩
abbrev S38400x8x50 : Shape := ⟨3, ![38400, 8, 50]⟩
abbrev S38400x1x50 : Shape := ⟨3, ![38400, 1, 50]⟩
abbrev S38400x8x100 : Shape := ⟨3, ![38400, 8, 100]⟩
abbrev S1x1x100 : Shape := ⟨3, ![1, 1, 100]⟩
abbrev S38400x100 : Shape := ⟨2, ![38400, 100]⟩
abbrev S1x100 : Shape := ⟨2, ![1, 100]⟩
abbrev S38400x1x100 : Shape := ⟨3, ![38400, 1, 100]⟩
abbrev S38400x8x200 : Shape := ⟨3, ![38400, 8, 200]⟩
abbrev S1x1x200 : Shape := ⟨3, ![1, 1, 200]⟩
abbrev S38400x200 : Shape := ⟨2, ![38400, 200]⟩
abbrev S100x200 : Shape := ⟨2, ![100, 200]⟩
abbrev S1x200 : Shape := ⟨2, ![1, 200]⟩
abbrev S38400x1x200 : Shape := ⟨3, ![38400, 1, 200]⟩
abbrev S38400x8x600 : Shape := ⟨3, ![38400, 8, 600]⟩
abbrev S1x1x600 : Shape := ⟨3, ![1, 1, 600]⟩
abbrev S38400x600 : Shape := ⟨2, ![38400, 600]⟩
abbrev S200x600 : Shape := ⟨2, ![200, 600]⟩
abbrev S1x600 : Shape := ⟨2, ![1, 600]⟩
abbrev S38400 : Shape := ⟨1, ![38400]⟩
abbrev S64x600 : Shape := ⟨2, ![64, 600]⟩
abbrev S600x300 : Shape := ⟨2, ![600, 300]⟩
abbrev S64x300 : Shape := ⟨2, ![64, 300]⟩
abbrev S1x300 : Shape := ⟨2, ![1, 300]⟩
abbrev S300x100 : Shape := ⟨2, ![300, 100]⟩
abbrev S64x100 : Shape := ⟨2, ![64, 100]⟩
abbrev S64x50 : Shape := ⟨2, ![64, 50]⟩
abbrev S1x50 : Shape := ⟨2, ![1, 50]⟩
abbrev S50x9 : Shape := ⟨2, ![50, 9]⟩
abbrev S64x9 : Shape := ⟨2, ![64, 9]⟩
abbrev S1x9 : Shape := ⟨2, ![1, 9]⟩

abbrev nBuf : Space → Nat
  | .hbm => 139
  | .vmem => 0
  | .smem => 0
  | _ => 0

abbrev hbmTy0_0 (i : Nat) : BufTy := match i % 128 with
  | 0 => ⟨S64x600x50, .f32⟩
  | 1 => ⟨S38400x8, .i32⟩
  | 2 => ⟨S100x50, .f32⟩
  | 3 => ⟨S100, .f32⟩
  | 4 => ⟨S100x50, .f32⟩
  | 5 => ⟨S100, .f32⟩
  | 6 => ⟨S200x100, .f32⟩
  | 7 => ⟨S200, .f32⟩
  | 8 => ⟨S200x100, .f32⟩
  | 9 => ⟨S200, .f32⟩
  | 10 => ⟨S600x200, .f32⟩
  | 11 => ⟨S600, .f32⟩
  | 12 => ⟨S600x200, .f32⟩
  | 13 => ⟨S600, .f32⟩
  | 14 => ⟨S300x600, .f32⟩
  | 15 => ⟨S300, .f32⟩
  | 16 => ⟨S300x300, .f32⟩
  | 17 => ⟨S300, .f32⟩
  | 18 => ⟨S100x300, .f32⟩
  | 19 => ⟨S100, .f32⟩
  | 20 => ⟨S50x100, .f32⟩
  | 21 => ⟨S50, .f32⟩
  | 22 => ⟨S9x50, .f32⟩
  | 23 => ⟨S9, .f32⟩
  | 24 => ⟨S38400x50, .f32⟩
  | 25 => ⟨S_, .i32⟩
  | 26 => ⟨S38400x8, .i32⟩
  | 27 => ⟨S38400x8, .i1⟩
  | 28 => ⟨S_, .i32⟩
  | 29 => ⟨S38400x8, .i32⟩
  | 30 => ⟨S38400x8, .i32⟩
  | 31 => ⟨S38400x8, .i32⟩
  | 32 => ⟨S38400x8x1, .i32⟩
  | 33 => ⟨S38400x8x50, .f32⟩
  | 34 => ⟨S38400x1x50, .f32⟩
  | 35 => ⟨S38400x8x50, .f32⟩
  | 36 => ⟨S38400x8x50, .f32⟩
  | 37 => ⟨S38400x8x100, .f32⟩
  | 38 => ⟨S1x1x100, .f32⟩
  | 39 => ⟨S38400x8x100, .f32⟩
  | 40 => ⟨S38400x8x100, .f32⟩
  | 41 => ⟨S_, .f32⟩
  | 42 => ⟨S38400x100, .f32⟩
  | 43 => ⟨S50x100, .f32⟩
  | 44 => ⟨S38400x100, .f32⟩
  | 45 => ⟨S38400x100, .f32⟩
  | 46 => ⟨S1x100, .f32⟩
  | 47 => ⟨S38400x100, .f32⟩
  | 48 => ⟨S38400x100, .f32⟩
  | 49 => ⟨S38400x100, .f32⟩
  | 50 => ⟨S_, .i32⟩
  | 51 => ⟨S38400x8, .i32⟩
  | 52 => ⟨S38400x8, .i1⟩
  | 53 => ⟨S_, .i32⟩
  | 54 => ⟨S38400x8, .i32⟩
  | 55 => ⟨S38400x8, .i32⟩
  | 56 => ⟨S38400x8, .i32⟩
  | 57 => ⟨S38400x8x1, .i32⟩
  | 58 => ⟨S38400x8x100, .f32⟩
  | 59 => ⟨S38400x1x100, .f32⟩
  | 60 => ⟨S38400x8x100, .f32⟩
  | 61 => ⟨S38400x8x100, .f32⟩
  | 62 => ⟨S38400x8x200, .f32⟩
  | 63 => ⟨S1x1x200, .f32⟩
  | 64 => ⟨S38400x8x200, .f32⟩
  | 65 => ⟨S38400x8x200, .f32⟩
  | 66 => ⟨S_, .f32⟩
  | 67 => ⟨S38400x200, .f32⟩
  | 68 => ⟨S100x200, .f32⟩
  | 69 => ⟨S38400x200, .f32⟩
  | 70 => ⟨S38400x200, .f32⟩
  | 71 => ⟨S1x200, .f32⟩
  | 72 => ⟨S38400x200, .f32⟩
  | 73 => ⟨S38400x200, .f32⟩
  | 74 => ⟨S38400x200, .f32⟩
  | 75 => ⟨S_, .i32⟩
  | 76 => ⟨S38400x8, .i32⟩
  | 77 => ⟨S38400x8, .i1⟩
  | 78 => ⟨S_, .i32⟩
  | 79 => ⟨S38400x8, .i32⟩
  | 80 => ⟨S38400x8, .i32⟩
  | 81 => ⟨S38400x8, .i32⟩
  | 82 => ⟨S38400x8x1, .i32⟩
  | 83 => ⟨S38400x8x200, .f32⟩
  | 84 => ⟨S38400x1x200, .f32⟩
  | 85 => ⟨S38400x8x200, .f32⟩
  | 86 => ⟨S38400x8x200, .f32⟩
  | 87 => ⟨S38400x8x600, .f32⟩
  | 88 => ⟨S1x1x600, .f32⟩
  | 89 => ⟨S38400x8x600, .f32⟩
  | 90 => ⟨S38400x8x600, .f32⟩
  | 91 => ⟨S_, .f32⟩
  | 92 => ⟨S38400x600, .f32⟩
  | 93 => ⟨S200x600, .f32⟩
  | 94 => ⟨S38400x600, .f32⟩
  | 95 => ⟨S38400x600, .f32⟩
  | 96 => ⟨S1x600, .f32⟩
  | 97 => ⟨S38400x600, .f32⟩
  | 98 => ⟨S38400x600, .f32⟩
  | 99 => ⟨S_, .f32⟩
  | 100 => ⟨S38400, .f32⟩
  | 101 => ⟨S64x600, .f32⟩
  | 102 => ⟨S600x300, .f32⟩
  | 103 => ⟨S64x300, .f32⟩
  | 104 => ⟨S1x300, .f32⟩
  | 105 => ⟨S64x300, .f32⟩
  | 106 => ⟨S64x300, .f32⟩
  | 107 => ⟨S64x300, .f32⟩
  | 108 => ⟨S300x300, .f32⟩
  | 109 => ⟨S64x300, .f32⟩
  | 110 => ⟨S1x300, .f32⟩
  | 111 => ⟨S64x300, .f32⟩
  | 112 => ⟨S64x300, .f32⟩
  | 113 => ⟨S64x300, .f32⟩
  | 114 => ⟨S300x100, .f32⟩
  | 115 => ⟨S64x100, .f32⟩
  | 116 => ⟨S1x100, .f32⟩
  | 117 => ⟨S64x100, .f32⟩
  | 118 => ⟨S64x100, .f32⟩
  | 119 => ⟨S64x100, .f32⟩
  | 120 => ⟨S100x50, .f32⟩
  | 121 => ⟨S64x50, .f32⟩
  | 122 => ⟨S1x50, .f32⟩
  | 123 => ⟨S64x50, .f32⟩
  | 124 => ⟨S64x50, .f32⟩
  | 125 => ⟨S64x50, .f32⟩
  | 126 => ⟨S50x9, .f32⟩
  | 127 => ⟨S64x9, .f32⟩
  | _ => ⟨S64x600x50, .f32⟩

abbrev hbmTy0_1 (i : Nat) : BufTy := match i % 128 with
  | 0 => ⟨S1x9, .f32⟩
  | 1 => ⟨S64x9, .f32⟩
  | 2 => ⟨S64x9, .f32⟩
  | 3 => ⟨S_, .f32⟩
  | 4 => ⟨S_, .f32⟩
  | 5 => ⟨S_, .f32⟩
  | 6 => ⟨S64x9, .f32⟩
  | 7 => ⟨S64x9, .f32⟩
  | 8 => ⟨S_, .f32⟩
  | 9 => ⟨S64x9, .f32⟩
  | 10 => ⟨S64x9, .f32⟩
  | _ => ⟨S64x600x50, .f32⟩

abbrev hbmTy (i : Nat) : BufTy := match i / 128 with
  | 0 => hbmTy0_0 i
  | 1 => hbmTy0_1 i
  | _ => ⟨S64x600x50, .f32⟩

abbrev bufTy : (tb : Table) → Fin (tcTables nBuf tb) → BufTy
  | .hbm, ⟨i, _⟩ => hbmTy i
  | _, _ => ⟨S64x600x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_c : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_1 : Ref sig .tc := ⟨.hbm, 50, rfl⟩
abbrev main_v23 : Ref sig .tc := ⟨.hbm, 51, rfl⟩
abbrev main_v24 : Ref sig .tc := ⟨.hbm, 52, rfl⟩
abbrev main_c_2 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_3 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_4 : Ref sig .tc := ⟨.hbm, 75, rfl⟩
abbrev main_v45 : Ref sig .tc := ⟨.hbm, 76, rfl⟩
abbrev main_v46 : Ref sig .tc := ⟨.hbm, 77, rfl⟩
abbrev main_c_5 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_6 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_7 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_8 : Ref sig .tc := ⟨.hbm, 131, rfl⟩
abbrev main_cst_9 : Ref sig .tc := ⟨.hbm, 132, rfl⟩
abbrev main_call0_v0 : Ref sig .tc := ⟨.hbm, 133, rfl⟩
abbrev main_call0_v1 : Ref sig .tc := ⟨.hbm, 134, rfl⟩
abbrev main_call0_v2 : Ref sig .tc := ⟨.hbm, 135, rfl⟩
abbrev main_call0_v3 : Ref sig .tc := ⟨.hbm, 136, rfl⟩
abbrev main_call0_v4 : Ref sig .tc := ⟨.hbm, 137, rfl⟩
abbrev main_v97 : Ref sig .tc := ⟨.hbm, 138, rfl⟩

abbrev nD : Nat := 1
abbrev τ : Topo := Topo.v7x

variable {F : FTy → Type} [FloatOps F]

class Facts₀ : Prop where
  shapeCasts_S64x600x50_S38400x50 : S64x600x50.ShapeCasts S38400x50
  bcast_S_S38400x8 : S_.BroadcastsInDim S38400x8 (![] : Fin 0 → Fin S38400x8.rank)
  bcast_S38400x8_S38400x8x1_0_1 : S38400x8.BroadcastsInDim S38400x8x1 (![0, 1] : Fin 2 → Fin S38400x8x1.rank)
  bcast_S38400x50_S38400x1x50_0_2 : S38400x50.BroadcastsInDim S38400x1x50 (![0, 2] : Fin 2 → Fin S38400x1x50.rank)
  bcast_S38400x1x50_S38400x8x50_0_1_2 : S38400x1x50.BroadcastsInDim S38400x8x50 (![0, 1, 2] : Fin 3 → Fin S38400x8x50.rank)
  bcast_S100_S1x1x100_2 : S100.BroadcastsInDim S1x1x100 (![2] : Fin 1 → Fin S1x1x100.rank)
  bcast_S1x1x100_S38400x8x100_0_1_2 : S1x1x100.BroadcastsInDim S38400x8x100 (![0, 1, 2] : Fin 3 → Fin S38400x8x100.rank)
  reducesTo_S38400x8x100_S38400x100_d1 : S38400x8x100.ReducesTo [1] S38400x100
  h_S_ : 0 < S_.numel
  transposes_S100x50_S50x100_1_0 : S100x50.Transposes [1, 0] S50x100
  bcast_S100_S1x100_1 : S100.BroadcastsInDim S1x100 (![1] : Fin 1 → Fin S1x100.rank)
  bcast_S1x100_S38400x100_0_1 : S1x100.BroadcastsInDim S38400x100 (![0, 1] : Fin 2 → Fin S38400x100.rank)
  bcast_S38400x100_S38400x1x100_0_2 : S38400x100.BroadcastsInDim S38400x1x100 (![0, 2] : Fin 2 → Fin S38400x1x100.rank)
  bcast_S38400x1x100_S38400x8x100_0_1_2 : S38400x1x100.BroadcastsInDim S38400x8x100 (![0, 1, 2] : Fin 3 → Fin S38400x8x100.rank)
  bcast_S200_S1x1x200_2 : S200.BroadcastsInDim S1x1x200 (![2] : Fin 1 → Fin S1x1x200.rank)
  bcast_S1x1x200_S38400x8x200_0_1_2 : S1x1x200.BroadcastsInDim S38400x8x200 (![0, 1, 2] : Fin 3 → Fin S38400x8x200.rank)
  reducesTo_S38400x8x200_S38400x200_d1 : S38400x8x200.ReducesTo [1] S38400x200
  transposes_S200x100_S100x200_1_0 : S200x100.Transposes [1, 0] S100x200
  bcast_S200_S1x200_1 : S200.BroadcastsInDim S1x200 (![1] : Fin 1 → Fin S1x200.rank)
  bcast_S1x200_S38400x200_0_1 : S1x200.BroadcastsInDim S38400x200 (![0, 1] : Fin 2 → Fin S38400x200.rank)
  bcast_S38400x200_S38400x1x200_0_2 : S38400x200.BroadcastsInDim S38400x1x200 (![0, 2] : Fin 2 → Fin S38400x1x200.rank)
  bcast_S38400x1x200_S38400x8x200_0_1_2 : S38400x1x200.BroadcastsInDim S38400x8x200 (![0, 1, 2] : Fin 3 → Fin S38400x8x200.rank)
  bcast_S600_S1x1x600_2 : S600.BroadcastsInDim S1x1x600 (![2] : Fin 1 → Fin S1x1x600.rank)
  bcast_S1x1x600_S38400x8x600_0_1_2 : S1x1x600.BroadcastsInDim S38400x8x600 (![0, 1, 2] : Fin 3 → Fin S38400x8x600.rank)
  reducesTo_S38400x8x600_S38400x600_d1 : S38400x8x600.ReducesTo [1] S38400x600
  transposes_S600x200_S200x600_1_0 : S600x200.Transposes [1, 0] S200x600
  bcast_S600_S1x600_1 : S600.BroadcastsInDim S1x600 (![1] : Fin 1 → Fin S1x600.rank)
  bcast_S1x600_S38400x600_0_1 : S1x600.BroadcastsInDim S38400x600 (![0, 1] : Fin 2 → Fin S38400x600.rank)
  reducesTo_S38400x600_S38400_d1 : S38400x600.ReducesTo [1] S38400
  shapeCasts_S38400_S64x600 : S38400.ShapeCasts S64x600
  transposes_S300x600_S600x300_1_0 : S300x600.Transposes [1, 0] S600x300
  bcast_S300_S1x300_1 : S300.BroadcastsInDim S1x300 (![1] : Fin 1 → Fin S1x300.rank)
  bcast_S1x300_S64x300_0_1 : S1x300.BroadcastsInDim S64x300 (![0, 1] : Fin 2 → Fin S64x300.rank)
  transposes_S300x300_S300x300_1_0 : S300x300.Transposes [1, 0] S300x300
  transposes_S100x300_S300x100_1_0 : S100x300.Transposes [1, 0] S300x100
  bcast_S1x100_S64x100_0_1 : S1x100.BroadcastsInDim S64x100 (![0, 1] : Fin 2 → Fin S64x100.rank)
  transposes_S50x100_S100x50_1_0 : S50x100.Transposes [1, 0] S100x50
  bcast_S50_S1x50_1 : S50.BroadcastsInDim S1x50 (![1] : Fin 1 → Fin S1x50.rank)
  bcast_S1x50_S64x50_0_1 : S1x50.BroadcastsInDim S64x50 (![0, 1] : Fin 2 → Fin S64x50.rank)
  transposes_S9x50_S50x9_1_0 : S9x50.Transposes [1, 0] S50x9
  bcast_S9_S1x9_1 : S9.BroadcastsInDim S1x9 (![1] : Fin 1 → Fin S1x9.rank)
  bcast_S1x9_S64x9_0_1 : S1x9.BroadcastsInDim S64x9 (![0, 1] : Fin 2 → Fin S64x9.rank)
  bcast_S_S64x9 : S_.BroadcastsInDim S64x9 (![] : Fin 0 → Fin S64x9.rank)
  gather_S38400x50_S38400x8x1_S38400x8x50_2_0_n_n_0_2_150_wf : GatherDims.WF S38400x50 S38400x8x1 S38400x8x50 [2] [0] [] [0] [] 2 ![1, 50]
  dot_S38400x8x50_S100x50_S38400x8x100_2_1_01_0_n_n_wf : DotDims.WF S38400x8x50 S100x50 S38400x8x100 [2] [1] [0, 1] [0] [] []
  dot_S38400x50_S50x100_S38400x100_1_0_0_1_n_n_wf : DotDims.WF S38400x50 S50x100 S38400x100 [1] [0] [0] [1] [] []
  gather_S38400x100_S38400x8x1_S38400x8x100_2_0_n_n_0_2_1100_wf : GatherDims.WF S38400x100 S38400x8x1 S38400x8x100 [2] [0] [] [0] [] 2 ![1, 100]
  dot_S38400x8x100_S200x100_S38400x8x200_2_1_01_0_n_n_wf : DotDims.WF S38400x8x100 S200x100 S38400x8x200 [2] [1] [0, 1] [0] [] []
  dot_S38400x100_S100x200_S38400x200_1_0_0_1_n_n_wf : DotDims.WF S38400x100 S100x200 S38400x200 [1] [0] [0] [1] [] []
  gather_S38400x200_S38400x8x1_S38400x8x200_2_0_n_n_0_2_1200_wf : GatherDims.WF S38400x200 S38400x8x1 S38400x8x200 [2] [0] [] [0] [] 2 ![1, 200]
  dot_S38400x8x200_S600x200_S38400x8x600_2_1_01_0_n_n_wf : DotDims.WF S38400x8x200 S600x200 S38400x8x600 [2] [1] [0, 1] [0] [] []
  dot_S38400x200_S200x600_S38400x600_1_0_0_1_n_n_wf : DotDims.WF S38400x200 S200x600 S38400x600 [1] [0] [0] [1] [] []
  dot_S64x600_S600x300_S64x300_1_0_0_1_n_n_wf : DotDims.WF S64x600 S600x300 S64x300 [1] [0] [0] [1] [] []
  dot_S64x300_S300x300_S64x300_1_0_0_1_n_n_wf : DotDims.WF S64x300 S300x300 S64x300 [1] [0] [0] [1] [] []
  dot_S64x300_S300x100_S64x100_1_0_0_1_n_n_wf : DotDims.WF S64x300 S300x100 S64x100 [1] [0] [0] [1] [] []
  dot_S64x100_S100x50_S64x50_1_0_0_1_n_n_wf : DotDims.WF S64x100 S100x50 S64x50 [1] [0] [0] [1] [] []
  dot_S64x50_S50x9_S64x9_1_0_0_1_n_n_wf : DotDims.WF S64x50 S50x9 S64x9 [1] [0] [0] [1] [] []

variable [Facts₀]

def gather_S38400x50_S38400x8x1_S38400x8x50_2_0_n_n_0_2_150 : GatherDims S38400x50 S38400x8x1 S38400x8x50 where
  offsetDims := [2]
  collapsedSliceDims := [0]
  operandBatchingDims := []
  startIndicesBatchingDims := []
  startIndexMap := [0]
  indexVectorDim := 2
  sliceSizes := ![1, 50]
  wf := gather_S38400x50_S38400x8x1_S38400x8x50_2_0_n_n_0_2_150_wf
def dot_S38400x8x50_S100x50_S38400x8x100_2_1_01_0_n_n : DotDims S38400x8x50 S100x50 S38400x8x100 where
  lhsContracting := [2]
  rhsContracting := [1]
  lhsNonContracting := [0, 1]
  rhsNonContracting := [0]
  lhsBatch := []
  rhsBatch := []
  wf := dot_S38400x8x50_S100x50_S38400x8x100_2_1_01_0_n_n_wf
def dot_S38400x50_S50x100_S38400x100_1_0_0_1_n_n : DotDims S38400x50 S50x100 S38400x100 where
  lhsContracting := [1]
  rhsContracting := [0]
  lhsNonContracting := [0]
  rhsNonContracting := [1]
  lhsBatch := []
  rhsBatch := []
  wf := dot_S38400x50_S50x100_S38400x100_1_0_0_1_n_n_wf
def gather_S38400x100_S38400x8x1_S38400x8x100_2_0_n_n_0_2_1100 : GatherDims S38400x100 S38400x8x1 S38400x8x100 where
  offsetDims := [2]
  collapsedSliceDims := [0]
  operandBatchingDims := []
  startIndicesBatchingDims := []
  startIndexMap := [0]
  indexVectorDim := 2
  sliceSizes := ![1, 100]
  wf := gather_S38400x100_S38400x8x1_S38400x8x100_2_0_n_n_0_2_1100_wf
def dot_S38400x8x100_S200x100_S38400x8x200_2_1_01_0_n_n : DotDims S38400x8x100 S200x100 S38400x8x200 where
  lhsContracting := [2]
  rhsContracting := [1]
  lhsNonContracting := [0, 1]
  rhsNonContracting := [0]
  lhsBatch := []
  rhsBatch := []
  wf := dot_S38400x8x100_S200x100_S38400x8x200_2_1_01_0_n_n_wf
def dot_S38400x100_S100x200_S38400x200_1_0_0_1_n_n : DotDims S38400x100 S100x200 S38400x200 where
  lhsContracting := [1]
  rhsContracting := [0]
  lhsNonContracting := [0]
  rhsNonContracting := [1]
  lhsBatch := []
  rhsBatch := []
  wf := dot_S38400x100_S100x200_S38400x200_1_0_0_1_n_n_wf
def gather_S38400x200_S38400x8x1_S38400x8x200_2_0_n_n_0_2_1200 : GatherDims S38400x200 S38400x8x1 S38400x8x200 where
  offsetDims := [2]
  collapsedSliceDims := [0]
  operandBatchingDims := []
  startIndicesBatchingDims := []
  startIndexMap := [0]
  indexVectorDim := 2
  sliceSizes := ![1, 200]
  wf := gather_S38400x200_S38400x8x1_S38400x8x200_2_0_n_n_0_2_1200_wf
def dot_S38400x8x200_S600x200_S38400x8x600_2_1_01_0_n_n : DotDims S38400x8x200 S600x200 S38400x8x600 where
  lhsContracting := [2]
  rhsContracting := [1]
  lhsNonContracting := [0, 1]
  rhsNonContracting := [0]
  lhsBatch := []
  rhsBatch := []
  wf := dot_S38400x8x200_S600x200_S38400x8x600_2_1_01_0_n_n_wf
def dot_S38400x200_S200x600_S38400x600_1_0_0_1_n_n : DotDims S38400x200 S200x600 S38400x600 where
  lhsContracting := [1]
  rhsContracting := [0]
  lhsNonContracting := [0]
  rhsNonContracting := [1]
  lhsBatch := []
  rhsBatch := []
  wf := dot_S38400x200_S200x600_S38400x600_1_0_0_1_n_n_wf
def dot_S64x600_S600x300_S64x300_1_0_0_1_n_n : DotDims S64x600 S600x300 S64x300 where
  lhsContracting := [1]
  rhsContracting := [0]
  lhsNonContracting := [0]
  rhsNonContracting := [1]
  lhsBatch := []
  rhsBatch := []
  wf := dot_S64x600_S600x300_S64x300_1_0_0_1_n_n_wf
def dot_S64x300_S300x300_S64x300_1_0_0_1_n_n : DotDims S64x300 S300x300 S64x300 where
  lhsContracting := [1]
  rhsContracting := [0]
  lhsNonContracting := [0]
  rhsNonContracting := [1]
  lhsBatch := []
  rhsBatch := []
  wf := dot_S64x300_S300x300_S64x300_1_0_0_1_n_n_wf
def dot_S64x300_S300x100_S64x100_1_0_0_1_n_n : DotDims S64x300 S300x100 S64x100 where
  lhsContracting := [1]
  rhsContracting := [0]
  lhsNonContracting := [0]
  rhsNonContracting := [1]
  lhsBatch := []
  rhsBatch := []
  wf := dot_S64x300_S300x100_S64x100_1_0_0_1_n_n_wf
def dot_S64x100_S100x50_S64x50_1_0_0_1_n_n : DotDims S64x100 S100x50 S64x50 where
  lhsContracting := [1]
  rhsContracting := [0]
  lhsNonContracting := [0]
  rhsNonContracting := [1]
  lhsBatch := []
  rhsBatch := []
  wf := dot_S64x100_S100x50_S64x50_1_0_0_1_n_n_wf
def dot_S64x50_S50x9_S64x9_1_0_0_1_n_n : DotDims S64x50 S50x9 S64x9 where
  lhsContracting := [1]
  rhsContracting := [0]
  lhsNonContracting := [0]
  rhsNonContracting := [1]
  lhsBatch := []
  rhsBatch := []
  wf := dot_S64x50_S50x9_S64x9_1_0_0_1_n_n_wf

class Facts : Prop extends Facts₀ where

variable [Facts]
-- ==== Proof.Net.lean ====
/-
  The network both programs compute, over the real numbers, one graph at a time.

  A graph has 600 nodes; node p has 8 neighbours nb p 0 … nb p 7 among the nodes of the same graph. One edge-convolution
  layer maps node features x : node → channel → ℝ to

      edge x … p d = max_k ( Σ_c (x (nb p k) c − x p c) · θ d c + θb d ) + Σ_c x p c · φ d c + φb d.

  Three layers are stacked (tanh after the first two), and the node's result is the maximum of the third layer over its
  channels. Two readings of one layer in the extended reals are shown equal to the coerced real value:
  * the gather-free one: the neighbour's row is picked by a 0/1 row vector, θ is applied to the picked row and to the
    node's own row separately, the eight results are folded by max from −∞, and θ·x_p is subtracted after the max
    (linearity of θ, and max_k (a_k − t) = max_k a_k − t);
  * the direct one: θ applied to the difference of the rows, a fold of max from −∞ over the neighbours.
  Everything is finite, so both are computations in ℝ.
-/
import Idealize.ShloMosaic.PureOps.Ideal.Laws

noncomputable section

namespace GNN

/-- One edge-convolution layer on one graph: θ on neighbour differences, max over the 8 neighbours, plus φ on the node. -/
def edge {n ci co : ℕ} (x : Fin n → Fin ci → ℝ) (nb : Fin n → Fin 8 → Fin n)
    (tw : Fin co → Fin ci → ℝ) (tb : Fin co → ℝ) (pw : Fin co → Fin ci → ℝ) (pb : Fin co → ℝ)
    (p : Fin n) (d : Fin co) : ℝ :=
  (Finset.univ.sup' Finset.univ_nonempty fun k : Fin 8 => (∑ c, (x (nb p k) c - x p c) * tw d c) + tb d)
    + (∑ c, x p c * pw d c) + pb d

/-- The weights of the three layers (θ and φ of each, with their biases), in the orientation [out, in]. -/
structure Params where
  t1w : Fin 100 → Fin 50 → ℝ
  t1b : Fin 100 → ℝ
  p1w : Fin 100 → Fin 50 → ℝ
  p1b : Fin 100 → ℝ
  t2w : Fin 200 → Fin 100 → ℝ
  t2b : Fin 200 → ℝ
  p2w : Fin 200 → Fin 100 → ℝ
  p2b : Fin 200 → ℝ
  t3w : Fin 600 → Fin 200 → ℝ
  t3b : Fin 600 → ℝ
  p3w : Fin 600 → Fin 200 → ℝ
  p3b : Fin 600 → ℝ

/-- First hidden layer of one graph. -/
def h1 (W : Params) (x : Fin 600 → Fin 50 → ℝ) (nb : Fin 600 → Fin 8 → Fin 600) (q : Fin 600) (c : Fin 100) : ℝ :=
  Real.tanh (edge x nb W.t1w W.t1b W.p1w W.p1b q c)

/-- Second hidden layer of one graph. -/
def h2 (W : Params) (x : Fin 600 → Fin 50 → ℝ) (nb : Fin 600 → Fin 8 → Fin 600) (q : Fin 600) (c : Fin 200) : ℝ :=
  Real.tanh (edge (h1 W x nb) nb W.t2w W.t2b W.p2w W.p2b q c)

/-- Third layer of one graph (no tanh). -/
def h3 (W : Params) (x : Fin 600 → Fin 50 → ℝ) (nb : Fin 600 → Fin 8 → Fin 600) (q : Fin 600) (d : Fin 600) : ℝ :=
  edge (h2 W x nb) nb W.t3w W.t3b W.p3w W.p3b q d

/-- A node's result: the maximum of the third layer over its 600 channels. -/
def node (W : Params) (x : Fin 600 → Fin 50 → ℝ) (nb : Fin 600 → Fin 8 → Fin 600) (p : Fin 600) : ℝ :=
  Finset.univ.sup' Finset.univ_nonempty fun d : Fin 600 => h3 W x nb p d

/-- The coercion ℝ → EReal commutes with finite sums (all terms are finite). -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion ℝ → EReal is monotone, hence commutes with max. -/
theorem coe_max (a b : ℝ) : ((max a b : ℝ) : EReal) = max (a : EReal) (b : EReal) :=
  EReal.coe_strictMono.monotone.map_max

/-- A sum of coerced products is the coerced sum of products. -/
theorem sum_coe_mul {ι : Type*} (s : Finset ι) (f g : ι → ℝ) :
    ∑ i ∈ s, (f i : EReal) * (g i : EReal) = ((∑ i ∈ s, f i * g i : ℝ) : EReal) := by
  rw [coe_sum]
  exact Finset.sum_congr rfl (fun i _ => (EReal.coe_mul (f i) (g i)).symm)

/-- A 0/1 row vector with its single 1 at j0 picks the entry j0 of a column of reals. -/
theorem pick_row {n : ℕ} (j0 : Fin n) (g : Fin n → ℝ) :
    ∑ j : Fin n, (if j0 = j then (1 : EReal) else 0) * (g j : EReal) = (g j0 : EReal) := by
  rw [Finset.sum_eq_single j0]
  · rw [if_pos rfl, one_mul]
  · intro b _ hb
    rw [if_neg (Ne.symm hb), zero_mul]
  · intro h
    exact absurd (Finset.mem_univ _) h

/-- Adding a constant commutes with a finite nonempty maximum. -/
theorem sup'_add_const {ι : Type*} (s : Finset ι) (hs : s.Nonempty) (a : ι → ℝ) (c : ℝ) :
    s.sup' hs (fun k => a k + c) = s.sup' hs a + c :=
  (Finset.comp_sup'_eq_sup'_comp hs (fun r => r + c) (fun u v => (max_add_add_right u v c).symm)).symm

/-- The left-nested maximum of eight reals is their maximum over Fin 8. -/
theorem max8_eq_sup' (a : Fin 8 → ℝ) :
    max (max (max (max (max (max (max (a 0) (a 1)) (a 2)) (a 3)) (a 4)) (a 5)) (a 6)) (a 7)
      = Finset.univ.sup' Finset.univ_nonempty a := by
  apply le_antisymm
  · refine max_le (max_le (max_le (max_le (max_le (max_le (max_le ?_ ?_) ?_) ?_) ?_) ?_) ?_) ?_ <;>
      exact Finset.le_sup' a (Finset.mem_univ _)
  · apply Finset.sup'_le
    intro k _
    fin_cases k <;> simp [le_max_iff]

/-- θ on the difference of two rows, plus the bias: θ on the neighbour's row plus a term that does not depend on
    the neighbour (linearity of θ). -/
theorem theta_diff {n ci co : ℕ} (x : Fin n → Fin ci → ℝ) (tw : Fin co → Fin ci → ℝ) (tb : Fin co → ℝ)
    (q p : Fin n) (d : Fin co) :
    (∑ c, (x q c - x p c) * tw d c) + tb d
      = (∑ c, x q c * tw d c) + (tb d - ∑ c, x p c * tw d c) := by
  simp only [sub_mul, Finset.sum_sub_distrib]
  ring

/-- The real value of one layer with θ·x_p taken out of the maximum. -/
theorem edge_eq {n ci co : ℕ} (x : Fin n → Fin ci → ℝ) (nb : Fin n → Fin 8 → Fin n)
    (tw : Fin co → Fin ci → ℝ) (tb : Fin co → ℝ) (pw : Fin co → Fin ci → ℝ) (pb : Fin co → ℝ)
    (p : Fin n) (d : Fin co) :
    edge x nb tw tb pw pb p d
      = (Finset.univ.sup' Finset.univ_nonempty fun k : Fin 8 => ∑ c, x (nb p k) c * tw d c)
          - (∑ c, x p c * tw d c) + tb d + ((∑ c, x p c * pw d c) + pb d) := by
  unfold edge
  have hfun : (fun k : Fin 8 => (∑ c, (x (nb p k) c - x p c) * tw d c) + tb d)
      = fun k : Fin 8 => (∑ c, x (nb p k) c * tw d c) + (tb d - ∑ c, x p c * tw d c) :=
    funext fun k => theta_diff x tw tb (nb p k) p d
  rw [hfun, sup'_add_const]
  ring

/-- A fold of max from −∞ over coerced reals is the coerced maximum. -/
theorem fold_max_coe {n : ℕ} (f : Fin (n + 1) → ℝ) :
    (Finset.univ : Finset (Fin (n + 1))).fold max (⊥ : EReal) (fun k => (f k : EReal))
      = ((Finset.univ.sup' Finset.univ_nonempty f : ℝ) : EReal) := by
  -- Finset.sup is by definition the fold of ⊔ = max from ⊥
  have h1 : (Finset.univ : Finset (Fin (n + 1))).fold max (⊥ : EReal) (fun k => (f k : EReal))
      = Finset.univ.sup (fun k => (f k : EReal)) := rfl
  rw [h1, ← Finset.sup'_eq_sup Finset.univ_nonempty]
  -- a max-preserving map commutes with a nonempty finite maximum
  exact (Finset.comp_sup'_eq_sup'_comp Finset.univ_nonempty (fun r : ℝ => (r : EReal))
    (fun a b => coe_max a b)).symm

/-- THE GATHER-FREE READING of one layer. M k is θ applied to the row picked by the k-th 0/1 row vector. -/
theorem kernel_layer {n ci co : ℕ} (x : Fin n → Fin ci → ℝ) (nb : Fin n → Fin 8 → Fin n)
    (tw : Fin co → Fin ci → ℝ) (tb : Fin co → ℝ) (pw : Fin co → Fin ci → ℝ) (pb : Fin co → ℝ)
    (p : Fin n) (d : Fin co)
    (M : Fin 8 → EReal)
    (hM : ∀ k, M k = ∑ c : Fin ci, (∑ j : Fin n, (if nb p k = j then (1 : EReal) else 0) * (x j c : EReal)) * (tw d c : EReal)) :
    ((max (max (max (max (max (max (max (max (⊥ : EReal) (M 0)) (M 1)) (M 2)) (M 3)) (M 4)) (M 5)) (M 6)) (M 7)
        - ∑ c : Fin ci, (x p c : EReal) * (tw d c : EReal)) + (tb d : EReal))
      + ((∑ c : Fin ci, (x p c : EReal) * (pw d c : EReal)) + (pb d : EReal))
      = ((edge x nb tw tb pw pb p d : ℝ) : EReal) := by
  -- every M k is the coercion of the real θ·x_{nb p k}
  have hMk : ∀ k, M k = ((∑ c, x (nb p k) c * tw d c : ℝ) : EReal) := by
    intro k
    rw [hM k, coe_sum]
    refine Finset.sum_congr rfl (fun c _ => ?_)
    rw [pick_row (nb p k) (fun j => x j c), EReal.coe_mul]
  rw [hMk 0, hMk 1, hMk 2, hMk 3, hMk 4, hMk 5, hMk 6, hMk 7, max_bot_left,
    sum_coe_mul, sum_coe_mul]
  -- the whole left side is now built from coerced reals
  simp only [← coe_max]
  rw [max8_eq_sup' (fun k => ∑ c, x (nb p k) c * tw d c),
    ← EReal.coe_sub, ← EReal.coe_add, ← EReal.coe_add, ← EReal.coe_add, edge_eq]

/-- THE DIRECT READING of one layer. -/
theorem ref_layer {n ci co : ℕ} (x : Fin n → Fin ci → ℝ) (nb : Fin n → Fin 8 → Fin n)
    (tw : Fin co → Fin ci → ℝ) (tb : Fin co → ℝ) (pw : Fin co → Fin ci → ℝ) (pb : Fin co → ℝ)
    (p : Fin n) (d : Fin co) :
    (((Finset.univ : Finset (Fin 8)).fold max (⊥ : EReal)
          (fun k => (∑ c : Fin ci, ((x (nb p k) c : EReal) - (x p c : EReal)) * (tw d c : EReal)) + (tb d : EReal)))
        + ∑ c : Fin ci, (x p c : EReal) * (pw d c : EReal)) + (pb d : EReal)
      = ((edge x nb tw tb pw pb p d : ℝ) : EReal) := by
  -- every folded term is a coerced real
  have hterm : (fun k : Fin 8 =>
        (∑ c : Fin ci, ((x (nb p k) c : EReal) - (x p c : EReal)) * (tw d c : EReal)) + (tb d : EReal))
      = fun k : Fin 8 => (((∑ c, (x (nb p k) c - x p c) * tw d c) + tb d : ℝ) : EReal) := by
    funext k
    rw [EReal.coe_add, coe_sum]
    refine congrArg (fun s : EReal => s + (tb d : EReal)) (Finset.sum_congr rfl (fun c _ => ?_))
    rw [EReal.coe_mul, EReal.coe_sub]
  rw [hterm, fold_max_coe (n := 7), sum_coe_mul, ← EReal.coe_add, ← EReal.coe_add]
  rfl

end GNN

end
-- ==== Proof.Reading.lean ====
/-
  What the argument arrays hold, as real data.

  The batched node array has 64 · 600 rows: row 600·b + p is node p of graph b. The precondition makes every float
  argument finite and puts every neighbour of a node inside the node's own graph, so the arguments ARE: real node
  features X b p c, a neighbour table NB b p k : Fin 600 local to graph b (the stored index is 600·b + NB b p k), and real
  weights W. Both programs are read against this one description.
-/
import Idealize.ShloMosaic.Lib.ValueIdx
import proofs.«411374_j22643067584549_2_alg».proof.Proof.Net

noncomputable section

namespace GNN

open Idealize.ShloMosaic Idealize.ShloMosaic.ValueIdx

/-- Row 600·b + p of the batched node array: node p of graph b. -/
def row (b : Fin 64) (p : Fin 600) : Fin 38400 := ⟨600 * b.val + p.val, by omega⟩

theorem row_val (b : Fin 64) (p : Fin 600) : (row b p).val = 600 * b.val + p.val := rfl

/-- The fourteen arguments the three edge-convolution layers read (node features, neighbour indices, θ and φ of each
    layer with their biases) are the coerced real data X, NB, W. -/
structure Agrees
    (a0 : FVec Ideal ⟨3, ![64, 600, 50]⟩ .f32) (a1 : IVec ⟨2, ![38400, 8]⟩ 32)
    (a2 : FVec Ideal ⟨2, ![100, 50]⟩ .f32) (a3 : FVec Ideal ⟨1, ![100]⟩ .f32)
    (a4 : FVec Ideal ⟨2, ![100, 50]⟩ .f32) (a5 : FVec Ideal ⟨1, ![100]⟩ .f32)
    (a6 : FVec Ideal ⟨2, ![200, 100]⟩ .f32) (a7 : FVec Ideal ⟨1, ![200]⟩ .f32)
    (a8 : FVec Ideal ⟨2, ![200, 100]⟩ .f32) (a9 : FVec Ideal ⟨1, ![200]⟩ .f32)
    (a10 : FVec Ideal ⟨2, ![600, 200]⟩ .f32) (a11 : FVec Ideal ⟨1, ![600]⟩ .f32)
    (a12 : FVec Ideal ⟨2, ![600, 200]⟩ .f32) (a13 : FVec Ideal ⟨1, ![600]⟩ .f32)
    (X : Fin 64 → Fin 600 → Fin 50 → ℝ) (NB : Fin 64 → Fin 600 → Fin 8 → Fin 600) (W : Params) : Prop where
  x : ∀ (b : Fin 64) (p : Fin 600) (c : Fin 50), a0 (ix3 b p c) = ((X b p c : ℝ) : EReal)
  nb : ∀ (b : Fin 64) (p : Fin 600) (k : Fin 8), a1 (ix2 (row b p) k) = BitVec.ofNat 32 (600 * b.val + (NB b p k).val)
  t1w : ∀ (d : Fin 100) (c : Fin 50), a2 (ix2 d c) = ((W.t1w d c : ℝ) : EReal)
  t1b : ∀ (d : Fin 100), a3 (ix1 d) = ((W.t1b d : ℝ) : EReal)
  p1w : ∀ (d : Fin 100) (c : Fin 50), a4 (ix2 d c) = ((W.p1w d c : ℝ) : EReal)
  p1b : ∀ (d : Fin 100), a5 (ix1 d) = ((W.p1b d : ℝ) : EReal)
  t2w : ∀ (d : Fin 200) (c : Fin 100), a6 (ix2 d c) = ((W.t2w d c : ℝ) : EReal)
  t2b : ∀ (d : Fin 200), a7 (ix1 d) = ((W.t2b d : ℝ) : EReal)
  p2w : ∀ (d : Fin 200) (c : Fin 100), a8 (ix2 d c) = ((W.p2w d c : ℝ) : EReal)
  p2b : ∀ (d : Fin 200), a9 (ix1 d) = ((W.p2b d : ℝ) : EReal)
  t3w : ∀ (d : Fin 600) (c : Fin 200), a10 (ix2 d c) = ((W.t3w d c : ℝ) : EReal)
  t3b : ∀ (d : Fin 600), a11 (ix1 d) = ((W.t3b d : ℝ) : EReal)
  p3w : ∀ (d : Fin 600) (c : Fin 200), a12 (ix2 d c) = ((W.p3w d c : ℝ) : EReal)
  p3b : ∀ (d : Fin 600), a13 (ix1 d) = ((W.p3b d : ℝ) : EReal)

end GNN

end
-- ==== Proof.PreFacts.lean ====
/-
  From the precondition to real data.

  The precondition is a conjunction: for each float argument, every entry's absolute value is below +∞ — so every entry
  is a real number —, and, for the neighbour indices read as a [64, 600, 8] array, entry (b, p, k) lies in
  [600·b, 600·b + 600): the neighbour is a node of graph b, at the local position (entry − 600·b) : Fin 600. Choosing the
  real values and the local positions gives the data X, NB, W that the argument arrays agree with.
-/
import Idealize.ShloMosaic.Lib.ReduceAll
import Idealize.ShloMosaic.Lib.StableHlo.Predicate
import Idealize.ShloMosaic.Lib.Pipeline.Value
import proofs.«411374_j22643067584549_2_alg».proof.Pre_finite_inputs
import proofs.«411374_j22643067584549_2_alg».proof.Proof.Reading

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-! ## A float entry whose absolute value is below +∞ is a real -/

/-- The pattern 0x7F800000 is +∞. -/
theorem top_bits : Ideal.ofBits .f32 0x7F800000#32 = (⊤ : EReal) := by
  simp [Ideal.ofBits, Ideal.ieee]

/-- max x (−x) < +∞ rules out both infinities. -/
theorem real_of_abs_lt (x : EReal) (h : Ideal.cmp .olt (max x (-x)) (Ideal.ofBits .f32 0x7F800000#32) = 1#1) :
    ∃ r : ℝ, x = (r : EReal) := by
  rw [top_bits] at h
  induction x using EReal.rec with
  | bot =>
    exfalso
    simp [Ideal.cmp] at h
  | coe r => exact ⟨r, rfl⟩
  | top =>
    exfalso
    simp [Ideal.cmp] at h

/-- One float conjunct: "all entries of |a| are below +∞" came out 1, so every entry of a is a real. -/
theorem real_of_all {s : Shape} {axes : List (Fin s.rank)} (a : FVec Ideal s .f32)
    (hb : S_.BroadcastsInDim s (![] : Fin 0 → Fin s.rank)) (hr : s.ReducesTo axes S_) (h0 : 0 < S_.numel)
    (h : Host.reduce IntOp.andi (cmpf .olt (Host.absf a) (broadcastInDim s ![] hb (constant S_ .f32 0x7F800000#32)))
          (constantI S_ 1 1#1) hr h0 ix0 = 1#1)
    (i : s.Idx) : ∃ r : ℝ, a i = (r : EReal) :=
  real_of_abs_lt (a i) (Host.reduce_andi_all _ _ hr h0 ix0 h i)

/-! ## A neighbour index inside its graph's block of 600 rows -/
/-- 600 times a graph number, as a word. -/
theorem muli_600 (b : ℕ) (hb : b < 64) : IntOp.muli (BitVec.ofNat 32 b) 600#32 = BitVec.ofNat 32 (600 * b) := by
  apply BitVec.eq_of_toNat_eq
  simp only [IntOp.muli, BitVec.toNat_mul, BitVec.toNat_ofNat]
  omega

theorem addi_600 (b : ℕ) (hb : b < 64) : IntOp.addi (BitVec.ofNat 32 (600 * b)) 600#32 = BitVec.ofNat 32 (600 * b + 600) := by
  apply BitVec.eq_of_toNat_eq
  simp only [IntOp.addi, BitVec.toNat_add, BitVec.toNat_ofNat]
  omega

/-- A word that is, signed, at least 600·b and below 600·b + 600 is 600·b + r for a position r below 600. -/
theorem word_range (w : BitVec 32) (b : ℕ) (hb : b < 64)
    (h1 : IntOp.cmpi .sge w (IntOp.muli (BitVec.ofNat 32 b) 600#32) = 1#1)
    (h2 : IntOp.cmpi .slt w (IntOp.addi (IntOp.muli (BitVec.ofNat 32 b) 600#32) 600#32) = 1#1) :
    ∃ r : Fin 600, w = BitVec.ofNat 32 (600 * b + r.val) := by
  rw [muli_600 b hb] at h1 h2
  rw [addi_600 b hb] at h2
  unfold IntOp.cmpi at h1 h2
  rw [StableHlo.Predicate.ofBool_eq_one_iff] at h1 h2
  simp only [BitVec.sle, BitVec.slt, decide_eq_true_eq,
    StableHlo.Predicate.toInt_ofNat_small (600 * b) (by omega),
    StableHlo.Predicate.toInt_ofNat_small (600 * b + 600) (by omega)] at h1 h2
  have h32 := w.isLt
  have hn : 600 * b ≤ w.toNat ∧ w.toNat < 600 * b + 600 := by
    unfold BitVec.toInt at h1 h2
    split at h1 <;> split at h2 <;> omega
  refine ⟨⟨w.toNat - 600 * b, by omega⟩, ?_⟩
  apply BitVec.eq_of_toNat_eq
  simp only [BitVec.toNat_ofNat]
  omega

/-- The neighbour conjunct read at (b, p, k): entry k of row 600·b + p of the index array is 600·b + r with r below 600. -/
theorem nb_of_all (a1 : IVec S38400x8 32) (hsc : S38400x8.ShapeCasts S64x600x8)
    (hb : S_.BroadcastsInDim S64x600x8 (![] : Fin 0 → Fin S64x600x8.rank))
    (hr : S64x600x8.ReducesTo [0, 1, 2] S_) (h0 : 0 < S_.numel)
    (h : Host.reduce IntOp.andi
          (andi (cmpi .sge (shapeCast S64x600x8 a1 hsc)
                  (muli (iotaInDim S64x600x8 32 0) (broadcastInDim S64x600x8 ![] hb (constantI S_ 32 600#32))))
                (cmpi .slt (shapeCast S64x600x8 a1 hsc)
                  (addi (muli (iotaInDim S64x600x8 32 0) (broadcastInDim S64x600x8 ![] hb (constantI S_ 32 600#32)))
                        (broadcastInDim S64x600x8 ![] hb (constantI S_ 32 600#32)))))
          (constantI S_ 1 1#1) hr h0 ix0 = 1#1)
    (b : Fin 64) (p : Fin 600) (k : Fin 8) :
    ∃ r : Fin 600, a1 (ix2 (GNN.row b p) k) = BitVec.ofNat 32 (600 * b.val + r.val) := by
  have e := Host.reduce_andi_all _ _ hr h0 ix0 h (ix3 b p k)
  have hread : shapeCast S64x600x8 a1 hsc (ix3 b p k) = a1 (ix2 (GNN.row b p) k) := by
    refine shapeCast_apply a1 hsc (ix3 b p k) (ix2 (GNN.row b p) k) ?_
    rw [Shape.rowMajor_val_two, Shape.rowMajor_val_three]
    show (GNN.row b p).val * 8 + k.val = (b.val * 600 + p.val) * 8 + k.val
    rw [GNN.row_val]
    omega
  obtain ⟨e1, e2⟩ := IntOp.andi_eq_one.1 e
  rw [← hread]
  exact word_range _ b.val b.isLt e1 e2

/-! ## The precondition, split into its conjuncts -/

/-- An `and` of two one-bit scalars that is 1 has both sides 1. -/
theorem andi_ix0 {x y : IVec S_ 1} (h : andi x y ix0 = 1#1) : x ix0 = 1#1 ∧ y ix0 = 1#1 := IntOp.andi_eq_one.1 h

/-- If the precondition holds of the argument arrays (its one bit is set), the fourteen arguments the edge-convolution
    layers read are coerced real data with every neighbour inside its node's own graph. -/
theorem exists_reading [Cert.Pre_finite_inputs.Facts]
    (a0 : FVec Ideal S64x600x50 .f32) (a1 : IVec S38400x8 32) (a2 : FVec Ideal S100x50 .f32) (a3 : FVec Ideal S100 .f32)
    (a4 : FVec Ideal S100x50 .f32) (a5 : FVec Ideal S100 .f32) (a6 : FVec Ideal S200x100 .f32) (a7 : FVec Ideal S200 .f32)
    (a8 : FVec Ideal S200x100 .f32) (a9 : FVec Ideal S200 .f32) (a10 : FVec Ideal S600x200 .f32) (a11 : FVec Ideal S600 .f32)
    (a12 : FVec Ideal S600x200 .f32) (a13 : FVec Ideal S600 .f32) (a14 : FVec Ideal S300x600 .f32) (a15 : FVec Ideal S300 .f32)
    (a16 : FVec Ideal S300x300 .f32) (a17 : FVec Ideal S300 .f32) (a18 : FVec Ideal S100x300 .f32) (a19 : FVec Ideal S100 .f32)
    (a20 : FVec Ideal S50x100 .f32) (a21 : FVec Ideal S50 .f32) (a22 : FVec Ideal S9x50 .f32) (a23 : FVec Ideal S9 .f32)
    (h : Cert.Pre_finite_inputs.fn (F := Ideal) a0 a1 a2 a3 a4 a5 a6 a7 a8 a9 a10 a11 a12 a13 a14 a15 a16 a17 a18 a19 a20 a21 a22 a23
          = fun _ => 1#1) :
    ∃ (X : Fin 64 → Fin 600 → Fin 50 → ℝ) (NB : Fin 64 → Fin 600 → Fin 8 → Fin 600) (W : GNN.Params),
      GNN.Agrees a0 a1 a2 a3 a4 a5 a6 a7 a8 a9 a10 a11 a12 a13 X NB W := by
  have e := congrFun h ix0
  dsimp only [fn, fn_part1, fn_part2, fn_part3, fn_part4, fn_part5, fn_part6, fn_part7] at e
  -- the conjunction is nested to the left: the last conjunct is the neighbour range, before it the float arguments 23 … 2, 0
  obtain ⟨e, h1⟩ := andi_ix0 e
  obtain ⟨e, -⟩ := andi_ix0 e
  obtain ⟨e, -⟩ := andi_ix0 e
  obtain ⟨e, -⟩ := andi_ix0 e
  obtain ⟨e, -⟩ := andi_ix0 e
  obtain ⟨e, -⟩ := andi_ix0 e
  obtain ⟨e, -⟩ := andi_ix0 e
  obtain ⟨e, -⟩ := andi_ix0 e
  obtain ⟨e, -⟩ := andi_ix0 e
  obtain ⟨e, -⟩ := andi_ix0 e
  obtain ⟨e, -⟩ := andi_ix0 e
  obtain ⟨e, h13⟩ := andi_ix0 e
  obtain ⟨e, h12⟩ := andi_ix0 e
  obtain ⟨e, h11⟩ := andi_ix0 e
  obtain ⟨e, h10⟩ := andi_ix0 e
  obtain ⟨e, h9⟩ := andi_ix0 e
  obtain ⟨e, h8⟩ := andi_ix0 e
  obtain ⟨e, h7⟩ := andi_ix0 e
  obtain ⟨e, h6⟩ := andi_ix0 e
  obtain ⟨e, h5⟩ := andi_ix0 e
  obtain ⟨e, h4⟩ := andi_ix0 e
  obtain ⟨e, h3⟩ := andi_ix0 e
  obtain ⟨h0, h2⟩ := andi_ix0 e
  -- every entry of the thirteen float arguments is a real; choose the reals
  choose X0 hX0 using real_of_all a0 _ _ _ h0
  choose X2 hX2 using real_of_all a2 _ _ _ h2
  choose X3 hX3 using real_of_all a3 _ _ _ h3
  choose X4 hX4 using real_of_all a4 _ _ _ h4
  choose X5 hX5 using real_of_all a5 _ _ _ h5
  choose X6 hX6 using real_of_all a6 _ _ _ h6
  choose X7 hX7 using real_of_all a7 _ _ _ h7
  choose X8 hX8 using real_of_all a8 _ _ _ h8
  choose X9 hX9 using real_of_all a9 _ _ _ h9
  choose X10 hX10 using real_of_all a10 _ _ _ h10
  choose X11 hX11 using real_of_all a11 _ _ _ h11
  choose X12 hX12 using real_of_all a12 _ _ _ h12
  choose X13 hX13 using real_of_all a13 _ _ _ h13
  -- every neighbour index is 600·b + (a position below 600); choose the positions
  choose NB hNB using nb_of_all a1 _ _ _ _ h1
  exact ⟨fun b p c => X0 (ix3 b p c), NB,
    ⟨fun d c => X2 (ix2 d c), fun d => X3 (ix1 d), fun d c => X4 (ix2 d c), fun d => X5 (ix1 d),
     fun d c => X6 (ix2 d c), fun d => X7 (ix1 d), fun d c => X8 (ix2 d c), fun d => X9 (ix1 d),
     fun d c => X10 (ix2 d c), fun d => X11 (ix1 d), fun d c => X12 (ix2 d c), fun d => X13 (ix1 d)⟩,
    ⟨fun b p c => hX0 _, hNB, fun d c => hX2 _, fun d => hX3 _, fun d c => hX4 _, fun d => hX5 _,
     fun d c => hX6 _, fun d => hX7 _, fun d c => hX8 _, fun d => hX9 _,
     fun d c => hX10 _, fun d => hX11 _, fun d c => hX12 _, fun d => hX13 _⟩⟩

end Cert.PreFacts

end
-- ==== Proof.LibRowGather.lean ====
/-
  A general lemma, free of any program: the ROW TAKE.

  jnp's x[idx] over a table x : [N, C] with an index array idx : [R, K] prints as a gather whose start indices are idx
  with a trailing unit axis [R, K, 1]; axis 0 of the table is collapsed and named by the start index, axis 2 of the
  result is the offset axis running over the table's columns. Read at (r, k, c) it is the table at row idx[r, k, 0] —
  the word read signed and clamped into [0, N − 1] — and column c.
-/
import Idealize.ShloMosaic.Lib.ValueIdx

noncomputable section

namespace RowGather

open Idealize.ShloMosaic Idealize.ShloMosaic.ValueIdx

/-- The gather record of the row take over an [N, C] table with [R, K, 1] start indices. -/
abbrev rowDims (N C R K : Nat)
    (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

/-- THE ROW TAKE READ AT (r, k, c): the table at the row the start index names (signed, clamped into [0, N − 1]), column c. -/
theorem gather_row_apply {α : Type} {N C R K w : Nat} (hN : 0 < N)
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (r : Fin R) (k : Fin K) (c : Fin C) :
    Host.gather (rowDims N C R K wf) x idx (ix3 r k c)
      = x (ix2 ⟨min (idx (ix3 r k (0 : Fin 1))).toInt.toNat (N - 1), by omega⟩ c) := by
  unfold Host.gather
  congr 1
  funext a
  refine Fin.ext ?_
  show (rowDims N C R K wf).start (ix3 r k c) idx a + (rowDims N C R K wf).batchCoord (ix3 r k c) a
      + (rowDims N C R K wf).offCoord (ix3 r k c) a = _
  -- no batching axes: the batching coordinate vanishes on both operand axes
  rw [GatherDims.batchCoord_eq_zero _ _ _ List.not_mem_nil, Nat.add_zero]
  have ha : a = (0 : Fin 2) ∨ a = (1 : Fin 2) := by
    match a with
    | ⟨0, _⟩ => exact Or.inl rfl
    | ⟨1, _⟩ => exact Or.inr rfl
  rcases ha with rfl | rfl
  · -- axis 0 is collapsed: no offset; its start is the start index, clamped into [0, N − 1]
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowDims N C R K wf).startIndexMap from List.mem_singleton.mpr rfl)]
    have hsi : (rowDims N C R K wf).siIdx (ix3 r k c) ⟨List.idxOf (0 : Fin 2) (rowDims N C R K wf).startIndexMap,
        List.idxOf_lt_length_iff.2 (List.mem_singleton.mpr rfl)⟩ = ix3 r k (0 : Fin 1) := by
      funext b; refine Fin.ext ?_
      match b with
      | ⟨0, _⟩ => rfl
      | ⟨1, _⟩ => rfl
      | ⟨2, _⟩ => rfl
    rw [hsi]
    rfl
  · -- axis 1 is kept and not named by the start index map: start 0, and the offset is the result's coordinate on axis 2
    have h10 : ¬ (1 : Fin 2) = 0 := fun h => absurd (congrArg Fin.val h) Nat.one_ne_zero
    unfold GatherDims.start
    rw [dif_neg (show (1 : Fin 2) ∉ (rowDims N C R K wf).startIndexMap from fun h => h10 (List.mem_singleton.mp h)),
      Nat.zero_add]
    unfold GatherDims.offCoord
    rw [dif_pos (show (1 : Fin 2) ∈ (rowDims N C R K wf).sKept from
      (GatherDims.mem_sKept _ _).mpr ⟨fun h => h10 (List.mem_singleton.mp h), List.not_mem_nil⟩)]
    rfl

/-- The same for any record that IS the row take's (a printed record differs from it only in its well-formedness proof). -/
theorem gather_row_apply_of_eq {α : Type} {N C R K w : Nat} (hN : 0 < N)
    (d : GatherDims ⟨2, ![N, C]⟩ ⟨3, ![R, K, 1]⟩ ⟨3, ![R, K, C]⟩)
    (wf : GatherDims.WF ⟨2, ![N, C]⟩ ⟨3, ![R, K, 1]⟩ ⟨3, ![R, K, C]⟩ [2] [0] [] [0] [] 2 ![1, C])
    (hd : d = rowDims N C R K wf)
    (x : (⟨2, ![N, C]⟩ : Shape).Idx → α) (idx : IVec ⟨3, ![R, K, 1]⟩ w) (r : Fin R) (k : Fin K) (c : Fin C) :
    Host.gather d x idx (ix3 r k c)
      = x (ix2 ⟨min (idx (ix3 r k (0 : Fin 1))).toInt.toNat (N - 1), by omega⟩ c) := by
  subst hd; exact gather_row_apply hN wf x idx r k c

end RowGather

end
-- ==== Proof.RefLayer1.lean ====
/-
  The reference's first layer, node by node.

  Row 600·b + q of the batched node array is node q of graph b. The reference gathers, for each node and each of its 8
  neighbour slots, the row the stored index names; the index is 600·b + NB b q k, non-negative and below 38400, so the
  sign test keeps it and the gather reads node NB b q k of the same graph. The layer is then θ on the difference of the
  two rows, plus the bias, folded by max from −∞ over the 8 slots, plus φ on the node's row and its bias, and tanh: the
  direct reading of GNN.edge, hence the coerced real GNN.h1.
-/
import Idealize.ShloMosaic.Lib.ValueIdx
import Idealize.ShloMosaic.Lib.Pipeline.Value
import Idealize.ShloMosaic.PureOps.Ideal.Laws
import Idealize.ShloMosaic.Lib.StableHlo.Predicate
import proofs.«411374_j22643067584549_2_alg».proof.Proof.Gen.ReferenceIdeal.Read
import proofs.«411374_j22643067584549_2_alg».proof.Proof.Reading
import proofs.«411374_j22643067584549_2_alg».proof.Proof.LibRowGather

noncomputable section

namespace Cert.RefValue

open Idealize.ShloMosaic Idealize.ShloMosaic.ValueIdx Cert.ReferenceIdeal Cert.ReferenceIdeal.Read

variable {a0 : FVec Ideal S64x600x50 .f32} {a1 : IVec S38400x8 32} {a2 : FVec Ideal S100x50 .f32} {a3 : FVec Ideal S100 .f32}
  {a4 : FVec Ideal S100x50 .f32} {a5 : FVec Ideal S100 .f32} {a6 : FVec Ideal S200x100 .f32} {a7 : FVec Ideal S200 .f32}
  {a8 : FVec Ideal S200x100 .f32} {a9 : FVec Ideal S200 .f32} {a10 : FVec Ideal S600x200 .f32} {a11 : FVec Ideal S600 .f32}
  {a12 : FVec Ideal S600x200 .f32} {a13 : FVec Ideal S600 .f32}
  {X : Fin 64 → Fin 600 → Fin 50 → ℝ} {NB : Fin 64 → Fin 600 → Fin 8 → Fin 600} {W : GNN.Params}

/-- The reshape keeps the row-major position: row 600·b + q, channel ch of the node array is entry (b, q, ch). -/
theorem node_row (hA : GNN.Agrees a0 a1 a2 a3 a4 a5 a6 a7 a8 a9 a10 a11 a12 a13 X NB W) (b : Fin 64) (q : Fin 600) (ch : Fin 50) :
    val_main_v0 (F := Ideal) a0 (ix2 (GNN.row b q) ch) = ((X b q ch : ℝ) : EReal) := by
  rw [val_main_v0_apply]
  have e : idx_main_v0 (ix2 (GNN.row b q) ch) = ix3 b q ch := funext fun a => Fin.ext (by
    have hb := b.isLt; have hq := q.isLt; have hc := ch.isLt
    match a with
    | ⟨0, _⟩ => show ((600 * b.val + q.val) * 50 + ch.val) / 30000 = b.val; omega
    | ⟨1, _⟩ => show ((600 * b.val + q.val) * 50 + ch.val) / 50 % 600 = q.val; omega
    | ⟨2, _⟩ => show ((600 * b.val + q.val) * 50 + ch.val) % 50 = ch.val; omega)
  rw [e, hA.x]

/-- The start index the gather reads for slot k of row 600·b + q: the stored word is non-negative, so the sign test
    keeps it. -/
theorem start_word (hA : GNN.Agrees a0 a1 a2 a3 a4 a5 a6 a7 a8 a9 a10 a11 a12 a13 X NB W) (b : Fin 64) (q : Fin 600) (k : Fin 8) :
    val_main_v6 (F := Ideal) a1 (ix3 (GNN.row b q) k (0 : Fin 1)) = BitVec.ofNat 32 (600 * b.val + (NB b q k).val) := by
  rw [val_main_v6_apply]
  have e : idx_main_v6 (ix3 (GNN.row b q) k (0 : Fin 1)) = ix2 (GNN.row b q) k := funext fun a => Fin.ext (by
    match a with
    | ⟨0, _⟩ => rfl
    | ⟨1, _⟩ => rfl)
  rw [e, val_main_v5_apply, val_main_v2_apply, val_main_v1_apply, val_main_c_apply, hA.nb]
  have hlt : 600 * b.val + (NB b q k).val < 2 ^ 31 := by
    have hb := b.isLt; have hn := (NB b q k).isLt; omega
  have hc : IntOp.cmpi .slt (BitVec.ofNat 32 (600 * b.val + (NB b q k).val)) 0#32 = 0#1 := by
    apply eq_zero_of_ne_one
    intro h
    have h0 := (StableHlo.Predicate.slt_iff_toNat (a := BitVec.ofNat 32 (600 * b.val + (NB b q k).val)) (b := 0#32)
      (by rw [BitVec.toNat_ofNat]; omega) (by decide)).mp h
    exact Nat.not_lt_zero _ h0
  rw [hc, select_zero]

/-- The gathered row: slot k of row 600·b + q reads node NB b q k of the same graph. -/
theorem gather_row (hA : GNN.Agrees a0 a1 a2 a3 a4 a5 a6 a7 a8 a9 a10 a11 a12 a13 X NB W) (b : Fin 64) (q : Fin 600) (k : Fin 8) (ch : Fin 50) :
    val_main_v7 (F := Ideal) a0 a1 (ix3 (GNN.row b q) k ch) = ((X b (NB b q k) ch : ℝ) : EReal) := by
  unfold val_main_v7
  refine (RowGather.gather_row_apply_of_eq (N := 38400) (C := 50) (R := 38400) (K := 8) (by decide)
    gather_S38400x50_S38400x8x1_S38400x8x50_2_0_n_n_0_2_150 Gen.gather_S38400x50_S38400x8x1_S38400x8x50_2_0_n_n_0_2_150_wf rfl
    (val_main_v0 (F := Ideal) a0) (val_main_v6 (F := Ideal) a1) (GNN.row b q) k ch).trans ?_
  have hlt : 600 * b.val + (NB b q k).val < 2 ^ 31 := by
    have hb := b.isLt; have hn := (NB b q k).isLt; omega
  have e : ∀ (h : min (val_main_v6 (F := Ideal) a1 (ix3 (GNN.row b q) k (0 : Fin 1))).toInt.toNat (38400 - 1) < 38400),
      (⟨_, h⟩ : Fin 38400) = GNN.row b (NB b q k) := fun h => Fin.ext (by
    show min (val_main_v6 (F := Ideal) a1 (ix3 (GNN.row b q) k (0 : Fin 1))).toInt.toNat (38400 - 1) = 600 * b.val + (NB b q k).val
    rw [start_word hA, StableHlo.Predicate.toInt_ofNat_small _ hlt, Int.toNat_natCast]
    have hb := b.isLt; have hn := (NB b q k).isLt; omega)
  rw [e, node_row hA]

/-- The node's own row, repeated over the 8 slots. -/
theorem own_row (hA : GNN.Agrees a0 a1 a2 a3 a4 a5 a6 a7 a8 a9 a10 a11 a12 a13 X NB W) (b : Fin 64) (q : Fin 600) (k : Fin 8) (ch : Fin 50) :
    val_main_v9 (F := Ideal) a0 (ix3 (GNN.row b q) k ch) = ((X b q ch : ℝ) : EReal) := by
  rw [val_main_v9_apply, val_main_v8_apply]
  have e : idx_main_v8 (idx_main_v9 (ix3 (GNN.row b q) k ch)) = ix2 (GNN.row b q) ch := funext fun a => Fin.ext (by
    match a with
    | ⟨0, _⟩ => rfl
    | ⟨1, _⟩ => rfl)
  rw [e, node_row hA]

/-- The difference of the neighbour's row and the node's row. -/
theorem diff_at (hA : GNN.Agrees a0 a1 a2 a3 a4 a5 a6 a7 a8 a9 a10 a11 a12 a13 X NB W) (b : Fin 64) (q : Fin 600) (k : Fin 8) (ch : Fin 50) :
    val_main_v10 (F := Ideal) a0 a1 (ix3 (GNN.row b q) k ch)
      = ((X b (NB b q k) ch : ℝ) : EReal) - ((X b q ch : ℝ) : EReal) := by
  rw [val_main_v10_apply, Ideal.subf_def, gather_row hA, own_row hA]

/-- θ on the difference: the contraction over the 50 input channels. -/
theorem theta_at (hA : GNN.Agrees a0 a1 a2 a3 a4 a5 a6 a7 a8 a9 a10 a11 a12 a13 X NB W) (b : Fin 64) (q : Fin 600) (k : Fin 8) (d : Fin 100) :
    val_main_v11 (F := Ideal) a0 a1 a2 (ix3 (GNN.row b q) k d)
      = ∑ c : Fin 50, (((X b (NB b q k) c : ℝ) : EReal) - ((X b q c : ℝ) : EReal)) * ((W.t1w d c : ℝ) : EReal) := by
  rw [val_main_v11_apply]
  refine Finset.sum_congr rfl fun c _ => ?_
  have el : lidx_main_v11 (ix3 (GNN.row b q) k d) c = ix3 (GNN.row b q) k c := funext fun a => Fin.ext (by
    match a with
    | ⟨0, _⟩ => rfl
    | ⟨1, _⟩ => rfl
    | ⟨2, _⟩ => rfl)
  have er : ridx_main_v11 (ix3 (GNN.row b q) k d) c = ix2 d c := funext fun a => Fin.ext (by
    match a with
    | ⟨0, _⟩ => rfl
    | ⟨1, _⟩ => rfl)
  rw [el, er, diff_at hA, hA.t1w]

/-- The message of slot k: θ on the difference plus θ's bias. -/
theorem msg_at (hA : GNN.Agrees a0 a1 a2 a3 a4 a5 a6 a7 a8 a9 a10 a11 a12 a13 X NB W) (b : Fin 64) (q : Fin 600) (k : Fin 8) (d : Fin 100) :
    val_main_v14 (F := Ideal) a0 a1 a2 a3 (ix3 (GNN.row b q) k d)
      = (∑ c : Fin 50, (((X b (NB b q k) c : ℝ) : EReal) - ((X b q c : ℝ) : EReal)) * ((W.t1w d c : ℝ) : EReal))
          + ((W.t1b d : ℝ) : EReal) := by
  rw [val_main_v14_apply, Ideal.addf_def, theta_at hA, val_main_v13_apply, val_main_v12_apply]
  have e : idx_main_v12 (idx_main_v13 (ix3 (GNN.row b q) k d)) = ix1 d := funext fun a => Fin.ext (by
    match a with
    | ⟨0, _⟩ => rfl)
  rw [e, hA.t1b]

/-- The reduced shape: the middle axis (the 8 slots) dropped. -/
theorem reduces_mid : S38400x8x100.Reduces [1] S38400x100 := by decide

/-- The reduced index (row, d) with slot k put back on the middle axis is (row, k, d). -/
theorem lift_mid (r : Fin 38400) (d : Fin 100) (k : Fin (S38400x8x100.size 1)) :
    reduces_mid.lift (ix2 r d) k = ix3 r (⟨k.val, k.isLt⟩ : Fin 8) d := by
  funext c; apply Fin.ext
  fin_cases c <;> rfl

/-- A max-reduce over the middle axis, read at (row, d): the fold of max from the initial value over the 8 slots. -/
theorem reduce_mid (x : S38400x8x100.Idx → Ideal .f32) (init : S_.Idx → Ideal .f32) (r : Fin 38400) (d : Fin 100) :
    Host.reduce FloatOps.maximumf x init Gen.reducesTo_S38400x8x100_S38400x100_d1 Gen.h_S_ (ix2 r d)
      = (Finset.univ : Finset (Fin 8)).fold max (init (Shape.Idx.first Gen.h_S_)) (fun k => x (ix3 r k d)) := by
  refine (Host.reduce_eq_fold_single FloatOps.maximumf x init Gen.reducesTo_S38400x8x100_S38400x100_d1 reduces_mid Gen.h_S_
    (ix2 r d)).trans ?_
  have hf : (x ∘ reduces_mid.lift (ix2 r d)) = fun k : Fin 8 => x (ix3 r k d) :=
    funext fun k => congrArg x (lift_mid r d k)
  rw [hf]
  rfl

/-- The max over the 8 slots, folded from −∞. -/
theorem max_at (hA : GNN.Agrees a0 a1 a2 a3 a4 a5 a6 a7 a8 a9 a10 a11 a12 a13 X NB W) (b : Fin 64) (q : Fin 600) (d : Fin 100) :
    val_main_v15 (F := Ideal) a0 a1 a2 a3 (ix2 (GNN.row b q) d)
      = (Finset.univ : Finset (Fin 8)).fold max (⊥ : EReal) (fun k =>
          (∑ c : Fin 50, (((X b (NB b q k) c : ℝ) : EReal) - ((X b q c : ℝ) : EReal)) * ((W.t1w d c : ℝ) : EReal))
            + ((W.t1b d : ℝ) : EReal)) := by
  unfold val_main_v15
  refine (reduce_mid _ _ (GNN.row b q) d).trans ?_
  -- every folded element is the message of its slot
  have hf : (fun k : Fin 8 => val_main_v14 (F := Ideal) a0 a1 a2 a3 (ix3 (GNN.row b q) k d))
      = fun k : Fin 8 => (∑ c : Fin 50, (((X b (NB b q k) c : ℝ) : EReal) - ((X b q c : ℝ) : EReal)) * ((W.t1w d c : ℝ) : EReal))
          + ((W.t1b d : ℝ) : EReal) := funext fun k => msg_at hA b q k d
  -- the initial value is −∞
  have hinit : val_main_cst (F := Ideal) (Shape.Idx.first Gen.h_S_) = (⊥ : Ideal .f32) := by
    rw [val_main_cst_apply]
    show Ideal.ofBits .f32 0xFF800000#32 = ⊥
    simp [Ideal.ofBits, Ideal.ieee]
  rw [hf, hinit]

/-- φ on the node's own row: the second matmul reads the transposed weight. -/
theorem phi_at (hA : GNN.Agrees a0 a1 a2 a3 a4 a5 a6 a7 a8 a9 a10 a11 a12 a13 X NB W) (b : Fin 64) (q : Fin 600) (d : Fin 100) :
    val_main_v17 (F := Ideal) a0 a4 (ix2 (GNN.row b q) d)
      = ∑ c : Fin 50, ((X b q c : ℝ) : EReal) * ((W.p1w d c : ℝ) : EReal) := by
  rw [val_main_v17_apply]
  refine Finset.sum_congr rfl fun c _ => ?_
  have el : lidx_main_v17 (ix2 (GNN.row b q) d) c = ix2 (GNN.row b q) c := funext fun a => Fin.ext (by
    match a with
    | ⟨0, _⟩ => rfl
    | ⟨1, _⟩ => rfl)
  have er : ridx_main_v17 (ix2 (GNN.row b q) d) c = ix2 c d := funext fun a => Fin.ext (by
    match a with
    | ⟨0, _⟩ => rfl
    | ⟨1, _⟩ => rfl)
  rw [el, er, node_row hA, val_main_v16_apply]
  have et : idx_main_v16 (ix2 c d) = ix2 d c := funext fun a => Fin.ext (by
    match a with
    | ⟨0, _⟩ => rfl
    | ⟨1, _⟩ => rfl)
  rw [et, hA.p1w]

/-- φ's bias, repeated over the rows. -/
theorem bias_at (hA : GNN.Agrees a0 a1 a2 a3 a4 a5 a6 a7 a8 a9 a10 a11 a12 a13 X NB W) (r : Fin 38400) (d : Fin 100) :
    val_main_v20 (F := Ideal) a5 (ix2 r d) = ((W.p1b d : ℝ) : EReal) := by
  rw [val_main_v20_apply, val_main_v19_apply]
  have e : idx_main_v19 (idx_main_v20 (ix2 r d)) = ix1 d := funext fun a => Fin.ext (by
    match a with
    | ⟨0, _⟩ => rfl)
  rw [e, hA.p1b]

/-- Layer 1 of the reference at row 600·b + q, channel c, is the real first hidden layer of graph b. -/
theorem layer1 (hA : GNN.Agrees a0 a1 a2 a3 a4 a5 a6 a7 a8 a9 a10 a11 a12 a13 X NB W) (b : Fin 64) (q : Fin 600) (c : Fin 100) :
    val_main_v22 (F := Ideal) a0 a1 a2 a3 a4 a5 (ix2 (GNN.row b q) c) = ((GNN.h1 W (X b) (NB b) q c : ℝ) : EReal) := by
  rw [val_main_v22_apply, val_main_v21_apply, val_main_v18_apply, Ideal.hostUnary_tanh_def, Ideal.addf_def, Ideal.addf_def,
    max_at hA, phi_at hA, bias_at hA, GNN.ref_layer (X b) (NB b) W.t1w W.t1b W.p1w W.p1b q c, Ideal.tanh_coe]
  rfl

end Cert.RefValue

end
-- ==== Proof.RefLayer2.lean ====
/-
  The reference's second layer, node by node: the same reading as the first layer, over the first hidden layer's rows
  (each the coerced real GNN.h1 of its graph) with the second layer's weights.
-/
import Idealize.ShloMosaic.Lib.ValueIdx
import Idealize.ShloMosaic.Lib.Pipeline.Value
import Idealize.ShloMosaic.PureOps.Ideal.Laws
import proofs.«411374_j22643067584549_2_alg».proof.Proof.Gen.ReferenceIdeal.Read
import proofs.«411374_j22643067584549_2_alg».proof.Proof.Reading
import proofs.«411374_j22643067584549_2_alg».proof.Proof.LibRowGather
import Idealize.ShloMosaic.Lib.StableHlo.Predicate

noncomputable section

namespace Cert.RefValue

open Idealize.ShloMosaic Idealize.ShloMosaic.ValueIdx Cert.ReferenceIdeal Cert.ReferenceIdeal.Read

variable {a0 : FVec Ideal S64x600x50 .f32} {a1 : IVec S38400x8 32} {a2 : FVec Ideal S100x50 .f32} {a3 : FVec Ideal S100 .f32}
  {a4 : FVec Ideal S100x50 .f32} {a5 : FVec Ideal S100 .f32} {a6 : FVec Ideal S200x100 .f32} {a7 : FVec Ideal S200 .f32}
  {a8 : FVec Ideal S200x100 .f32} {a9 : FVec Ideal S200 .f32} {a10 : FVec Ideal S600x200 .f32} {a11 : FVec Ideal S600 .f32}
  {a12 : FVec Ideal S600x200 .f32} {a13 : FVec Ideal S600 .f32}
  {X : Fin 64 → Fin 600 → Fin 50 → ℝ} {NB : Fin 64 → Fin 600 → Fin 8 → Fin 600} {W : GNN.Params}

/-- The start index the second layer's row take reads at (600·b + q, k): the stored neighbour word, kept by the
    negative-index select because it is non-negative. -/
private theorem l2_start (hA : GNN.Agrees a0 a1 a2 a3 a4 a5 a6 a7 a8 a9 a10 a11 a12 a13 X NB W)
    (b : Fin 64) (q : Fin 600) (k : Fin 8) :
    val_main_v28 (F := Ideal) a1 (ix3 (GNN.row b q) k (0 : Fin 1)) = BitVec.ofNat 32 (600 * b.val + (NB b q k).val) := by
  have hi : idx_main_v28 (ix3 (GNN.row b q) k (0 : Fin 1)) = ix2 (GNN.row b q) k :=
    funext fun a => Fin.ext (by match a with | ⟨0, _⟩ => rfl | ⟨1, _⟩ => rfl)
  rw [val_main_v28_apply, hi, val_main_v27_apply, val_main_v24_apply, val_main_v23_apply, val_main_c_1_apply, hA.nb b q k]
  have hlt : 600 * b.val + (NB b q k).val < 2 ^ 31 := by
    have := b.isLt; have := (NB b q k).isLt; omega
  have hc : IntOp.cmpi .slt (BitVec.ofNat 32 (600 * b.val + (NB b q k).val)) 0#32 = 0#1 := by
    apply eq_zero_of_ne_one
    intro h
    have := (StableHlo.Predicate.slt_iff_toNat (a := BitVec.ofNat 32 (600 * b.val + (NB b q k).val)) (b := 0#32)
      (by rw [BitVec.toNat_ofNat]; omega) (by decide)).mp h
    simp at this
  rw [hc, select_zero]

/-- The row take of the second layer at (600·b + q, k, c): the first hidden layer's row of the k-th neighbour. -/
private theorem l2_gather (hA : GNN.Agrees a0 a1 a2 a3 a4 a5 a6 a7 a8 a9 a10 a11 a12 a13 X NB W)
    (h1 : ∀ (b : Fin 64) (q : Fin 600) (c : Fin 100),
      val_main_v22 (F := Ideal) a0 a1 a2 a3 a4 a5 (ix2 (GNN.row b q) c) = ((GNN.h1 W (X b) (NB b) q c : ℝ) : EReal))
    (b : Fin 64) (q : Fin 600) (k : Fin 8) (c : Fin 100) :
    val_main_v29 (F := Ideal) a0 a1 a2 a3 a4 a5 (ix3 (GNN.row b q) k c)
      = ((GNN.h1 W (X b) (NB b) (NB b q k) c : ℝ) : EReal) := by
  unfold val_main_v29
  rw [RowGather.gather_row_apply_of_eq (N := 38400) (C := 100) (R := 38400) (K := 8) (by decide)
    gather_S38400x100_S38400x8x1_S38400x8x100_2_0_n_n_0_2_1100
    gather_S38400x100_S38400x8x1_S38400x8x100_2_0_n_n_0_2_1100.wf rfl]
  have hlt : 600 * b.val + (NB b q k).val < 38400 := by
    have := b.isLt; have := (NB b q k).isLt; omega
  have hrow : ∀ (hp : min (val_main_v28 (F := Ideal) a1 (ix3 (GNN.row b q) k (0 : Fin 1))).toInt.toNat (38400 - 1) < 38400),
      (⟨min (val_main_v28 (F := Ideal) a1 (ix3 (GNN.row b q) k (0 : Fin 1))).toInt.toNat (38400 - 1), hp⟩ : Fin 38400)
        = GNN.row b (NB b q k) := by
    intro hp
    apply Fin.ext
    show min (val_main_v28 (F := Ideal) a1 (ix3 (GNN.row b q) k (0 : Fin 1))).toInt.toNat (38400 - 1) = 600 * b.val + (NB b q k).val
    rw [l2_start hA b q k, StableHlo.Predicate.toInt_ofNat_small _ (by omega), Int.toNat_natCast]
    omega
  rw [hrow, h1 b (NB b q k) c]

/-- The neighbour difference at (600·b + q, k, c). -/
private theorem l2_diff (hA : GNN.Agrees a0 a1 a2 a3 a4 a5 a6 a7 a8 a9 a10 a11 a12 a13 X NB W)
    (h1 : ∀ (b : Fin 64) (q : Fin 600) (c : Fin 100),
      val_main_v22 (F := Ideal) a0 a1 a2 a3 a4 a5 (ix2 (GNN.row b q) c) = ((GNN.h1 W (X b) (NB b) q c : ℝ) : EReal))
    (b : Fin 64) (q : Fin 600) (k : Fin 8) (c : Fin 100) :
    val_main_v32 (F := Ideal) a0 a1 a2 a3 a4 a5 (ix3 (GNN.row b q) k c)
      = ((GNN.h1 W (X b) (NB b) (NB b q k) c : ℝ) : EReal) - ((GNN.h1 W (X b) (NB b) q c : ℝ) : EReal) := by
  have hi : idx_main_v30 (idx_main_v31 (ix3 (GNN.row b q) k c)) = ix2 (GNN.row b q) c :=
    funext fun a => Fin.ext (by match a with | ⟨0, _⟩ => rfl | ⟨1, _⟩ => rfl)
  rw [val_main_v32_apply, val_main_v31_apply, val_main_v30_apply, hi, l2_gather hA h1 b q k c, h1 b q c, Ideal.subf_def]

/-- The θ message at (600·b + q, k, d): θ on the neighbour difference plus its bias. -/
private theorem l2_msg (hA : GNN.Agrees a0 a1 a2 a3 a4 a5 a6 a7 a8 a9 a10 a11 a12 a13 X NB W)
    (h1 : ∀ (b : Fin 64) (q : Fin 600) (c : Fin 100),
      val_main_v22 (F := Ideal) a0 a1 a2 a3 a4 a5 (ix2 (GNN.row b q) c) = ((GNN.h1 W (X b) (NB b) q c : ℝ) : EReal))
    (b : Fin 64) (q : Fin 600) (k : Fin 8) (d : Fin 200) :
    val_main_v36 (F := Ideal) a0 a1 a2 a3 a4 a5 a6 a7 (ix3 (GNN.row b q) k d)
      = (∑ c : Fin 100, (((GNN.h1 W (X b) (NB b) (NB b q k) c : ℝ) : EReal) - ((GNN.h1 W (X b) (NB b) q c : ℝ) : EReal))
            * ((W.t2w d c : ℝ) : EReal)) + ((W.t2b d : ℝ) : EReal) := by
  have hl : ∀ c : Fin 100, lidx_main_v33 (ix3 (GNN.row b q) k d) c = ix3 (GNN.row b q) k c := fun c =>
    funext fun a => Fin.ext (by match a with | ⟨0, _⟩ => rfl | ⟨1, _⟩ => rfl | ⟨2, _⟩ => rfl)
  have hr : ∀ c : Fin 100, ridx_main_v33 (ix3 (GNN.row b q) k d) c = ix2 d c := fun c =>
    funext fun a => Fin.ext (by match a with | ⟨0, _⟩ => rfl | ⟨1, _⟩ => rfl)
  have hb : idx_main_v34 (idx_main_v35 (ix3 (GNN.row b q) k d)) = ix1 d :=
    funext fun a => Fin.ext (by match a with | ⟨0, _⟩ => rfl)
  rw [val_main_v36_apply, val_main_v33_apply, val_main_v35_apply, val_main_v34_apply, hb, hA.t2b d, Ideal.addf_def]
  refine congrArg (fun s : EReal => s + ((W.t2b d : ℝ) : EReal)) (Finset.sum_congr rfl (fun c _ => ?_))
  rw [hl c, hr c, l2_diff hA h1 b q k c, hA.t2w d c]

/-- The second layer's [38400, 8, 200] messages reduce over their middle axis to [38400, 200]. -/
private theorem l2_reduces : S38400x8x200.Reduces [1] S38400x200 := by decide

/-- The reduced index (r, d) with the neighbour coordinate k put back is (r, k, d). -/
private theorem l2_lift (r : Fin 38400) (d : Fin 200) (k : Fin (S38400x8x200.size 1)) :
    l2_reduces.lift (ix2 r d) k = ix3 r (⟨k.val, k.isLt⟩ : Fin 8) d := by
  funext c; apply Fin.ext
  match c with
  | ⟨0, _⟩ => rfl
  | ⟨1, _⟩ => rfl
  | ⟨2, _⟩ => rfl

/-- From −∞ the max-reduce over the neighbour axis, at (r, d), is the fold of max over the eight entries (r, k, d). -/
private theorem l2_reduce (x : FVec Ideal S38400x8x200 .f32) (h' : S38400x8x200.ReducesTo [1] S38400x200)
    (hu : 0 < S_.numel) (r : Fin 38400) (d : Fin 200) :
    Host.reduce FloatOps.maximumf x (val_main_cst_3 (F := Ideal)) h' hu (ix2 r d)
      = (Finset.univ : Finset (Fin 8)).fold max (⊥ : EReal) (fun k => x (ix3 r k d)) := by
  rw [Host.reduce_eq_fold_single FloatOps.maximumf x _ h' l2_reduces hu (ix2 r d)]
  have hinit : val_main_cst_3 (F := Ideal) (Shape.Idx.first hu) = (⊥ : EReal) := by
    rw [val_main_cst_3_apply]
    show Ideal.ofBits .f32 0xFF800000#32 = ⊥
    simp [Ideal.ofBits, Ideal.ieee]
  have hf : (x ∘ l2_reduces.lift (ix2 r d)) = fun k : Fin 8 => x (ix3 r k d) :=
    funext fun k => congrArg x (l2_lift r d k)
  rw [hinit]
  exact congrArg (fun f => Finset.fold max (⊥ : EReal) f (Finset.univ : Finset (Fin 8))) hf

/-- The maximum over the 8 neighbours at (600·b + q, d): a fold of max from −∞ over the θ messages. -/
private theorem l2_max (hA : GNN.Agrees a0 a1 a2 a3 a4 a5 a6 a7 a8 a9 a10 a11 a12 a13 X NB W)
    (h1 : ∀ (b : Fin 64) (q : Fin 600) (c : Fin 100),
      val_main_v22 (F := Ideal) a0 a1 a2 a3 a4 a5 (ix2 (GNN.row b q) c) = ((GNN.h1 W (X b) (NB b) q c : ℝ) : EReal))
    (b : Fin 64) (q : Fin 600) (d : Fin 200) :
    val_main_v37 (F := Ideal) a0 a1 a2 a3 a4 a5 a6 a7 (ix2 (GNN.row b q) d)
      = (Finset.univ : Finset (Fin 8)).fold max (⊥ : EReal) (fun k =>
          (∑ c : Fin 100, (((GNN.h1 W (X b) (NB b) (NB b q k) c : ℝ) : EReal) - ((GNN.h1 W (X b) (NB b) q c : ℝ) : EReal))
            * ((W.t2w d c : ℝ) : EReal)) + ((W.t2b d : ℝ) : EReal)) := by
  unfold val_main_v37
  rw [l2_reduce]
  exact Finset.fold_congr (fun k _ => l2_msg hA h1 b q k d)

/-- The φ term at (600·b + q, d): φ on the node's own first-hidden-layer row. -/
private theorem l2_phi (hA : GNN.Agrees a0 a1 a2 a3 a4 a5 a6 a7 a8 a9 a10 a11 a12 a13 X NB W)
    (h1 : ∀ (b : Fin 64) (q : Fin 600) (c : Fin 100),
      val_main_v22 (F := Ideal) a0 a1 a2 a3 a4 a5 (ix2 (GNN.row b q) c) = ((GNN.h1 W (X b) (NB b) q c : ℝ) : EReal))
    (b : Fin 64) (q : Fin 600) (d : Fin 200) :
    val_main_v39 (F := Ideal) a0 a1 a2 a3 a4 a5 a8 (ix2 (GNN.row b q) d)
      = ∑ c : Fin 100, ((GNN.h1 W (X b) (NB b) q c : ℝ) : EReal) * ((W.p2w d c : ℝ) : EReal) := by
  have hl : ∀ c : Fin 100, lidx_main_v39 (ix2 (GNN.row b q) d) c = ix2 (GNN.row b q) c := fun c =>
    funext fun a => Fin.ext (by match a with | ⟨0, _⟩ => rfl | ⟨1, _⟩ => rfl)
  have hr : ∀ c : Fin 100, idx_main_v38 (ridx_main_v39 (ix2 (GNN.row b q) d) c) = ix2 d c := fun c =>
    funext fun a => Fin.ext (by match a with | ⟨0, _⟩ => rfl | ⟨1, _⟩ => rfl)
  rw [val_main_v39_apply]
  refine Finset.sum_congr rfl (fun c _ => ?_)
  rw [val_main_v38_apply, hl c, hr c, h1 b q c, hA.p2w d c]

/-- Layer 2 of the reference at row 600·b + q, channel c, is the real second hidden layer of graph b. -/
theorem layer2 (hA : GNN.Agrees a0 a1 a2 a3 a4 a5 a6 a7 a8 a9 a10 a11 a12 a13 X NB W)
    (h1 : ∀ (b : Fin 64) (q : Fin 600) (c : Fin 100),
      val_main_v22 (F := Ideal) a0 a1 a2 a3 a4 a5 (ix2 (GNN.row b q) c) = ((GNN.h1 W (X b) (NB b) q c : ℝ) : EReal))
    (b : Fin 64) (q : Fin 600) (c : Fin 200) :
    val_main_v44 (F := Ideal) a0 a1 a2 a3 a4 a5 a6 a7 a8 a9 (ix2 (GNN.row b q) c) = ((GNN.h2 W (X b) (NB b) q c : ℝ) : EReal) := by
  have hb : idx_main_v41 (idx_main_v42 (ix2 (GNN.row b q) c)) = ix1 c :=
    funext fun a => Fin.ext (by match a with | ⟨0, _⟩ => rfl)
  rw [val_main_v44_apply, val_main_v43_apply, val_main_v40_apply, val_main_v42_apply, val_main_v41_apply, hb,
    l2_max hA h1 b q c, l2_phi hA h1 b q c, hA.p2b c,
    Ideal.addf_def, Ideal.addf_def, Ideal.hostUnary_tanh_def,
    GNN.ref_layer (GNN.h1 W (X b) (NB b)) (NB b) W.t2w W.t2b W.p2w W.p2b q c, Ideal.tanh_coe]
  rfl

end Cert.RefValue

end
-- ==== Proof.RefLayer3.lean ====
/-
  The reference's third layer and the node's result: the same reading of the layer over the second hidden layer's rows
  (no tanh), then the maximum over the 600 channels folded from −∞, and the [38400] vector re-laid as [64, 600]: entry
  (b, p) is row 600·b + p.
-/
import Idealize.ShloMosaic.Lib.ValueIdx
import Idealize.ShloMosaic.Lib.Pipeline.Value
import Idealize.ShloMosaic.PureOps.Ideal.Laws
import Idealize.ShloMosaic.Lib.StableHlo.Predicate
import proofs.«411374_j22643067584549_2_alg».proof.Proof.Gen.ReferenceIdeal.Read
import proofs.«411374_j22643067584549_2_alg».proof.Proof.Reading
import proofs.«411374_j22643067584549_2_alg».proof.Proof.LibRowGather

noncomputable section

namespace Cert.RefValue

open Idealize.ShloMosaic Idealize.ShloMosaic.ValueIdx Cert.ReferenceIdeal Cert.ReferenceIdeal.Read

variable {a0 : FVec Ideal S64x600x50 .f32} {a1 : IVec S38400x8 32} {a2 : FVec Ideal S100x50 .f32} {a3 : FVec Ideal S100 .f32}
  {a4 : FVec Ideal S100x50 .f32} {a5 : FVec Ideal S100 .f32} {a6 : FVec Ideal S200x100 .f32} {a7 : FVec Ideal S200 .f32}
  {a8 : FVec Ideal S200x100 .f32} {a9 : FVec Ideal S200 .f32} {a10 : FVec Ideal S600x200 .f32} {a11 : FVec Ideal S600 .f32}
  {a12 : FVec Ideal S600x200 .f32} {a13 : FVec Ideal S600 .f32}
  {X : Fin 64 → Fin 600 → Fin 50 → ℝ} {NB : Fin 64 → Fin 600 → Fin 8 → Fin 600} {W : GNN.Params}

/-- The start index the third layer's row take reads at (600·b + q, k): the stored word itself, since it is not negative
    as a signed word and the select keeps it. -/
theorem l3_start (hA : GNN.Agrees a0 a1 a2 a3 a4 a5 a6 a7 a8 a9 a10 a11 a12 a13 X NB W)
    (b : Fin 64) (q : Fin 600) (k : Fin 8) :
    val_main_v50 (F := Ideal) a1 (ix3 (GNN.row b q) k (0 : Fin 1)) = BitVec.ofNat 32 (600 * b.val + (NB b q k).val) := by
  have hi : idx_main_v50 (ix3 (GNN.row b q) k (0 : Fin 1)) = ix2 (GNN.row b q) k :=
    funext fun a => Fin.ext (by match a with | ⟨0, _⟩ => rfl | ⟨1, _⟩ => rfl)
  rw [val_main_v50_apply, hi, val_main_v49_apply, val_main_v46_apply, val_main_v45_apply, val_main_c_4_apply, hA.nb b q k]
  have hsmall : 600 * b.val + (NB b q k).val < 2 ^ 31 := by
    have := b.isLt; have := (NB b q k).isLt
    omega
  have hlt : (BitVec.ofNat 32 (600 * b.val + (NB b q k).val)).toNat < 2 ^ 31 := by
    rw [BitVec.toNat_ofNat, Nat.mod_eq_of_lt (by omega)]
    exact hsmall
  have hne : ¬ IntOp.cmpi .slt (BitVec.ofNat 32 (600 * b.val + (NB b q k).val)) 0#32 = 1#1 := by
    rw [StableHlo.Predicate.slt_iff_toNat hlt (by decide)]
    exact Nat.not_lt_zero _
  exact if_neg hne

/-- The row take of the third layer at (600·b + q, k, c): row NB b q k of graph b of the second hidden layer. -/
theorem l3_take (hA : GNN.Agrees a0 a1 a2 a3 a4 a5 a6 a7 a8 a9 a10 a11 a12 a13 X NB W)
    (h2 : ∀ (b : Fin 64) (q : Fin 600) (c : Fin 200),
      val_main_v44 (F := Ideal) a0 a1 a2 a3 a4 a5 a6 a7 a8 a9 (ix2 (GNN.row b q) c) = ((GNN.h2 W (X b) (NB b) q c : ℝ) : EReal))
    (b : Fin 64) (q : Fin 600) (k : Fin 8) (c : Fin 200) :
    val_main_v51 (F := Ideal) a0 a1 a2 a3 a4 a5 a6 a7 a8 a9 (ix3 (GNN.row b q) k c)
      = ((GNN.h2 W (X b) (NB b) (NB b q k) c : ℝ) : EReal) := by
  unfold val_main_v51
  rw [RowGather.gather_row_apply_of_eq (N := 38400) (C := 200) (R := 38400) (K := 8) (by decide)
    gather_S38400x200_S38400x8x1_S38400x8x200_2_0_n_n_0_2_1200
    gather_S38400x200_S38400x8x1_S38400x8x200_2_0_n_n_0_2_1200.wf rfl]
  refine (congrArg (val_main_v44 (F := Ideal) a0 a1 a2 a3 a4 a5 a6 a7 a8 a9) ?_).trans (h2 b (NB b q k) c)
  refine congrArg (fun r : Fin 38400 => ix2 r c) (Fin.ext ?_)
  show min (val_main_v50 (F := Ideal) a1 (ix3 (GNN.row b q) k (0 : Fin 1))).toInt.toNat (38400 - 1) = (GNN.row b (NB b q k)).val
  have hsmall : 600 * b.val + (NB b q k).val < 2 ^ 31 := by
    have := b.isLt; have := (NB b q k).isLt
    omega
  rw [l3_start hA b q k, StableHlo.Predicate.toInt_ofNat_small _ hsmall, Int.toNat_natCast, GNN.row_val]
  have := b.isLt; have := (NB b q k).isLt
  omega

/-- The node's own row, repeated over its eight neighbours, at (600·b + q, k, c). -/
theorem l3_self
    (h2 : ∀ (b : Fin 64) (q : Fin 600) (c : Fin 200),
      val_main_v44 (F := Ideal) a0 a1 a2 a3 a4 a5 a6 a7 a8 a9 (ix2 (GNN.row b q) c) = ((GNN.h2 W (X b) (NB b) q c : ℝ) : EReal))
    (b : Fin 64) (q : Fin 600) (k : Fin 8) (c : Fin 200) :
    val_main_v53 (F := Ideal) a0 a1 a2 a3 a4 a5 a6 a7 a8 a9 (ix3 (GNN.row b q) k c)
      = ((GNN.h2 W (X b) (NB b) q c : ℝ) : EReal) := by
  have h53 : idx_main_v53 (ix3 (GNN.row b q) k c) = ix3 (GNN.row b q) (0 : Fin 1) c :=
    funext fun a => Fin.ext (by match a with | ⟨0, _⟩ => rfl | ⟨1, _⟩ => rfl | ⟨2, _⟩ => rfl)
  have h52 : idx_main_v52 (ix3 (GNN.row b q) (0 : Fin 1) c) = ix2 (GNN.row b q) c :=
    funext fun a => Fin.ext (by match a with | ⟨0, _⟩ => rfl | ⟨1, _⟩ => rfl)
  rw [val_main_v53_apply, h53, val_main_v52_apply, h52, h2 b q c]

/-- The difference of the neighbour's row and the node's own row. -/
theorem l3_diff (hA : GNN.Agrees a0 a1 a2 a3 a4 a5 a6 a7 a8 a9 a10 a11 a12 a13 X NB W)
    (h2 : ∀ (b : Fin 64) (q : Fin 600) (c : Fin 200),
      val_main_v44 (F := Ideal) a0 a1 a2 a3 a4 a5 a6 a7 a8 a9 (ix2 (GNN.row b q) c) = ((GNN.h2 W (X b) (NB b) q c : ℝ) : EReal))
    (b : Fin 64) (q : Fin 600) (k : Fin 8) (c : Fin 200) :
    val_main_v54 (F := Ideal) a0 a1 a2 a3 a4 a5 a6 a7 a8 a9 (ix3 (GNN.row b q) k c)
      = ((GNN.h2 W (X b) (NB b) (NB b q k) c : ℝ) : EReal) - ((GNN.h2 W (X b) (NB b) q c : ℝ) : EReal) := by
  rw [val_main_v54_apply, l3_take hA h2 b q k c, l3_self h2 b q k c, Ideal.subf_def]

/-- θ on the difference of the rows plus its bias, at (600·b + q, k, d). -/
theorem l3_theta (hA : GNN.Agrees a0 a1 a2 a3 a4 a5 a6 a7 a8 a9 a10 a11 a12 a13 X NB W)
    (h2 : ∀ (b : Fin 64) (q : Fin 600) (c : Fin 200),
      val_main_v44 (F := Ideal) a0 a1 a2 a3 a4 a5 a6 a7 a8 a9 (ix2 (GNN.row b q) c) = ((GNN.h2 W (X b) (NB b) q c : ℝ) : EReal))
    (b : Fin 64) (q : Fin 600) (k : Fin 8) (d : Fin 600) :
    val_main_v58 (F := Ideal) a0 a1 a2 a3 a4 a5 a6 a7 a8 a9 a10 a11 (ix3 (GNN.row b q) k d)
      = (∑ c : Fin 200, (((GNN.h2 W (X b) (NB b) (NB b q k) c : ℝ) : EReal) - ((GNN.h2 W (X b) (NB b) q c : ℝ) : EReal))
            * ((W.t3w d c : ℝ) : EReal)) + ((W.t3b d : ℝ) : EReal) := by
  have hl : ∀ c : Fin 200, lidx_main_v55 (ix3 (GNN.row b q) k d) c = ix3 (GNN.row b q) k c := fun c =>
    funext fun a => Fin.ext (by match a with | ⟨0, _⟩ => rfl | ⟨1, _⟩ => rfl | ⟨2, _⟩ => rfl)
  have hr : ∀ c : Fin 200, ridx_main_v55 (ix3 (GNN.row b q) k d) c = ix2 d c := fun c =>
    funext fun a => Fin.ext (by match a with | ⟨0, _⟩ => rfl | ⟨1, _⟩ => rfl)
  have hb : idx_main_v56 (idx_main_v57 (ix3 (GNN.row b q) k d)) = ix1 d :=
    funext fun a => Fin.ext (by match a with | ⟨0, _⟩ => rfl)
  rw [val_main_v58_apply, val_main_v55_apply, val_main_v57_apply, val_main_v56_apply, hb, hA.t3b d, Ideal.addf_def]
  refine congrArg (fun s : EReal => s + ((W.t3b d : ℝ) : EReal)) (Finset.sum_congr rfl (fun c _ => ?_))
  rw [hl c, hr c, l3_diff hA h2 b q k c, hA.t3w d c]

/-- Dropping the neighbour axis of [38400, 8, 600] leaves [38400, 600]. -/
theorem l3_reduces8 : S38400x8x600.Reduces [1] S38400x600 := by decide

/-- Dropping the channel axis of [38400, 600] leaves [38400]. -/
theorem l3_reduces600 : S38400x600.Reduces [1] S38400 := by decide

/-- The word both maxima start from is −∞. -/
theorem l3_negInf : Ideal.ofBits .f32 0xFF800000#32 = (⊥ : EReal) := by
  simp [Ideal.ofBits, Ideal.ieee]

/-- Result index (r, d) of the maximum over the neighbours with the neighbour coordinate k put back is (r, k, d). -/
theorem l3_lift8 (r : Fin 38400) (d : Fin 600) (k : Fin (S38400x8x600.size 1)) :
    l3_reduces8.lift (ix2 r d) k = ix3 r (⟨k.val, k.isLt⟩ : Fin 8) d := by
  funext c; apply Fin.ext
  fin_cases c <;> rfl

/-- Result index r of the maximum over the channels with the channel coordinate d put back is (r, d). -/
theorem l3_lift600 (r : Fin 38400) (d : Fin (S38400x600.size 1)) :
    l3_reduces600.lift (ix1 r) d = ix2 r (⟨d.val, d.isLt⟩ : Fin 600) := by
  funext c; apply Fin.ext
  fin_cases c <;> rfl

/-- A maximum over the neighbour axis of any [38400, 8, 600] array, at (r, d): the fold of max from the initial value over
    the eight neighbour coordinates. -/
theorem l3_reduce8 (x : S38400x8x600.Idx → Ideal .f32) (init : S_.Idx → Ideal .f32) (r : Fin 38400) (d : Fin 600) :
    Host.reduce FloatOps.maximumf x init Gen.reducesTo_S38400x8x600_S38400x600_d1 Gen.h_S_ (ix2 r d)
      = (Finset.univ : Finset (Fin 8)).fold max (init (Shape.Idx.first Gen.h_S_)) (fun k => x (ix3 r k d)) := by
  rw [Host.reduce_eq_fold_single FloatOps.maximumf x init Gen.reducesTo_S38400x8x600_S38400x600_d1 l3_reduces8 Gen.h_S_ (ix2 r d)]
  have hf : (x ∘ l3_reduces8.lift (ix2 r d)) = fun k : Fin 8 => x (ix3 r k d) :=
    funext fun k => congrArg x (l3_lift8 r d k)
  rw [hf]
  rfl

/-- A maximum over the channel axis of any [38400, 600] array, at r: the fold of max from the initial value over the 600
    channel coordinates. -/
theorem l3_reduce600 (x : S38400x600.Idx → Ideal .f32) (init : S_.Idx → Ideal .f32) (r : Fin 38400) :
    Host.reduce FloatOps.maximumf x init Gen.reducesTo_S38400x600_S38400_d1 Gen.h_S_ (ix1 r)
      = (Finset.univ : Finset (Fin 600)).fold max (init (Shape.Idx.first Gen.h_S_)) (fun d => x (ix2 r d)) := by
  rw [Host.reduce_eq_fold_single FloatOps.maximumf x init Gen.reducesTo_S38400x600_S38400_d1 l3_reduces600 Gen.h_S_ (ix1 r)]
  have hf : (x ∘ l3_reduces600.lift (ix1 r)) = fun d : Fin 600 => x (ix2 r d) :=
    funext fun d => congrArg x (l3_lift600 r d)
  rw [hf]
  rfl

/-- The maximum over the eight neighbours, folded from −∞, at (600·b + q, d). -/
theorem l3_max (hA : GNN.Agrees a0 a1 a2 a3 a4 a5 a6 a7 a8 a9 a10 a11 a12 a13 X NB W)
    (h2 : ∀ (b : Fin 64) (q : Fin 600) (c : Fin 200),
      val_main_v44 (F := Ideal) a0 a1 a2 a3 a4 a5 a6 a7 a8 a9 (ix2 (GNN.row b q) c) = ((GNN.h2 W (X b) (NB b) q c : ℝ) : EReal))
    (b : Fin 64) (q : Fin 600) (d : Fin 600) :
    val_main_v59 (F := Ideal) a0 a1 a2 a3 a4 a5 a6 a7 a8 a9 a10 a11 (ix2 (GNN.row b q) d)
      = (Finset.univ : Finset (Fin 8)).fold max (⊥ : EReal) (fun k =>
          (∑ c : Fin 200, (((GNN.h2 W (X b) (NB b) (NB b q k) c : ℝ) : EReal) - ((GNN.h2 W (X b) (NB b) q c : ℝ) : EReal))
            * ((W.t3w d c : ℝ) : EReal)) + ((W.t3b d : ℝ) : EReal)) := by
  unfold val_main_v59
  refine (l3_reduce8 _ _ (GNN.row b q) d).trans ?_
  rw [val_main_cst_6_apply, Ideal.ofBits_def, l3_negInf]
  exact congrArg (fun f : Fin 8 → EReal => Finset.fold max (⊥ : EReal) f Finset.univ)
    (funext fun k => l3_theta hA h2 b q k d)

/-- φ on the node's own row, at (600·b + q, d): the product reads the transposed weight, which gives φ's entry (d, c) back. -/
theorem l3_phi (hA : GNN.Agrees a0 a1 a2 a3 a4 a5 a6 a7 a8 a9 a10 a11 a12 a13 X NB W)
    (h2 : ∀ (b : Fin 64) (q : Fin 600) (c : Fin 200),
      val_main_v44 (F := Ideal) a0 a1 a2 a3 a4 a5 a6 a7 a8 a9 (ix2 (GNN.row b q) c) = ((GNN.h2 W (X b) (NB b) q c : ℝ) : EReal))
    (b : Fin 64) (q : Fin 600) (d : Fin 600) :
    val_main_v61 (F := Ideal) a0 a1 a2 a3 a4 a5 a6 a7 a8 a9 a12 (ix2 (GNN.row b q) d)
      = ∑ c : Fin 200, ((GNN.h2 W (X b) (NB b) q c : ℝ) : EReal) * ((W.p3w d c : ℝ) : EReal) := by
  have hl : ∀ c : Fin 200, lidx_main_v61 (ix2 (GNN.row b q) d) c = ix2 (GNN.row b q) c := fun c =>
    funext fun a => Fin.ext (by match a with | ⟨0, _⟩ => rfl | ⟨1, _⟩ => rfl)
  have hr : ∀ c : Fin 200, idx_main_v60 (ridx_main_v61 (ix2 (GNN.row b q) d) c) = ix2 d c := fun c =>
    funext fun a => Fin.ext (by match a with | ⟨0, _⟩ => rfl | ⟨1, _⟩ => rfl)
  rw [val_main_v61_apply]
  refine Finset.sum_congr rfl (fun c _ => ?_)
  rw [hl c, h2 b q c, val_main_v60_apply, hr c, hA.p3w d c]

/-- φ's bias, repeated over the rows, at (r, d). -/
theorem l3_bias (hA : GNN.Agrees a0 a1 a2 a3 a4 a5 a6 a7 a8 a9 a10 a11 a12 a13 X NB W) (r : Fin 38400) (d : Fin 600) :
    val_main_v64 (F := Ideal) a13 (ix2 r d) = ((W.p3b d : ℝ) : EReal) := by
  have hb : idx_main_v63 (idx_main_v64 (ix2 r d)) = ix1 d :=
    funext fun a => Fin.ext (by match a with | ⟨0, _⟩ => rfl)
  rw [val_main_v64_apply, val_main_v63_apply, hb, hA.p3b d]

/-- The third layer at (600·b + q, d) is the real third layer of node q of graph b, channel d. -/
theorem l3_layer (hA : GNN.Agrees a0 a1 a2 a3 a4 a5 a6 a7 a8 a9 a10 a11 a12 a13 X NB W)
    (h2 : ∀ (b : Fin 64) (q : Fin 600) (c : Fin 200),
      val_main_v44 (F := Ideal) a0 a1 a2 a3 a4 a5 a6 a7 a8 a9 (ix2 (GNN.row b q) c) = ((GNN.h2 W (X b) (NB b) q c : ℝ) : EReal))
    (b : Fin 64) (q : Fin 600) (d : Fin 600) :
    val_main_v65 (F := Ideal) a0 a1 a2 a3 a4 a5 a6 a7 a8 a9 a10 a11 a12 a13 (ix2 (GNN.row b q) d)
      = ((GNN.h3 W (X b) (NB b) q d : ℝ) : EReal) := by
  rw [val_main_v65_apply, val_main_v62_apply, l3_max hA h2 b q d, l3_phi hA h2 b q d, l3_bias hA (GNN.row b q) d,
    Ideal.addf_def, Ideal.addf_def]
  unfold GNN.h3
  exact GNN.ref_layer (GNN.h2 W (X b) (NB b)) (NB b) W.t3w W.t3b W.p3w W.p3b q d

/-- The reference's [64, 600] array at (b, p) is the real result of node p of graph b. -/
theorem layer3 (hA : GNN.Agrees a0 a1 a2 a3 a4 a5 a6 a7 a8 a9 a10 a11 a12 a13 X NB W)
    (h2 : ∀ (b : Fin 64) (q : Fin 600) (c : Fin 200),
      val_main_v44 (F := Ideal) a0 a1 a2 a3 a4 a5 a6 a7 a8 a9 (ix2 (GNN.row b q) c) = ((GNN.h2 W (X b) (NB b) q c : ℝ) : EReal))
    (b : Fin 64) (p : Fin 600) :
    val_main_v67 (F := Ideal) a0 a1 a2 a3 a4 a5 a6 a7 a8 a9 a10 a11 a12 a13 (ix2 b p) = ((GNN.node W (X b) (NB b) p : ℝ) : EReal) := by
  -- entry (b, p) of the re-laid array is entry 600·b + p of the vector of maxima
  have hi : idx_main_v67 (ix2 b p) = ix1 (GNN.row b p) :=
    funext fun a => Fin.ext (by
      match a with
      | ⟨0, _⟩ =>
        show b.val * 600 + p.val = 600 * b.val + p.val
        omega)
  rw [val_main_v67_apply, hi]
  -- the maximum over the channels is a fold of max from −∞ over the 600 channel coordinates
  unfold val_main_v66
  refine (l3_reduce600 _ _ (GNN.row b p)).trans ?_
  rw [val_main_cst_7_apply, Ideal.ofBits_def, l3_negInf]
  -- every folded term is a coerced real, so the fold is the coerced maximum
  refine (congrArg (fun f : Fin 600 → EReal => Finset.fold max (⊥ : EReal) f Finset.univ)
    (funext fun d => l3_layer hA h2 b p d)).trans ?_
  exact GNN.fold_max_coe (n := 599) (fun d => GNN.h3 W (X b) (NB b) p d)

end Cert.RefValue

end
-- ==== Proof.RefArray.lean ====
/-
  The reference's result, split at the [64, 600] array.

  After the three edge-convolution layers and the channel maximum the reference holds a [64, 600] array: entry (b, p) is
  the real result of node p of graph b. Everything after it — five dense layers with tanh and the final clip to [−2, 2] —
  is one fixed function of that array and the ten remaining arguments; it is named once here, over ANY [64, 600] array, so
  that the two programs' results are compared by comparing the arrays that go in.
-/
import Idealize.ShloMosaic.Lib.ValueIdx
import Idealize.ShloMosaic.Lib.Pipeline.Value
import Idealize.ShloMosaic.PureOps.Ideal.Laws
import proofs.«411374_j22643067584549_2_alg».proof.Proof.Gen.ReferenceIdeal.Read
import proofs.«411374_j22643067584549_2_alg».proof.Proof.Reading
import proofs.«411374_j22643067584549_2_alg».proof.Proof.RefLayer1
import proofs.«411374_j22643067584549_2_alg».proof.Proof.RefLayer2
import proofs.«411374_j22643067584549_2_alg».proof.Proof.RefLayer3

noncomputable section

namespace Cert.RefValue

open Idealize.ShloMosaic Idealize.ShloMosaic.ValueIdx Cert.ReferenceIdeal Cert.ReferenceIdeal.Read

variable {a0 : FVec Ideal S64x600x50 .f32} {a1 : IVec S38400x8 32} {a2 : FVec Ideal S100x50 .f32} {a3 : FVec Ideal S100 .f32}
  {a4 : FVec Ideal S100x50 .f32} {a5 : FVec Ideal S100 .f32} {a6 : FVec Ideal S200x100 .f32} {a7 : FVec Ideal S200 .f32}
  {a8 : FVec Ideal S200x100 .f32} {a9 : FVec Ideal S200 .f32} {a10 : FVec Ideal S600x200 .f32} {a11 : FVec Ideal S600 .f32}
  {a12 : FVec Ideal S600x200 .f32} {a13 : FVec Ideal S600 .f32}
  {X : Fin 64 → Fin 600 → Fin 50 → ℝ} {NB : Fin 64 → Fin 600 → Fin 8 → Fin 600} {W : GNN.Params}

/-- The [64, 600] array of node results. -/
def nodes (X : Fin 64 → Fin 600 → Fin 50 → ℝ) (NB : Fin 64 → Fin 600 → Fin 8 → Fin 600) (W : GNN.Params) : FVec Ideal S64x600 .f32 :=
  fun i => ((GNN.node W (X (i 0)) (NB (i 0)) (i 1) : ℝ) : EReal)

/-- The reference's [64, 600] array is the array of node results. -/
theorem ref_array (hA : GNN.Agrees a0 a1 a2 a3 a4 a5 a6 a7 a8 a9 a10 a11 a12 a13 X NB W) :
    val_main_v67 (F := Ideal) a0 a1 a2 a3 a4 a5 a6 a7 a8 a9 a10 a11 a12 a13 = nodes X NB W := by
  funext i
  -- split the index into its graph and node coordinates
  obtain ⟨b, p, rfl⟩ : ∃ (b : Fin 64) (p : Fin 600), i = ix2 b p := ⟨i 0, i 1, eq_ix2 i⟩
  exact layer3 hA (fun b q c => layer2 hA (fun b q c => layer1 hA b q c) b q c) b p

/-- The dense head: what the reference computes from the [64, 600] array G and the last ten arguments. -/
def head (G : FVec Ideal S64x600 .f32) (a14 : FVec Ideal S300x600 .f32) (a15 : FVec Ideal S300 .f32) (a16 : FVec Ideal S300x300 .f32) (a17 : FVec Ideal S300 .f32) (a18 : FVec Ideal S100x300 .f32) (a19 : FVec Ideal S100 .f32) (a20 : FVec Ideal S50x100 .f32) (a21 : FVec Ideal S50 .f32) (a22 : FVec Ideal S9x50 .f32) (a23 : FVec Ideal S9 .f32) : FVec Ideal S64x9 .f32 :=
  minimumf (broadcastInDim S64x9 ![] Gen.bcast_S_S64x9 (constant (F := Ideal) S_ .f32 0x40000000#32))
    (maximumf (broadcastInDim S64x9 ![] Gen.bcast_S_S64x9 (constant (F := Ideal) S_ .f32 0xC0000000#32))
      (addf
        (Host.dotGeneral dot_S64x50_S50x9_S64x9_1_0_0_1_n_n none
          (Host.tanh (addf
            (Host.dotGeneral dot_S64x100_S100x50_S64x50_1_0_0_1_n_n none
              (Host.tanh (addf
                (Host.dotGeneral dot_S64x300_S300x100_S64x100_1_0_0_1_n_n none
                  (Host.tanh (addf
                    (Host.dotGeneral dot_S64x300_S300x300_S64x300_1_0_0_1_n_n none
                      (Host.tanh (addf
                        (Host.dotGeneral dot_S64x600_S600x300_S64x300_1_0_0_1_n_n none G
                          (transpose S600x300 [1, 0] a14 Gen.transposes_S300x600_S600x300_1_0))
                        (broadcastInDim S64x300 ![0, 1] Gen.bcast_S1x300_S64x300_0_1
                          (broadcastInDim S1x300 ![1] Gen.bcast_S300_S1x300_1 a15))))
                      (transpose S300x300 [1, 0] a16 Gen.transposes_S300x300_S300x300_1_0))
                    (broadcastInDim S64x300 ![0, 1] Gen.bcast_S1x300_S64x300_0_1
                      (broadcastInDim S1x300 ![1] Gen.bcast_S300_S1x300_1 a17))))
                  (transpose S300x100 [1, 0] a18 Gen.transposes_S100x300_S300x100_1_0))
                (broadcastInDim S64x100 ![0, 1] Gen.bcast_S1x100_S64x100_0_1
                  (broadcastInDim S1x100 ![1] Gen.bcast_S100_S1x100_1 a19))))
              (transpose S100x50 [1, 0] a20 Gen.transposes_S50x100_S100x50_1_0))
            (broadcastInDim S64x50 ![0, 1] Gen.bcast_S1x50_S64x50_0_1
              (broadcastInDim S1x50 ![1] Gen.bcast_S50_S1x50_1 a21))))
          (transpose S50x9 [1, 0] a22 Gen.transposes_S9x50_S50x9_1_0))
        (broadcastInDim S64x9 ![0, 1] Gen.bcast_S1x9_S64x9_0_1
          (broadcastInDim S1x9 ![1] Gen.bcast_S9_S1x9_1 a23))))

/-- The reference's result is the dense head of its [64, 600] array. -/
theorem result_eq_head (a14 : FVec Ideal S300x600 .f32) (a15 : FVec Ideal S300 .f32) (a16 : FVec Ideal S300x300 .f32) (a17 : FVec Ideal S300 .f32) (a18 : FVec Ideal S100x300 .f32) (a19 : FVec Ideal S100 .f32) (a20 : FVec Ideal S50x100 .f32) (a21 : FVec Ideal S50 .f32) (a22 : FVec Ideal S9x50 .f32) (a23 : FVec Ideal S9 .f32) :
    val_main_v97 (F := Ideal) a0 a1 a2 a3 a4 a5 a6 a7 a8 a9 a10 a11 a12 a13 a14 a15 a16 a17 a18 a19 a20 a21 a22 a23
      = head (val_main_v67 (F := Ideal) a0 a1 a2 a3 a4 a5 a6 a7 a8 a9 a10 a11 a12 a13) a14 a15 a16 a17 a18 a19 a20 a21 a22 a23 := by
  -- both sides are the same operations after the [64, 600] array, spelled out
  unfold val_main_v97 val_main_call0_v4 val_main_call0_v3 val_main_cst_9 val_main_call0_v2 val_main_call0_v1 val_main_call0_v0
    val_main_cst_8 val_main_v96 val_main_v95 val_main_v94 val_main_v93 val_main_v92 val_main_v91 val_main_v90 val_main_v89
    val_main_v88 val_main_v87 val_main_v86 val_main_v85 val_main_v84 val_main_v83 val_main_v82 val_main_v81 val_main_v80
    val_main_v79 val_main_v78 val_main_v77 val_main_v76 val_main_v75 val_main_v74 val_main_v73 val_main_v72 val_main_v71
    val_main_v70 val_main_v69 val_main_v68 head
  rfl

end Cert.RefValue

end
-- ==== Proof.KernelRow.lean ====
/-
  The kernel body's one trip, as facts about the values it names.

  Trip k of the body's loop handles graph k of the block: it loads the graph's [600, 50] feature rows and [600, 8] local
  neighbour indices, builds for each neighbour slot a 0/1 matrix (row p has its one at column "neighbour of p"), and runs
  the three layers with every gather a product by such a matrix. This module fixes the vocabulary shared by the lemmas
  about those values: what it means for a [600, 600] matrix to pick the neighbours of slot s, and what the twelve loaded
  weight blocks hold (θ and φ arrive TRANSPOSED, [in, out], and the biases as [1, out] rows).
-/
import Idealize.ShloMosaic.Lib.ValueIdx
import proofs.«411374_j22643067584549_2_alg».proof.Proof.Gen.KernelIdeal.Loops
import proofs.«411374_j22643067584549_2_alg».proof.Proof.Reading

noncomputable section

namespace Cert.KernelRow

open Idealize.ShloMosaic Idealize.ShloMosaic.ValueIdx Cert.KernelIdeal Cert.KernelIdeal.Gen

/-- A [600, 600] matrix of zeros and ones whose row p has its one at the column of p's neighbour in slot s. -/
def IsPick (oh : FVec Ideal S600x600 .bf16) (nb : Fin 600 → Fin 8 → Fin 600) (s : Fin 8) : Prop :=
  ∀ (p j : Fin 600), oh (ix2 p j) = if nb p s = j then (1 : EReal) else 0

/-- The twelve loaded weight blocks are the real weights: θ, φ transposed to [in, out], biases as one row. -/
structure Weights (v0 : Vec Ideal S50x100 .bf16) (v2 : Vec Ideal S1x100 .f32) (v4 : Vec Ideal S50x100 .bf16) (v6 : Vec Ideal S1x100 .f32)
    (v8 : Vec Ideal S100x200 .bf16) (v10 : Vec Ideal S1x200 .f32) (v12 : Vec Ideal S100x200 .bf16) (v14 : Vec Ideal S1x200 .f32)
    (v16 : Vec Ideal S200x600 .bf16) (v18 : Vec Ideal S1x600 .f32) (v20 : Vec Ideal S200x600 .bf16) (v22 : Vec Ideal S1x600 .f32)
    (W : GNN.Params) : Prop where
  t1w : ∀ (ch : Fin 50) (d : Fin 100), v0 (ix2 ch d) = ((W.t1w d ch : ℝ) : EReal)
  t1b : ∀ (d : Fin 100), v2 (ix2 (0 : Fin 1) d) = ((W.t1b d : ℝ) : EReal)
  p1w : ∀ (ch : Fin 50) (d : Fin 100), v4 (ix2 ch d) = ((W.p1w d ch : ℝ) : EReal)
  p1b : ∀ (d : Fin 100), v6 (ix2 (0 : Fin 1) d) = ((W.p1b d : ℝ) : EReal)
  t2w : ∀ (ch : Fin 100) (d : Fin 200), v8 (ix2 ch d) = ((W.t2w d ch : ℝ) : EReal)
  t2b : ∀ (d : Fin 200), v10 (ix2 (0 : Fin 1) d) = ((W.t2b d : ℝ) : EReal)
  p2w : ∀ (ch : Fin 100) (d : Fin 200), v12 (ix2 ch d) = ((W.p2w d ch : ℝ) : EReal)
  p2b : ∀ (d : Fin 200), v14 (ix2 (0 : Fin 1) d) = ((W.p2b d : ℝ) : EReal)
  t3w : ∀ (ch : Fin 200) (d : Fin 600), v16 (ix2 ch d) = ((W.t3w d ch : ℝ) : EReal)
  t3b : ∀ (d : Fin 600), v18 (ix2 (0 : Fin 1) d) = ((W.t3b d : ℝ) : EReal)
  p3w : ∀ (ch : Fin 200) (d : Fin 600), v20 (ix2 ch d) = ((W.p3w d ch : ℝ) : EReal)
  p3b : ∀ (d : Fin 600), v22 (ix2 (0 : Fin 1) d) = ((W.p3b d : ℝ) : EReal)

/-- The eight 0/1 matrices of a trip (the trip's values r_2 … r_6, r_8, r_9, r_10) pick the eight neighbour slots. -/
structure Picks (arg2 : Memref sig .tc .vmem S8x600x8 .i32) (X2 : BufTy.Contents (Elt Ideal) arg2.view.ty)
    (k : Fin k0_t1_loop.trips) (nb : Fin 600 → Fin 8 → Fin 600) : Prop where
  s0 : IsPick (trip_k0_t1.sl.r_2 (F := Ideal) arg2 X2 k) nb 0
  s1 : IsPick (trip_k0_t1.sl.r_3 (F := Ideal) arg2 X2 k) nb 1
  s2 : IsPick (trip_k0_t1.sl.r_4 (F := Ideal) arg2 X2 k) nb 2
  s3 : IsPick (trip_k0_t1.sl.r_5 (F := Ideal) arg2 X2 k) nb 3
  s4 : IsPick (trip_k0_t1.sl.r_6 (F := Ideal) arg2 X2 k) nb 4
  s5 : IsPick (trip_k0_t1.sl.r_8 (F := Ideal) arg2 X2 k) nb 5
  s6 : IsPick (trip_k0_t1.sl.r_9 (F := Ideal) arg2 X2 k) nb 6
  s7 : IsPick (trip_k0_t1.sl.r_10 (F := Ideal) arg2 X2 k) nb 7

end Cert.KernelRow

end
-- ==== Proof.KernelBlocks.lean ====
/-
  What the region's windows hold at a grid point.

  Grid point t handles graphs 8·t … 8·t + 7. Window 0's block is those graphs' feature rows; window 1's the same
  graphs' neighbour indices made LOCAL by the host (the stored index minus 600·graph, so 600·b + NB b q s becomes
  NB b q s); windows 2 … 13 are the twelve weight arrays whole, θ and φ transposed to [in, out] (and narrowed, which is
  the identity over the extended reals) and the biases re-laid as one row.
-/
import Idealize.ShloMosaic.Lib.ValueIdx
import Idealize.ShloMosaic.Lib.Pipeline.Value
import Idealize.ShloMosaic.Lib.StableHlo.Run
import Idealize.ShloMosaic.Lib.StableHlo.Predicate
import proofs.«411374_j22643067584549_2_alg».proof.Proof.Gen.KernelIdeal.Frame
import proofs.«411374_j22643067584549_2_alg».proof.Proof.KernelRow

set_option maxRecDepth 16384

noncomputable section

namespace Cert.KernelValue

open Idealize.ShloMosaic Idealize.ShloMosaic.ValueIdx Idealize.ShloMosaic.TcCoe Idealize.SL.Sem Idealize.ShloMosaic.StableHlo
  Cert.KernelIdeal Cert.KernelIdeal.Gen

variable (m : (ℓ : Loc nD τ sig) → Buf (Elt Ideal) ℓ)
  {X : Fin 64 → Fin 600 → Fin 50 → ℝ} {NB : Fin 64 → Fin 600 → Fin 8 → Fin 600} {W : GNN.Params}

/-- Window 0's block index at point t is (t, 0, 0). -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- Entry (g, q, ch) of window 0's block at point t is the feature array at graph b = 8·t + g. -/
theorem blk_x (c : Dev nD) (t : Fin cfg0.N) (g : Fin 8) (q : Fin 600) (ch : Fin 50) (b : Fin 64) (hb : b.val = 8 * t.val + g.val) :
    (iblk (F := Ideal) m c 0 t : Vec Ideal S8x600x50 .f32) (ix3 g q ch) = m ((c : Thread nD τ).loc main_arg0) (ix3 b q ch) := by
  unfold iblk
  rw [View.read_apply]
  show V m c main_arg0 (((cfg0.win 0).blk t).view.emb (ix3 g q ch)) = _
  rw [V_main_arg0]
  congr 1
  funext a; apply Fin.ext
  have h := idx0 t
  match a with
  | ⟨0, _⟩ => show win0_0.index t 0 * 8 + 1 * g.val = b.val; rw [h.1]; omega
  | ⟨1, _⟩ => show win0_0.index t 1 * 600 + 1 * q.val = q.val; rw [h.2.1]; omega
  | ⟨2, _⟩ => show win0_0.index t 2 * 50 + 1 * ch.val = ch.val; rw [h.2.2]; omega

/-- The feature block at point t, graph b = 8·t + g, is the coerced real features of graph b. -/
theorem block_x (c : Dev nD) (hA : GNN.Agrees (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) X NB W)
    (t : Fin cfg0.N) (g : Fin 8) (b : Fin 64) (hb : b.val = 8 * t.val + g.val) (q : Fin 600) (ch : Fin 50) :
    (iblk (F := Ideal) m c 0 t : Vec Ideal S8x600x50 .f32) (ix3 g q ch) = ((X b q ch : ℝ) : EReal) :=
  (blk_x m c t g q ch b hb).trans (hA.x b q ch)

/-! ## The arrays the host operations wrote before the region -/

/-- The array window 1 reads: the stored neighbour indices as [64, 600, 8], minus 600·graph. -/
theorem V_v6 (c : Dev nD) : (V m c main_v6 : S64x600x8.Idx → BitVec 32) =
    subi (shapeCast S64x600x8 (m ((c : Thread nD τ).loc main_arg1)) shapeCasts_S38400x8_S64x600x8)
      (broadcastInDim S64x600x8 ![0, 1, 2] bcast_S64x1x1_S64x600x8_0_1_2
        (broadcastInDim S64x1x1 ![0] bcast_S64_S64x1x1_0
          (muli (iotaInDim S64 32 0) (broadcastInDim S64 ![] bcast_S_S64 (constantI S_ 32 600#32))))) := by
  dsimp only [Gen.V, Gen.V0]
  simp only [Gen.hostOps0, List.flatten_cons, List.flatten_nil, List.append_nil]
  after_results
  rfl

/-- The array window 2 reads is argument 2 narrowed and transposed to [in, out]. -/
theorem V_v8 (c : Dev nD) : @Eq (S50x100.Idx → EReal) (V m c main_v8)
    (transpose S50x100 [1, 0] (truncf (F := Ideal) FTy.bf16 (m ((c : Thread nD τ).loc main_arg2) : FVec Ideal S100x50 .f32) bitsLt_bf16_f32) transposes_S100x50_S50x100_1_0) := by
  dsimp only [Gen.V, Gen.V0]
  simp only [Gen.hostOps0, List.flatten_cons, List.flatten_nil, List.append_nil]
  after_results

/-- The array window 3 reads is argument 3 re-laid as one row. -/
theorem V_v19 (c : Dev nD) : (V m c main_v19 : S1x100.Idx → EReal) =
    shapeCast S1x100 (m ((c : Thread nD τ).loc main_arg3)) shapeCasts_S100_S1x100 := by
  dsimp only [Gen.V, Gen.V0]
  simp only [Gen.hostOps0, List.flatten_cons, List.flatten_nil, List.append_nil]
  after_results
  rfl

/-- The array window 4 reads is argument 4 narrowed and transposed to [in, out]. -/
theorem V_v10 (c : Dev nD) : @Eq (S50x100.Idx → EReal) (V m c main_v10)
    (transpose S50x100 [1, 0] (truncf (F := Ideal) FTy.bf16 (m ((c : Thread nD τ).loc main_arg4) : FVec Ideal S100x50 .f32) bitsLt_bf16_f32) transposes_S100x50_S50x100_1_0) := by
  dsimp only [Gen.V, Gen.V0]
  simp only [Gen.hostOps0, List.flatten_cons, List.flatten_nil, List.append_nil]
  after_results

/-- The array window 5 reads is argument 5 re-laid as one row. -/
theorem V_v20 (c : Dev nD) : (V m c main_v20 : S1x100.Idx → EReal) =
    shapeCast S1x100 (m ((c : Thread nD τ).loc main_arg5)) shapeCasts_S100_S1x100 := by
  dsimp only [Gen.V, Gen.V0]
  simp only [Gen.hostOps0, List.flatten_cons, List.flatten_nil, List.append_nil]
  after_results
  rfl

/-- The array window 6 reads is argument 6 narrowed and transposed to [in, out]. -/
theorem V_v12 (c : Dev nD) : @Eq (S100x200.Idx → EReal) (V m c main_v12)
    (transpose S100x200 [1, 0] (truncf (F := Ideal) FTy.bf16 (m ((c : Thread nD τ).loc main_arg6) : FVec Ideal S200x100 .f32) bitsLt_bf16_f32) transposes_S200x100_S100x200_1_0) := by
  dsimp only [Gen.V, Gen.V0]
  simp only [Gen.hostOps0, List.flatten_cons, List.flatten_nil, List.append_nil]
  after_results

/-- The array window 7 reads is argument 7 re-laid as one row. -/
theorem V_v21 (c : Dev nD) : (V m c main_v21 : S1x200.Idx → EReal) =
    shapeCast S1x200 (m ((c : Thread nD τ).loc main_arg7)) shapeCasts_S200_S1x200 := by
  dsimp only [Gen.V, Gen.V0]
  simp only [Gen.hostOps0, List.flatten_cons, List.flatten_nil, List.append_nil]
  after_results
  rfl

/-- The array window 8 reads is argument 8 narrowed and transposed to [in, out]. -/
theorem V_v14 (c : Dev nD) : @Eq (S100x200.Idx → EReal) (V m c main_v14)
    (transpose S100x200 [1, 0] (truncf (F := Ideal) FTy.bf16 (m ((c : Thread nD τ).loc main_arg8) : FVec Ideal S200x100 .f32) bitsLt_bf16_f32) transposes_S200x100_S100x200_1_0) := by
  dsimp only [Gen.V, Gen.V0]
  simp only [Gen.hostOps0, List.flatten_cons, List.flatten_nil, List.append_nil]
  after_results

/-- The array window 9 reads is argument 9 re-laid as one row. -/
theorem V_v22 (c : Dev nD) : (V m c main_v22 : S1x200.Idx → EReal) =
    shapeCast S1x200 (m ((c : Thread nD τ).loc main_arg9)) shapeCasts_S200_S1x200 := by
  dsimp only [Gen.V, Gen.V0]
  simp only [Gen.hostOps0, List.flatten_cons, List.flatten_nil, List.append_nil]
  after_results
  rfl

/-- The array window 10 reads is argument 10 narrowed and transposed to [in, out]. -/
theorem V_v16 (c : Dev nD) : @Eq (S200x600.Idx → EReal) (V m c main_v16)
    (transpose S200x600 [1, 0] (truncf (F := Ideal) FTy.bf16 (m ((c : Thread nD τ).loc main_arg10) : FVec Ideal S600x200 .f32) bitsLt_bf16_f32) transposes_S600x200_S200x600_1_0) := by
  dsimp only [Gen.V, Gen.V0]
  simp only [Gen.hostOps0, List.flatten_cons, List.flatten_nil, List.append_nil]
  after_results

/-- The array window 11 reads is argument 11 re-laid as one row. -/
theorem V_v23 (c : Dev nD) : (V m c main_v23 : S1x600.Idx → EReal) =
    shapeCast S1x600 (m ((c : Thread nD τ).loc main_arg11)) shapeCasts_S600_S1x600 := by
  dsimp only [Gen.V, Gen.V0]
  simp only [Gen.hostOps0, List.flatten_cons, List.flatten_nil, List.append_nil]
  after_results
  rfl

/-- The array window 12 reads is argument 12 narrowed and transposed to [in, out]. -/
theorem V_v18 (c : Dev nD) : @Eq (S200x600.Idx → EReal) (V m c main_v18)
    (transpose S200x600 [1, 0] (truncf (F := Ideal) FTy.bf16 (m ((c : Thread nD τ).loc main_arg12) : FVec Ideal S600x200 .f32) bitsLt_bf16_f32) transposes_S600x200_S200x600_1_0) := by
  dsimp only [Gen.V, Gen.V0]
  simp only [Gen.hostOps0, List.flatten_cons, List.flatten_nil, List.append_nil]
  after_results

/-- The array window 13 reads is argument 13 re-laid as one row. -/
theorem V_v24 (c : Dev nD) : (V m c main_v24 : S1x600.Idx → EReal) =
    shapeCast S1x600 (m ((c : Thread nD τ).loc main_arg13)) shapeCasts_S600_S1x600 := by
  dsimp only [Gen.V, Gen.V0]
  simp only [Gen.hostOps0, List.flatten_cons, List.flatten_nil, List.append_nil]
  after_results
  rfl

/-! ## Those arrays read at an index -/

/-- Entry (b, q, s) of the stored neighbour indices re-laid as [64, 600, 8] is the entry (600·b + q, s). -/
theorem reshape_nb (a1 : IVec S38400x8 32) (b : Fin 64) (q : Fin 600) (s : Fin 8) :
    shapeCast S64x600x8 a1 shapeCasts_S38400x8_S64x600x8 (ix3 b q s) = a1 (ix2 (GNN.row b q) s) :=
  shapeCast_apply a1 shapeCasts_S38400x8_S64x600x8 (ix3 b q s) (ix2 (GNN.row b q) s) (by
    rw [Shape.rowMajor_val_two, Shape.rowMajor_val_three]
    show (600 * b.val + q.val) * 8 + s.val = (b.val * 600 + q.val) * 8 + s.val
    omega)

/-- Entry (b, q, s) of the subtrahend: the graph number times 600, as a word. -/
theorem offset_at (b : Fin 64) (q : Fin 600) (s : Fin 8) :
    (broadcastInDim S64x600x8 ![0, 1, 2] bcast_S64x1x1_S64x600x8_0_1_2
        (broadcastInDim S64x1x1 ![0] bcast_S64_S64x1x1_0
          (muli (iotaInDim S64 32 0) (broadcastInDim S64 ![] bcast_S_S64 (constantI S_ 32 600#32))))
      : S64x600x8.Idx → BitVec 32) (ix3 b q s) = IntOp.muli (BitVec.ofNat 32 b.val) 600#32 := by
  rw [broadcastInDim_apply _ bcast_S64x1x1_S64x600x8_0_1_2 _ (ix3 b q s) (ix3 b (0 : Fin 1) (0 : Fin 1)) (fun a => match a with
    | ⟨0, _⟩ => by show b.val = if (64 : Nat) = 1 then 0 else b.val; rw [if_neg (by decide)]
    | ⟨1, _⟩ => by show 0 = if (1 : Nat) = 1 then 0 else q.val; rw [if_pos rfl]
    | ⟨2, _⟩ => by show 0 = if (1 : Nat) = 1 then 0 else s.val; rw [if_pos rfl])]
  rw [broadcastInDim_apply _ bcast_S64_S64x1x1_0 _ (ix3 b (0 : Fin 1) (0 : Fin 1)) (ix1 b) (fun a => match a with
    | ⟨0, _⟩ => by show b.val = if (64 : Nat) = 1 then 0 else b.val; rw [if_neg (by decide)])]
  rfl

/-- Subtracting 600·b from the word of 600·b + r leaves the word of r. -/
theorem word_local (b r : Nat) (hb : b < 64) (hr : r < 600) :
    IntOp.subi (BitVec.ofNat 32 (600 * b + r)) (IntOp.muli (BitVec.ofNat 32 b) 600#32) = BitVec.ofNat 32 r := by
  unfold IntOp.subi IntOp.muli
  apply BitVec.eq_of_toNat_eq
  simp only [BitVec.toNat_sub, BitVec.toNat_mul, BitVec.toNat_ofNat]
  omega

/-- Entry (ch, d) of a [100, 50] weight narrowed and transposed to [50, 100] is the weight at (d, ch). -/
theorem transposed_S50x100 (a : FVec Ideal S100x50 .f32) (ch : Fin 50) (d : Fin 100) :
    transpose S50x100 [1, 0] (truncf (F := Ideal) FTy.bf16 a bitsLt_bf16_f32) transposes_S100x50_S50x100_1_0 (ix2 ch d) = a (ix2 d ch) := by
  rw [transpose_apply [1, 0] (truncf (F := Ideal) FTy.bf16 a bitsLt_bf16_f32) transposes_S100x50_S50x100_1_0 (ix2 ch d) (ix2 d ch)
    (fun b => match b with | ⟨0, _⟩ => rfl | ⟨1, _⟩ => rfl)]
  rfl

/-- Entry (ch, d) of a [200, 100] weight narrowed and transposed to [100, 200] is the weight at (d, ch). -/
theorem transposed_S100x200 (a : FVec Ideal S200x100 .f32) (ch : Fin 100) (d : Fin 200) :
    transpose S100x200 [1, 0] (truncf (F := Ideal) FTy.bf16 a bitsLt_bf16_f32) transposes_S200x100_S100x200_1_0 (ix2 ch d) = a (ix2 d ch) := by
  rw [transpose_apply [1, 0] (truncf (F := Ideal) FTy.bf16 a bitsLt_bf16_f32) transposes_S200x100_S100x200_1_0 (ix2 ch d) (ix2 d ch)
    (fun b => match b with | ⟨0, _⟩ => rfl | ⟨1, _⟩ => rfl)]
  rfl

/-- Entry (ch, d) of a [600, 200] weight narrowed and transposed to [200, 600] is the weight at (d, ch). -/
theorem transposed_S200x600 (a : FVec Ideal S600x200 .f32) (ch : Fin 200) (d : Fin 600) :
    transpose S200x600 [1, 0] (truncf (F := Ideal) FTy.bf16 a bitsLt_bf16_f32) transposes_S600x200_S200x600_1_0 (ix2 ch d) = a (ix2 d ch) := by
  rw [transpose_apply [1, 0] (truncf (F := Ideal) FTy.bf16 a bitsLt_bf16_f32) transposes_S600x200_S200x600_1_0 (ix2 ch d) (ix2 d ch)
    (fun b => match b with | ⟨0, _⟩ => rfl | ⟨1, _⟩ => rfl)]
  rfl

/-- Entry (0, d) of a bias of 100 entries re-laid as one row is the bias at d. -/
theorem row_S1x100 (a : FVec Ideal S100 .f32) (d : Fin 100) :
    shapeCast S1x100 a shapeCasts_S100_S1x100 (ix2 (0 : Fin 1) d) = a (ix1 d) :=
  shapeCast_apply a shapeCasts_S100_S1x100 (ix2 (0 : Fin 1) d) (ix1 d) (by
    rw [Shape.rowMajor_val_one, Shape.rowMajor_val_two]
    show d.val = 0 * 100 + d.val
    omega)

/-- Entry (0, d) of a bias of 200 entries re-laid as one row is the bias at d. -/
theorem row_S1x200 (a : FVec Ideal S200 .f32) (d : Fin 200) :
    shapeCast S1x200 a shapeCasts_S200_S1x200 (ix2 (0 : Fin 1) d) = a (ix1 d) :=
  shapeCast_apply a shapeCasts_S200_S1x200 (ix2 (0 : Fin 1) d) (ix1 d) (by
    rw [Shape.rowMajor_val_one, Shape.rowMajor_val_two]
    show d.val = 0 * 200 + d.val
    omega)

/-- Entry (0, d) of a bias of 600 entries re-laid as one row is the bias at d. -/
theorem row_S1x600 (a : FVec Ideal S600 .f32) (d : Fin 600) :
    shapeCast S1x600 a shapeCasts_S600_S1x600 (ix2 (0 : Fin 1) d) = a (ix1 d) :=
  shapeCast_apply a shapeCasts_S600_S1x600 (ix2 (0 : Fin 1) d) (ix1 d) (by
    rw [Shape.rowMajor_val_one, Shape.rowMajor_val_two]
    show d.val = 0 * 600 + d.val
    omega)

/-! ## The block indices of windows 1 … 13 -/

/-- Window 1's block index at point t is (t, 0, 0). -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
/-- Window 2's block index at every point is (0, 0): its block is its whole array. -/
theorem idx2 : ∀ t : Fin cfg0.N, win0_2.index t (0 : Fin 2) = 0 ∧ win0_2.index t (1 : Fin 2) = 0 :=
  (by decide +kernel : ∀ t : Fin grid0.N, _)
/-- Window 3's block index at every point is (0, 0): its block is its whole array. -/
theorem idx3 : ∀ t : Fin cfg0.N, win0_3.index t (0 : Fin 2) = 0 ∧ win0_3.index t (1 : Fin 2) = 0 :=
  (by decide +kernel : ∀ t : Fin grid0.N, _)
/-- Window 4's block index at every point is (0, 0): its block is its whole array. -/
theorem idx4 : ∀ t : Fin cfg0.N, win0_4.index t (0 : Fin 2) = 0 ∧ win0_4.index t (1 : Fin 2) = 0 :=
  (by decide +kernel : ∀ t : Fin grid0.N, _)
/-- Window 5's block index at every point is (0, 0): its block is its whole array. -/
theorem idx5 : ∀ t : Fin cfg0.N, win0_5.index t (0 : Fin 2) = 0 ∧ win0_5.index t (1 : Fin 2) = 0 :=
  (by decide +kernel : ∀ t : Fin grid0.N, _)
/-- Window 6's block index at every point is (0, 0): its block is its whole array. -/
theorem idx6 : ∀ t : Fin cfg0.N, win0_6.index t (0 : Fin 2) = 0 ∧ win0_6.index t (1 : Fin 2) = 0 :=
  (by decide +kernel : ∀ t : Fin grid0.N, _)
/-- Window 7's block index at every point is (0, 0): its block is its whole array. -/
theorem idx7 : ∀ t : Fin cfg0.N, win0_7.index t (0 : Fin 2) = 0 ∧ win0_7.index t (1 : Fin 2) = 0 :=
  (by decide +kernel : ∀ t : Fin grid0.N, _)
/-- Window 8's block index at every point is (0, 0): its block is its whole array. -/
theorem idx8 : ∀ t : Fin cfg0.N, win0_8.index t (0 : Fin 2) = 0 ∧ win0_8.index t (1 : Fin 2) = 0 :=
  (by decide +kernel : ∀ t : Fin grid0.N, _)
/-- Window 9's block index at every point is (0, 0): its block is its whole array. -/
theorem idx9 : ∀ t : Fin cfg0.N, win0_9.index t (0 : Fin 2) = 0 ∧ win0_9.index t (1 : Fin 2) = 0 :=
  (by decide +kernel : ∀ t : Fin grid0.N, _)
/-- Window 10's block index at every point is (0, 0): its block is its whole array. -/
theorem idx10 : ∀ t : Fin cfg0.N, win0_10.index t (0 : Fin 2) = 0 ∧ win0_10.index t (1 : Fin 2) = 0 :=
  (by decide +kernel : ∀ t : Fin grid0.N, _)
/-- Window 11's block index at every point is (0, 0): its block is its whole array. -/
theorem idx11 : ∀ t : Fin cfg0.N, win0_11.index t (0 : Fin 2) = 0 ∧ win0_11.index t (1 : Fin 2) = 0 :=
  (by decide +kernel : ∀ t : Fin grid0.N, _)
/-- Window 12's block index at every point is (0, 0): its block is its whole array. -/
theorem idx12 : ∀ t : Fin cfg0.N, win0_12.index t (0 : Fin 2) = 0 ∧ win0_12.index t (1 : Fin 2) = 0 :=
  (by decide +kernel : ∀ t : Fin grid0.N, _)
/-- Window 13's block index at every point is (0, 0): its block is its whole array. -/
theorem idx13 : ∀ t : Fin cfg0.N, win0_13.index t (0 : Fin 2) = 0 ∧ win0_13.index t (1 : Fin 2) = 0 :=
  (by decide +kernel : ∀ t : Fin grid0.N, _)

/-! ## The blocks read at an index -/

/-- Pointwise subtraction of words, read at an index. -/
theorem subi_at {s : Shape} {w : Nat} (x y : IVec s w) (i : s.Idx) : subi x y i = IntOp.subi (x i) (y i) := rfl

/-- Entry (g, q, s) of window 1's block at point t, graph b = 8·t + g: the stored index minus 600·b, as words. -/
theorem blk_nb (c : Dev nD) (t : Fin cfg0.N) (g : Fin 8) (q : Fin 600) (s : Fin 8) (b : Fin 64) (hb : b.val = 8 * t.val + g.val) :
    (iblk (F := Ideal) m c 1 t : Vec Ideal S8x600x8 .i32) (ix3 g q s)
      = IntOp.subi (m ((c : Thread nD τ).loc main_arg1) (ix2 (GNN.row b q) s)) (IntOp.muli (BitVec.ofNat 32 b.val) 600#32) := by
  have hemb : ((cfg0.win 1).blk t).view.emb (ix3 g q s) = ix3 b q s := by
    funext a; apply Fin.ext
    have h := idx1 t
    match a with
    | ⟨0, _⟩ => show win0_1.index t 0 * 8 + 1 * g.val = b.val; rw [h.1]; omega
    | ⟨1, _⟩ => show win0_1.index t 1 * 600 + 1 * q.val = q.val; rw [h.2.1]; omega
    | ⟨2, _⟩ => show win0_1.index t 2 * 8 + 1 * s.val = s.val; rw [h.2.2]; omega
  unfold iblk
  rw [View.read_apply]
  show V m c main_v6 (((cfg0.win 1).blk t).view.emb (ix3 g q s)) = _
  rw [hemb, V_v6 m c, subi_at, reshape_nb, offset_at]

/-- Entry (ch, d) of window 2's block at any point is argument 2 at (d, ch). -/
theorem blk_2 (c : Dev nD) (t : Fin cfg0.N) (ch : Fin 50) (d : Fin 100) :
    (iblk (F := Ideal) m c 2 t : Vec Ideal S50x100 .bf16) (ix2 ch d) = m ((c : Thread nD τ).loc main_arg2) (ix2 d ch) := by
  have hemb : ((cfg0.win 2).blk t).view.emb (ix2 ch d) = ix2 ch d := by
    funext a; apply Fin.ext
    have h := idx2 t
    match a with
    | ⟨0, _⟩ => show win0_2.index t 0 * 50 + 1 * ch.val = ch.val; rw [h.1]; omega
    | ⟨1, _⟩ => show win0_2.index t 1 * 100 + 1 * d.val = d.val; rw [h.2]; omega
  unfold iblk
  rw [View.read_apply]
  show V m c main_v8 (((cfg0.win 2).blk t).view.emb (ix2 ch d)) = _
  rw [hemb, V_v8 m c, transposed_S50x100]

/-- Entry (0, d) of window 3's block at any point is argument 3 at d. -/
theorem blk_3 (c : Dev nD) (t : Fin cfg0.N) (d : Fin 100) :
    (iblk (F := Ideal) m c 3 t : Vec Ideal S1x100 .f32) (ix2 (0 : Fin 1) d) = m ((c : Thread nD τ).loc main_arg3) (ix1 d) := by
  have hemb : ((cfg0.win 3).blk t).view.emb (ix2 (0 : Fin 1) d) = ix2 (0 : Fin 1) d := by
    funext a; apply Fin.ext
    have h := idx3 t
    match a with
    | ⟨0, _⟩ => show win0_3.index t 0 * 1 + 1 * 0 = 0; rw [h.1]
    | ⟨1, _⟩ => show win0_3.index t 1 * 100 + 1 * d.val = d.val; rw [h.2]; omega
  unfold iblk
  rw [View.read_apply]
  show V m c main_v19 (((cfg0.win 3).blk t).view.emb (ix2 (0 : Fin 1) d)) = _
  rw [hemb, V_v19 m c, row_S1x100]

/-- Entry (ch, d) of window 4's block at any point is argument 4 at (d, ch). -/
theorem blk_4 (c : Dev nD) (t : Fin cfg0.N) (ch : Fin 50) (d : Fin 100) :
    (iblk (F := Ideal) m c 4 t : Vec Ideal S50x100 .bf16) (ix2 ch d) = m ((c : Thread nD τ).loc main_arg4) (ix2 d ch) := by
  have hemb : ((cfg0.win 4).blk t).view.emb (ix2 ch d) = ix2 ch d := by
    funext a; apply Fin.ext
    have h := idx4 t
    match a with
    | ⟨0, _⟩ => show win0_4.index t 0 * 50 + 1 * ch.val = ch.val; rw [h.1]; omega
    | ⟨1, _⟩ => show win0_4.index t 1 * 100 + 1 * d.val = d.val; rw [h.2]; omega
  unfold iblk
  rw [View.read_apply]
  show V m c main_v10 (((cfg0.win 4).blk t).view.emb (ix2 ch d)) = _
  rw [hemb, V_v10 m c, transposed_S50x100]

/-- Entry (0, d) of window 5's block at any point is argument 5 at d. -/
theorem blk_5 (c : Dev nD) (t : Fin cfg0.N) (d : Fin 100) :
    (iblk (F := Ideal) m c 5 t : Vec Ideal S1x100 .f32) (ix2 (0 : Fin 1) d) = m ((c : Thread nD τ).loc main_arg5) (ix1 d) := by
  have hemb : ((cfg0.win 5).blk t).view.emb (ix2 (0 : Fin 1) d) = ix2 (0 : Fin 1) d := by
    funext a; apply Fin.ext
    have h := idx5 t
    match a with
    | ⟨0, _⟩ => show win0_5.index t 0 * 1 + 1 * 0 = 0; rw [h.1]
    | ⟨1, _⟩ => show win0_5.index t 1 * 100 + 1 * d.val = d.val; rw [h.2]; omega
  unfold iblk
  rw [View.read_apply]
  show V m c main_v20 (((cfg0.win 5).blk t).view.emb (ix2 (0 : Fin 1) d)) = _
  rw [hemb, V_v20 m c, row_S1x100]

/-- Entry (ch, d) of window 6's block at any point is argument 6 at (d, ch). -/
theorem blk_6 (c : Dev nD) (t : Fin cfg0.N) (ch : Fin 100) (d : Fin 200) :
    (iblk (F := Ideal) m c 6 t : Vec Ideal S100x200 .bf16) (ix2 ch d) = m ((c : Thread nD τ).loc main_arg6) (ix2 d ch) := by
  have hemb : ((cfg0.win 6).blk t).view.emb (ix2 ch d) = ix2 ch d := by
    funext a; apply Fin.ext
    have h := idx6 t
    match a with
    | ⟨0, _⟩ => show win0_6.index t 0 * 100 + 1 * ch.val = ch.val; rw [h.1]; omega
    | ⟨1, _⟩ => show win0_6.index t 1 * 200 + 1 * d.val = d.val; rw [h.2]; omega
  unfold iblk
  rw [View.read_apply]
  show V m c main_v12 (((cfg0.win 6).blk t).view.emb (ix2 ch d)) = _
  rw [hemb, V_v12 m c, transposed_S100x200]

/-- Entry (0, d) of window 7's block at any point is argument 7 at d. -/
theorem blk_7 (c : Dev nD) (t : Fin cfg0.N) (d : Fin 200) :
    (iblk (F := Ideal) m c 7 t : Vec Ideal S1x200 .f32) (ix2 (0 : Fin 1) d) = m ((c : Thread nD τ).loc main_arg7) (ix1 d) := by
  have hemb : ((cfg0.win 7).blk t).view.emb (ix2 (0 : Fin 1) d) = ix2 (0 : Fin 1) d := by
    funext a; apply Fin.ext
    have h := idx7 t
    match a with
    | ⟨0, _⟩ => show win0_7.index t 0 * 1 + 1 * 0 = 0; rw [h.1]
    | ⟨1, _⟩ => show win0_7.index t 1 * 200 + 1 * d.val = d.val; rw [h.2]; omega
  unfold iblk
  rw [View.read_apply]
  show V m c main_v21 (((cfg0.win 7).blk t).view.emb (ix2 (0 : Fin 1) d)) = _
  rw [hemb, V_v21 m c, row_S1x200]

/-- Entry (ch, d) of window 8's block at any point is argument 8 at (d, ch). -/
theorem blk_8 (c : Dev nD) (t : Fin cfg0.N) (ch : Fin 100) (d : Fin 200) :
    (iblk (F := Ideal) m c 8 t : Vec Ideal S100x200 .bf16) (ix2 ch d) = m ((c : Thread nD τ).loc main_arg8) (ix2 d ch) := by
  have hemb : ((cfg0.win 8).blk t).view.emb (ix2 ch d) = ix2 ch d := by
    funext a; apply Fin.ext
    have h := idx8 t
    match a with
    | ⟨0, _⟩ => show win0_8.index t 0 * 100 + 1 * ch.val = ch.val; rw [h.1]; omega
    | ⟨1, _⟩ => show win0_8.index t 1 * 200 + 1 * d.val = d.val; rw [h.2]; omega
  unfold iblk
  rw [View.read_apply]
  show V m c main_v14 (((cfg0.win 8).blk t).view.emb (ix2 ch d)) = _
  rw [hemb, V_v14 m c, transposed_S100x200]

/-- Entry (0, d) of window 9's block at any point is argument 9 at d. -/
theorem blk_9 (c : Dev nD) (t : Fin cfg0.N) (d : Fin 200) :
    (iblk (F := Ideal) m c 9 t : Vec Ideal S1x200 .f32) (ix2 (0 : Fin 1) d) = m ((c : Thread nD τ).loc main_arg9) (ix1 d) := by
  have hemb : ((cfg0.win 9).blk t).view.emb (ix2 (0 : Fin 1) d) = ix2 (0 : Fin 1) d := by
    funext a; apply Fin.ext
    have h := idx9 t
    match a with
    | ⟨0, _⟩ => show win0_9.index t 0 * 1 + 1 * 0 = 0; rw [h.1]
    | ⟨1, _⟩ => show win0_9.index t 1 * 200 + 1 * d.val = d.val; rw [h.2]; omega
  unfold iblk
  rw [View.read_apply]
  show V m c main_v22 (((cfg0.win 9).blk t).view.emb (ix2 (0 : Fin 1) d)) = _
  rw [hemb, V_v22 m c, row_S1x200]

/-- Entry (ch, d) of window 10's block at any point is argument 10 at (d, ch). -/
theorem blk_10 (c : Dev nD) (t : Fin cfg0.N) (ch : Fin 200) (d : Fin 600) :
    (iblk (F := Ideal) m c 10 t : Vec Ideal S200x600 .bf16) (ix2 ch d) = m ((c : Thread nD τ).loc main_arg10) (ix2 d ch) := by
  have hemb : ((cfg0.win 10).blk t).view.emb (ix2 ch d) = ix2 ch d := by
    funext a; apply Fin.ext
    have h := idx10 t
    match a with
    | ⟨0, _⟩ => show win0_10.index t 0 * 200 + 1 * ch.val = ch.val; rw [h.1]; omega
    | ⟨1, _⟩ => show win0_10.index t 1 * 600 + 1 * d.val = d.val; rw [h.2]; omega
  unfold iblk
  rw [View.read_apply]
  show V m c main_v16 (((cfg0.win 10).blk t).view.emb (ix2 ch d)) = _
  rw [hemb, V_v16 m c, transposed_S200x600]

/-- Entry (0, d) of window 11's block at any point is argument 11 at d. -/
theorem blk_11 (c : Dev nD) (t : Fin cfg0.N) (d : Fin 600) :
    (iblk (F := Ideal) m c 11 t : Vec Ideal S1x600 .f32) (ix2 (0 : Fin 1) d) = m ((c : Thread nD τ).loc main_arg11) (ix1 d) := by
  have hemb : ((cfg0.win 11).blk t).view.emb (ix2 (0 : Fin 1) d) = ix2 (0 : Fin 1) d := by
    funext a; apply Fin.ext
    have h := idx11 t
    match a with
    | ⟨0, _⟩ => show win0_11.index t 0 * 1 + 1 * 0 = 0; rw [h.1]
    | ⟨1, _⟩ => show win0_11.index t 1 * 600 + 1 * d.val = d.val; rw [h.2]; omega
  unfold iblk
  rw [View.read_apply]
  show V m c main_v23 (((cfg0.win 11).blk t).view.emb (ix2 (0 : Fin 1) d)) = _
  rw [hemb, V_v23 m c, row_S1x600]

/-- Entry (ch, d) of window 12's block at any point is argument 12 at (d, ch). -/
theorem blk_12 (c : Dev nD) (t : Fin cfg0.N) (ch : Fin 200) (d : Fin 600) :
    (iblk (F := Ideal) m c 12 t : Vec Ideal S200x600 .bf16) (ix2 ch d) = m ((c : Thread nD τ).loc main_arg12) (ix2 d ch) := by
  have hemb : ((cfg0.win 12).blk t).view.emb (ix2 ch d) = ix2 ch d := by
    funext a; apply Fin.ext
    have h := idx12 t
    match a with
    | ⟨0, _⟩ => show win0_12.index t 0 * 200 + 1 * ch.val = ch.val; rw [h.1]; omega
    | ⟨1, _⟩ => show win0_12.index t 1 * 600 + 1 * d.val = d.val; rw [h.2]; omega
  unfold iblk
  rw [View.read_apply]
  show V m c main_v18 (((cfg0.win 12).blk t).view.emb (ix2 ch d)) = _
  rw [hemb, V_v18 m c, transposed_S200x600]

/-- Entry (0, d) of window 13's block at any point is argument 13 at d. -/
theorem blk_13 (c : Dev nD) (t : Fin cfg0.N) (d : Fin 600) :
    (iblk (F := Ideal) m c 13 t : Vec Ideal S1x600 .f32) (ix2 (0 : Fin 1) d) = m ((c : Thread nD τ).loc main_arg13) (ix1 d) := by
  have hemb : ((cfg0.win 13).blk t).view.emb (ix2 (0 : Fin 1) d) = ix2 (0 : Fin 1) d := by
    funext a; apply Fin.ext
    have h := idx13 t
    match a with
    | ⟨0, _⟩ => show win0_13.index t 0 * 1 + 1 * 0 = 0; rw [h.1]
    | ⟨1, _⟩ => show win0_13.index t 1 * 600 + 1 * d.val = d.val; rw [h.2]; omega
  unfold iblk
  rw [View.read_apply]
  show V m c main_v24 (((cfg0.win 13).blk t).view.emb (ix2 (0 : Fin 1) d)) = _
  rw [hemb, V_v24 m c, row_S1x600]

/-- The neighbour block at point t, graph b = 8·t + g, holds the LOCAL neighbour positions as 32-bit words. -/
theorem block_nb (c : Dev nD) (hA : GNN.Agrees (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) X NB W)
    (t : Fin cfg0.N) (g : Fin 8) (b : Fin 64) (hb : b.val = 8 * t.val + g.val) (q : Fin 600) (s : Fin 8) :
    (iblk (F := Ideal) m c 1 t : Vec Ideal S8x600x8 .i32) (ix3 g q s) = BitVec.ofNat 32 (NB b q s).val := by
  rw [blk_nb m c t g q s b hb, hA.nb b q s]
  exact word_local b.val (NB b q s).val b.isLt (NB b q s).isLt

/-- The twelve weight blocks at any point are the real weights, θ and φ transposed, biases as one row. -/
theorem block_weights (c : Dev nD) (hA : GNN.Agrees (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) X NB W)
    (t : Fin cfg0.N) :
    Cert.KernelRow.Weights (iblk (F := Ideal) m c 2 t : Vec Ideal S50x100 .bf16) (iblk (F := Ideal) m c 3 t : Vec Ideal S1x100 .f32)
      (iblk (F := Ideal) m c 4 t : Vec Ideal S50x100 .bf16) (iblk (F := Ideal) m c 5 t : Vec Ideal S1x100 .f32)
      (iblk (F := Ideal) m c 6 t : Vec Ideal S100x200 .bf16) (iblk (F := Ideal) m c 7 t : Vec Ideal S1x200 .f32)
      (iblk (F := Ideal) m c 8 t : Vec Ideal S100x200 .bf16) (iblk (F := Ideal) m c 9 t : Vec Ideal S1x200 .f32)
      (iblk (F := Ideal) m c 10 t : Vec Ideal S200x600 .bf16) (iblk (F := Ideal) m c 11 t : Vec Ideal S1x600 .f32)
      (iblk (F := Ideal) m c 12 t : Vec Ideal S200x600 .bf16) (iblk (F := Ideal) m c 13 t : Vec Ideal S1x600 .f32) W := by
  exact ⟨fun ch d => (blk_2 m c t ch d).trans (hA.t1w d ch), fun d => (blk_3 m c t d).trans (hA.t1b d),
    fun ch d => (blk_4 m c t ch d).trans (hA.p1w d ch), fun d => (blk_5 m c t d).trans (hA.p1b d),
    fun ch d => (blk_6 m c t ch d).trans (hA.t2w d ch), fun d => (blk_7 m c t d).trans (hA.t2b d),
    fun ch d => (blk_8 m c t ch d).trans (hA.p2w d ch), fun d => (blk_9 m c t d).trans (hA.p2b d),
    fun ch d => (blk_10 m c t ch d).trans (hA.t3w d ch), fun d => (blk_11 m c t d).trans (hA.t3b d),
    fun ch d => (blk_12 m c t ch d).trans (hA.p3w d ch), fun d => (blk_13 m c t d).trans (hA.p3b d)⟩

end Cert.KernelValue

end
-- ==== Proof.KernelTrip.lean ====
/-
  From the loop's pieces to the staged output block.

  The body's loop makes 8 trips; trip k stores one [1, 600] row at row k of the [8, 600] output block, and nothing else is
  written to it. So the block the run leaves reads, at (g, p), the row stored by trip g at (0, p): the pieces of the
  trips are the rows 0 … 7, each written once, and together they tile the block.
-/
import Idealize.ShloMosaic.Lib.ValueIdx
import Idealize.ShloMosaic.Lib.Pipeline.Value
import proofs.«411374_j22643067584549_2_alg».proof.Proof.Gen.KernelIdeal.Frame

set_option maxRecDepth 16384

noncomputable section

namespace Cert.KernelTrip

open Idealize.ShloMosaic Idealize.ShloMosaic.ValueIdx Cert.KernelIdeal Cert.KernelIdeal.Gen

section Pieces

variable {F : FTy → Type} [FloatOps F]

/-- The row trip k stores: the trip's payload over the blocks its loads find. -/
abbrev rowPay (arg1 : Memref sig .tc .vmem S8x600x50 .f32) (arg2 : Memref sig .tc .vmem S8x600x8 .i32) (v0 : Vec F S50x100 .bf16) (v2 : Vec F S1x100 .f32) (v4 : Vec F S50x100 .bf16) (v6 : Vec F S1x100 .f32) (v8 : Vec F S100x200 .bf16) (v10 : Vec F S1x200 .f32) (v12 : Vec F S100x200 .bf16) (v14 : Vec F S1x200 .f32) (v16 : Vec F S200x600 .bf16) (v18 : Vec F S1x600 .f32) (v20 : Vec F S200x600 .bf16) (v22 : Vec F S1x600 .f32) (X1 : BufTy.Contents (Elt F) arg1.view.ty) (X2 : BufTy.Contents (Elt F) arg2.view.ty) (k : Fin k0_t1_loop.trips) : FVec F S1x600 .f32 :=
  k0_pay12 (F := F) v16 v18 (trip_k0_t1.sl.r_8 arg2 X2 k) (trip_k0_t1.sl.r_9 arg2 X2 k)
    (trip_k0_t1.sl.r_10 arg2 X2 k)
    (trip_k0_t1.sl.r_20 arg1 arg2 v0 v2 v4 v6 v8 v10 v12 v14 X1 X2 k)
    (trip_k0_t1.sl.r_21 arg1 arg2 v0 v2 v4 v6 v8 v10 v12 v14 v16 X1 X2 k)
    (trip_k0_t1.sl.r_22 arg1 arg2 v0 v2 v4 v6 v8 v10 v12 v14 v20 v22 X1 X2 k)
    (trip_k0_t1.sl.r_23 arg1 arg2 v0 v2 v4 v6 v8 v10 v12 v14 v16 X1 X2 k)
    (trip_k0_t1.sl.r_24 arg1 arg2 v0 v2 v4 v6 v8 v10 v12 v14 X1 X2 k)

/-- The loop makes 8 trips. -/
theorem trips_eq : k0_t1_loop.trips = 8 := by decide

/-- ONE TRIP's pieces: a single store, at row k of the output block, of the row above. -/
theorem trip_piece (𝒱 : Variants) (c : Dev nD) (bd : Option 𝒱.V) (i : grid0.Coords) (arg1 : Memref sig .tc .vmem S8x600x50 .f32) (harg1 : arg1.IsWhole) (arg2 : Memref sig .tc .vmem S8x600x8 .i32) (harg2 : arg2.IsWhole) (arg3 : Memref sig .tc .vmem S50x100 .bf16) (harg3 : arg3.IsWhole) (arg4 : Memref sig .tc .vmem S1x100 .f32) (harg4 : arg4.IsWhole) (arg5 : Memref sig .tc .vmem S50x100 .bf16) (harg5 : arg5.IsWhole) (arg6 : Memref sig .tc .vmem S1x100 .f32) (harg6 : arg6.IsWhole) (arg7 : Memref sig .tc .vmem S100x200 .bf16) (harg7 : arg7.IsWhole) (arg8 : Memref sig .tc .vmem S1x200 .f32) (harg8 : arg8.IsWhole) (arg9 : Memref sig .tc .vmem S100x200 .bf16) (harg9 : arg9.IsWhole) (arg10 : Memref sig .tc .vmem S1x200 .f32) (harg10 : arg10.IsWhole) (arg11 : Memref sig .tc .vmem S200x600 .bf16) (harg11 : arg11.IsWhole) (arg12 : Memref sig .tc .vmem S1x600 .f32) (harg12 : arg12.IsWhole) (arg13 : Memref sig .tc .vmem S200x600 .bf16) (harg13 : arg13.IsWhole) (arg14 : Memref sig .tc .vmem S1x600 .f32) (harg14 : arg14.IsWhole) (arg15 : Memref sig .tc .vmem S8x600 .f32) (harg15 : arg15.IsWhole) (v0 : Vec F S50x100 .bf16) (v2 : Vec F S1x100 .f32) (v4 : Vec F S50x100 .bf16) (v6 : Vec F S1x100 .f32) (v8 : Vec F S100x200 .bf16) (v10 : Vec F S1x200 .f32) (v12 : Vec F S100x200 .bf16) (v14 : Vec F S1x200 .f32) (v16 : Vec F S200x600 .bf16) (v18 : Vec F S1x600 .f32) (v20 : Vec F S200x600 .bf16) (v22 : Vec F S1x600 .f32) (X1 : BufTy.Contents (Elt F) arg1.view.ty) (X2 : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 v16 v18 v20 v22 X1 X2 k
      = [(⟨Rect.unit (k0_off3 k) S1x600.size (k0_off3_inb k), rowPay arg1 arg2 v0 v2 v4 v6 v8 v10 v12 v14 v16 v18 v20 v22 X1 X2 k⟩ : View.Piece (Elt F) S8x600 .f32)] := by
  unfold tripL_k0_t1 trip_k0_t1
  rfl

/-- A load of a whole block through the zero-offset rectangle of its own extents reads the block. -/
theorem whole_load {S : Shape} {e : EltTy} (m : Memref sig .tc .vmem S e) (h : m.IsWhole) {off : Fin S.rank → Nat}
    (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

theorem zero2 : (![0, 0] : Fin 2 → Nat) = fun _ => 0 := by
  funext a; fin_cases a <;> rfl

/-- THE RUN's pieces for the output block: the pieces of the 8 trips, over the weight blocks themselves. -/
theorem run_pieces (c : Dev nD) (i : grid0.Coords) (arg1 : Memref sig .tc .vmem S8x600x50 .f32) (harg1 : arg1.IsWhole) (arg2 : Memref sig .tc .vmem S8x600x8 .i32) (harg2 : arg2.IsWhole) (arg3 : Memref sig .tc .vmem S50x100 .bf16) (harg3 : arg3.IsWhole) (arg4 : Memref sig .tc .vmem S1x100 .f32) (harg4 : arg4.IsWhole) (arg5 : Memref sig .tc .vmem S50x100 .bf16) (harg5 : arg5.IsWhole) (arg6 : Memref sig .tc .vmem S1x100 .f32) (harg6 : arg6.IsWhole) (arg7 : Memref sig .tc .vmem S100x200 .bf16) (harg7 : arg7.IsWhole) (arg8 : Memref sig .tc .vmem S1x200 .f32) (harg8 : arg8.IsWhole) (arg9 : Memref sig .tc .vmem S100x200 .bf16) (harg9 : arg9.IsWhole) (arg10 : Memref sig .tc .vmem S1x200 .f32) (harg10 : arg10.IsWhole) (arg11 : Memref sig .tc .vmem S200x600 .bf16) (harg11 : arg11.IsWhole) (arg12 : Memref sig .tc .vmem S1x600 .f32) (harg12 : arg12.IsWhole) (arg13 : Memref sig .tc .vmem S200x600 .bf16) (harg13 : arg13.IsWhole) (arg14 : Memref sig .tc .vmem S1x600 .f32) (harg14 : arg14.IsWhole) (arg15 : Memref sig .tc .vmem S8x600 .f32) (harg15 : arg15.IsWhole) (x0 : Vec F S8x600x50 .f32) (x1 : Vec F S8x600x8 .i32) (x2 : Vec F S50x100 .bf16) (x3 : Vec F S1x100 .f32) (x4 : Vec F S50x100 .bf16) (x5 : Vec F S1x100 .f32) (x6 : Vec F S100x200 .bf16) (x7 : Vec F S1x200 .f32) (x8 : Vec F S100x200 .bf16) (x9 : Vec F S1x200 .f32) (x10 : Vec F S200x600 .bf16) (x11 : Vec F S1x600 .f32) (x12 : Vec F S200x600 .bf16) (x13 : Vec F S1x600 .f32) :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13).1
      = pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x13 (harg1.unread x0) (harg2.unread x1) k0_t1_loop.trips := by
  unfold kernelRun0_A
  dsimp only
  rw [whole_load (S := S50x100) arg3 harg3 zero2 _ x2,
    whole_load (S := S1x100) arg4 harg4 zero2 _ x3,
    whole_load (S := S50x100) arg5 harg5 zero2 _ x4,
    whole_load (S := S1x100) arg6 harg6 zero2 _ x5,
    whole_load (S := S100x200) arg7 harg7 zero2 _ x6,
    whole_load (S := S1x200) arg8 harg8 zero2 _ x7,
    whole_load (S := S100x200) arg9 harg9 zero2 _ x8,
    whole_load (S := S1x200) arg10 harg10 zero2 _ x9,
    whole_load (S := S200x600) arg11 harg11 zero2 _ x10,
    whole_load (S := S1x600) arg12 harg12 zero2 _ x11,
    whole_load (S := S200x600) arg13 harg13 zero2 _ x12,
    whole_load (S := S1x600) arg14 harg14 zero2 _ x13]

/-- Off the newest piece, the pieces-to-function reading is that of the earlier pieces. -/
theorem canon_cons_below {s : Shape} {e : EltTy} (r : Rect s) (w : r.shape.Idx → Elt F e) (L : List (View.Piece (Elt F) s e))
    {y : s.Idx} (h : y ∉ r.set) : View.canon ((⟨r, w⟩ : View.Piece (Elt F) s e) :: L) y = View.canon L y :=
  View.canon_cons_of_not_mem ⟨r, w⟩ L h

/-- The [1, 600] rectangle at offset (n, 0) of the [8, 600] block places (0, p) at (n, p). -/
theorem row_emb {off : Fin 2 → Nat} {n : Nat} (hoff : off = ![n, 0]) (inb : ∀ a, off a + S1x600.size a ≤ S8x600.size a)
    (g : Fin 8) (p : Fin 600) (h : g.val = n) :
    (Rect.unit (s := S8x600) off S1x600.size inb).emb (ix2 (0 : Fin 1) p) = ix2 g p := by
  subst hoff
  funext a; apply Fin.ext
  fin_cases a
  · show n + 1 * 0 = g.val; omega
  · show 0 + 1 * p.val = p.val; omega

/-- and holds no index of a row above n. -/
theorem row_not_mem {off : Fin 2 → Nat} {n : Nat} (hoff : off = ![n, 0]) (inb : ∀ a, off a + S1x600.size a ≤ S8x600.size a)
    (g : Fin 8) (p : Fin 600) (h : g.val < n) :
    ix2 g p ∉ (Rect.unit (s := S8x600) off S1x600.size inb).set := by
  subst hoff
  rw [Rect.mem_set_unit]
  intro hm
  have h0 : n ≤ g.val := (hm 0).1
  omega

/-- The pieces of the first n trips are the rows n−1 … 0, each written once: read at row g < n they give the row trip g
    stored. -/
theorem canon_rows (𝒱 : Variants) (c : Dev nD) (bd : Option 𝒱.V) (i : grid0.Coords) (arg1 : Memref sig .tc .vmem S8x600x50 .f32) (harg1 : arg1.IsWhole) (arg2 : Memref sig .tc .vmem S8x600x8 .i32) (harg2 : arg2.IsWhole) (arg3 : Memref sig .tc .vmem S50x100 .bf16) (harg3 : arg3.IsWhole) (arg4 : Memref sig .tc .vmem S1x100 .f32) (harg4 : arg4.IsWhole) (arg5 : Memref sig .tc .vmem S50x100 .bf16) (harg5 : arg5.IsWhole) (arg6 : Memref sig .tc .vmem S1x100 .f32) (harg6 : arg6.IsWhole) (arg7 : Memref sig .tc .vmem S100x200 .bf16) (harg7 : arg7.IsWhole) (arg8 : Memref sig .tc .vmem S1x200 .f32) (harg8 : arg8.IsWhole) (arg9 : Memref sig .tc .vmem S100x200 .bf16) (harg9 : arg9.IsWhole) (arg10 : Memref sig .tc .vmem S1x200 .f32) (harg10 : arg10.IsWhole) (arg11 : Memref sig .tc .vmem S200x600 .bf16) (harg11 : arg11.IsWhole) (arg12 : Memref sig .tc .vmem S1x600 .f32) (harg12 : arg12.IsWhole) (arg13 : Memref sig .tc .vmem S200x600 .bf16) (harg13 : arg13.IsWhole) (arg14 : Memref sig .tc .vmem S1x600 .f32) (harg14 : arg14.IsWhole) (arg15 : Memref sig .tc .vmem S8x600 .f32) (harg15 : arg15.IsWhole) (v0 : Vec F S50x100 .bf16) (v2 : Vec F S1x100 .f32) (v4 : Vec F S50x100 .bf16) (v6 : Vec F S1x100 .f32) (v8 : Vec F S100x200 .bf16) (v10 : Vec F S1x200 .f32) (v12 : Vec F S100x200 .bf16) (v14 : Vec F S1x200 .f32) (v16 : Vec F S200x600 .bf16) (v18 : Vec F S1x600 .f32) (v20 : Vec F S200x600 .bf16) (v22 : Vec F S1x600 .f32) (X1 : BufTy.Contents (Elt F) arg1.view.ty) (X2 : BufTy.Contents (Elt F) arg2.view.ty) :
    ∀ (n : Nat) (hn : n ≤ k0_t1_loop.trips) (g : Fin 8) (p : Fin 600) (hg : g.val < n),
      View.canon (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 v16 v18 v20 v22 X1 X2 n) (ix2 g p)
        = rowPay arg1 arg2 v0 v2 v4 v6 v8 v10 v12 v14 v16 v18 v20 v22 X1 X2 ⟨g.val, Nat.lt_of_lt_of_le hg hn⟩ (ix2 (0 : Fin 1) p)
  | 0, _, g, p, hg => absurd hg (Nat.not_lt_zero _)
  | n + 1, hn, g, p, hg => by
    have hk : n < k0_t1_loop.trips := hn
    have hsucc : pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 v16 v18 v20 v22 X1 X2 (n + 1)
        = (⟨Rect.unit (k0_off3 ⟨n, hk⟩) S1x600.size (k0_off3_inb ⟨n, hk⟩), rowPay arg1 arg2 v0 v2 v4 v6 v8 v10 v12 v14 v16 v18 v20 v22 X1 X2 ⟨n, hk⟩⟩ : View.Piece (Elt F) S8x600 .f32)
            :: pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 v16 v18 v20 v22 X1 X2 n :=
      (pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 v16 v18 v20 v22 X1 X2 ⟨n, hk⟩).trans
        (by rw [trip_piece]; rfl)
    rw [hsucc]
    have hoff : k0_off3 ⟨n, hk⟩ = ![n, 0] := k0_off3_eq ⟨n, hk⟩
    by_cases h : g.val = n
    · -- the newest piece is row g
      have he := row_emb hoff (k0_off3_inb ⟨n, hk⟩) g p h
      have hkg : (⟨n, hk⟩ : Fin k0_t1_loop.trips) = ⟨g.val, Nat.lt_of_lt_of_le hg hn⟩ := Fin.ext h.symm
      rw [← he, View.canon_cons_emb, hkg]
    · -- row g is below the newest piece
      have hlt : g.val < n := by omega
      have hnm := row_not_mem hoff (k0_off3_inb ⟨n, hk⟩) g p hlt
      rw [canon_cons_below _ _ _ hnm]
      exact canon_rows 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 v16 v18 v20 v22 X1 X2 n (Nat.le_of_lt hk) g p hlt

end Pieces

/-- The staged output block after the body, at row g and node p, is what trip g stored at (0, p): the stored row of
    KernelLayer3's stored_row, over the whole blocks' contents as the trip's loads find them. -/
theorem out_row (c : Dev nD) (i : grid0.Coords) (arg1 : Memref sig .tc .vmem S8x600x50 .f32) (harg1 : arg1.IsWhole) (arg2 : Memref sig .tc .vmem S8x600x8 .i32) (harg2 : arg2.IsWhole) (arg3 : Memref sig .tc .vmem S50x100 .bf16) (harg3 : arg3.IsWhole) (arg4 : Memref sig .tc .vmem S1x100 .f32) (harg4 : arg4.IsWhole) (arg5 : Memref sig .tc .vmem S50x100 .bf16) (harg5 : arg5.IsWhole) (arg6 : Memref sig .tc .vmem S1x100 .f32) (harg6 : arg6.IsWhole) (arg7 : Memref sig .tc .vmem S100x200 .bf16) (harg7 : arg7.IsWhole) (arg8 : Memref sig .tc .vmem S1x200 .f32) (harg8 : arg8.IsWhole) (arg9 : Memref sig .tc .vmem S100x200 .bf16) (harg9 : arg9.IsWhole) (arg10 : Memref sig .tc .vmem S1x200 .f32) (harg10 : arg10.IsWhole) (arg11 : Memref sig .tc .vmem S200x600 .bf16) (harg11 : arg11.IsWhole) (arg12 : Memref sig .tc .vmem S1x600 .f32) (harg12 : arg12.IsWhole) (arg13 : Memref sig .tc .vmem S200x600 .bf16) (harg13 : arg13.IsWhole) (arg14 : Memref sig .tc .vmem S1x600 .f32) (harg14 : arg14.IsWhole) (arg15 : Memref sig .tc .vmem S8x600 .f32) (harg15 : arg15.IsWhole) (x0 : Vec Ideal S8x600x50 .f32) (x1 : Vec Ideal S8x600x8 .i32) (x2 : Vec Ideal S50x100 .bf16) (x3 : Vec Ideal S1x100 .f32) (x4 : Vec Ideal S50x100 .bf16) (x5 : Vec Ideal S1x100 .f32) (x6 : Vec Ideal S100x200 .bf16) (x7 : Vec Ideal S1x200 .f32) (x8 : Vec Ideal S100x200 .bf16) (x9 : Vec Ideal S1x200 .f32) (x10 : Vec Ideal S200x600 .bf16) (x11 : Vec Ideal S1x600 .f32) (x12 : Vec Ideal S200x600 .bf16) (x13 : Vec Ideal S1x600 .f32) (g : Fin 8) (p : Fin 600) :
    ∃ k : Fin k0_t1_loop.trips, g.val = k.val ∧
      out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 (ix2 g p)
        = k0_pay12 (F := Ideal) x10 x11 (trip_k0_t1.sl.r_8 arg2 (harg2.unread x1) k) (trip_k0_t1.sl.r_9 arg2 (harg2.unread x1) k)
            (trip_k0_t1.sl.r_10 arg2 (harg2.unread x1) k)
            (trip_k0_t1.sl.r_20 arg1 arg2 x2 x3 x4 x5 x6 x7 x8 x9 (harg1.unread x0) (harg2.unread x1) k)
            (trip_k0_t1.sl.r_21 arg1 arg2 x2 x3 x4 x5 x6 x7 x8 x9 x10 (harg1.unread x0) (harg2.unread x1) k)
            (trip_k0_t1.sl.r_22 arg1 arg2 x2 x3 x4 x5 x6 x7 x8 x9 x12 x13 (harg1.unread x0) (harg2.unread x1) k)
            (trip_k0_t1.sl.r_23 arg1 arg2 x2 x3 x4 x5 x6 x7 x8 x9 x10 (harg1.unread x0) (harg2.unread x1) k)
            (trip_k0_t1.sl.r_24 arg1 arg2 x2 x3 x4 x5 x6 x7 x8 x9 (harg1.unread x0) (harg2.unread x1) k) (ix2 (0 : Fin 1) p) := by
  have htr : g.val < k0_t1_loop.trips := by rw [trips_eq]; exact g.isLt
  refine ⟨⟨g.val, htr⟩, rfl, ?_⟩
  unfold out0_A_14
  rw [View.read_writes_eq_canon _ _ _ (cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13),
    run_pieces]
  exact canon_rows (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x13 (harg1.unread x0) (harg2.unread x1)
    k0_t1_loop.trips (Nat.le_refl _) g p htr

end Cert.KernelTrip

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.KernelLoads.lean ====
/-
  What a trip loads, and its eight 0/1 matrices.

  Trip k loads row-block k of the two staged blocks: feature row q, channel ch of the loaded [600, 50] piece is entry
  (k, q, ch) of the block. The neighbour piece's column s, laid along the rows and compared for equality with the column
  position 0 … 599, widened to a float, is 1 exactly where the stored local index equals the column: when the stored
  index of (q, s) is nb q s < 600, the matrix picks the neighbours of slot s.
-/
import Idealize.ShloMosaic.Lib.ValueIdx
import Idealize.ShloMosaic.Lib.Pipeline.Value
import Idealize.ShloMosaic.Lib.StableHlo.Predicate
import Idealize.ShloMosaic.PureOps.Ideal.Laws
import proofs.«411374_j22643067584549_2_alg».proof.Proof.LibPlainMatmul
import proofs.«411374_j22643067584549_2_alg».proof.Proof.KernelRow

noncomputable section

namespace Cert.KernelRow

open Idealize.ShloMosaic Idealize.ShloMosaic.ValueIdx Cert.KernelIdeal Cert.KernelIdeal.Gen

variable {arg1 : Memref sig .tc .vmem S8x600x50 .f32} {arg2 : Memref sig .tc .vmem S8x600x8 .i32}
  {v0 : Vec Ideal S50x100 .bf16} {v2 : Vec Ideal S1x100 .f32} {v4 : Vec Ideal S50x100 .bf16} {v6 : Vec Ideal S1x100 .f32}
  {v8 : Vec Ideal S100x200 .bf16} {v10 : Vec Ideal S1x200 .f32} {v12 : Vec Ideal S100x200 .bf16} {v14 : Vec Ideal S1x200 .f32}
  {v16 : Vec Ideal S200x600 .bf16} {v18 : Vec Ideal S1x600 .f32} {v20 : Vec Ideal S200x600 .bf16} {v22 : Vec Ideal S1x600 .f32}
  {X1 : BufTy.Contents (Elt Ideal) arg1.view.ty} {X2 : BufTy.Contents (Elt Ideal) arg2.view.ty} {k : Fin k0_t1_loop.trips}
  {W : GNN.Params} {x : Fin 600 → Fin 50 → ℝ} {nb : Fin 600 → Fin 8 → Fin 600}

namespace Loads

/-- The loop has at most 8 trips. -/
theorem trips_le (k : Fin k0_t1_loop.trips) : k.val < 8 := Nat.lt_of_lt_of_le k.isLt k0_t1_abs.2.1

/-- The trip's first offset is the trip number. -/
theorem off1_zero (k : Fin k0_t1_loop.trips) : k0_off1 k 0 = k.val := by
  have hk := trips_le k
  show (Scalar.indexCast (Scalar.addi 0#32 (Scalar.muli (Scf.iv 0#32 1#32 k.val) 1#32))).toNat = k.val
  simp only [Scalar.indexCast, Scalar.addi, Scalar.muli, IntOp.addi, IntOp.muli, Scf.iv, BitVec.toNat_add, BitVec.toNat_mul,
    BitVec.toNat_ofNat]
  omega

/-- Likewise for the neighbour block's load. -/
theorem off2_zero (k : Fin k0_t1_loop.trips) : k0_off2 k 0 = k.val := by
  have hk := trips_le k
  show (Scalar.indexCast (Scalar.addi 0#32 (Scalar.muli (Scf.iv 0#32 1#32 k.val) 1#32))).toNat = k.val
  simp only [Scalar.indexCast, Scalar.addi, Scalar.muli, IntOp.addi, IntOp.muli, Scf.iv, BitVec.toNat_add, BitVec.toNat_mul,
    BitVec.toNat_ofNat]
  omega

/-- A [1, 600, n] piece loaded at offsets (g, 0, 0) from a whole [8, 600, n] block and flattened to [600, n] reads, at (q, c), the block at (g, q, c). -/
theorem load_block {n : Nat} {e : EltTy} (m : Memref sig .tc .vmem ⟨3, ![8, 600, n]⟩ e) (hm : m.IsWhole)
    (X : Vec Ideal ⟨3, ![8, 600, n]⟩ e) (off : Fin 3 → Nat) (g : Fin 8) (h0 : off 0 = g.val) (h1 : off 1 = 0) (h2 : off 2 = 0)
    (inb : ∀ a, off a + (⟨3, ![1, 600, n]⟩ : Shape).size a ≤ (⟨3, ![8, 600, n]⟩ : Shape).size a)
    (hc : (⟨3, ![1, 600, n]⟩ : Shape).ShapeCasts ⟨2, ![600, n]⟩) (q : Fin 600) (c : Fin n) :
    shapeCast ⟨2, ![600, n]⟩
        (View.readAt (Elt Ideal) m.view (Rect.unit (s := ⟨3, ![8, 600, n]⟩) off (⟨3, ![1, 600, n]⟩ : Shape).size inb).toLoadRect (hm.unread X)) hc (ix2 q c)
      = X (ix3 g q c) := by
  refine (shapeCast_apply _ hc (ix2 q c) (ix3 (0 : Fin 1) q c) ?_).trans ?_
  · rw [Shape.rowMajor_val_two]
    refine (Shape.rowMajor_val_three (d := ![1, 600, n]) (ix3 (0 : Fin 1) q c)).trans ?_
    show ((0 : Fin 1).val * 600 + q.val) * n + c.val = q.val * n + c.val
    simp
  · show m.view.read (Elt Ideal) (hm.unread X) _ = _
    rw [hm.read_unread]
    refine congrArg X (funext fun a => Fin.ext ?_)
    match a with
    | ⟨0, _⟩ => show off 0 + 1 * (0 : Fin 1).val = g.val; rw [h0]; simp
    | ⟨1, _⟩ => show off 1 + 1 * q.val = q.val; rw [h1]; simp
    | ⟨2, _⟩ => show off 2 + 1 * c.val = c.val; rw [h2]; simp

/-- A word as a float is its signed value. -/
theorem sitofp_ideal {w : Nat} (φ : FTy) (b : BitVec w) : FloatOps.sitofp (F := Ideal) φ b = ((b.toInt : ℝ) : EReal) := rfl

/-- Widened to a float, the comparison of two words for equality is 1 where they are equal and 0 elsewhere. -/
theorem onehot_word (a b : BitVec 32) :
    ((((IntOp.cmpi .eq a b).setWidth 32).toInt : ℝ) : EReal) = if a = b then (1 : EReal) else 0 := by
  by_cases h : a = b
  · rw [if_pos h, StableHlo.Predicate.cmpi_eq_iff.2 h]
    have e : ((1#1 : BitVec 1).setWidth 32).toInt = 1 := by decide
    rw [e]; simp
  · rw [if_neg h]
    have hc : IntOp.cmpi .eq a b = 0#1 := by
      rcases BitVec.eq_zero_or_eq_one (IntOp.cmpi .eq a b) with h0 | h1
      · exact h0
      · exact absurd (StableHlo.Predicate.cmpi_eq_iff.1 h1) h
    rw [hc]
    have e : ((0#1 : BitVec 1).setWidth 32).toInt = 0 := by decide
    rw [e]; simp

/-- Column s of a [600, 8] array of words, laid along the rows of a [600, 600] square and compared with the column
    position: entry (p, j) is 1 where the word at (p, s) is j, else 0. -/
theorem pick_entry (v32 : IVec S600x8 32) (off : Fin 2 → Nat) (s : Fin 8) (h0 : off 0 = 0) (h1 : off 1 = s.val)
    (hsl : S600x8.Slices off S600x1) (hc1 : S600x1.ShapeCasts S600) (hc2 : S600.ShapeCasts S600x1)
    (hb : S600x1.Broadcasts S600x600) (hi : S600x600.Iotas .tc 32 [1]) (hlt : 1 < 32) (hbits : FTy.bf16.bits < FTy.f32.bits)
    (p j : Fin 600) :
    truncf (F := Ideal) .bf16 (sitofp .f32 (extui 32 (cmpi .eq
        (broadcastTo S600x600 (shapeCast S600x1 (shapeCast S600 (extractStridedSlice S600x1 off v32 hsl) hc1) hc2) hb)
        (iota .tc S600x600 32 [1] hi)) hlt)) hbits (ix2 p j)
      = if v32 (ix2 p s) = BitVec.ofNat 32 j.val then (1 : EReal) else 0 := by
  have hA : broadcastTo S600x600 (shapeCast S600x1 (shapeCast S600 (extractStridedSlice S600x1 off v32 hsl) hc1) hc2) hb (ix2 p j)
      = v32 (ix2 p s) := by
    refine (broadcastTo_apply _ hb (ix2 p j) (ix2 p (0 : Fin 1)) ?_).trans ?_
    · intro a
      match a with
      | ⟨0, _⟩ => show p.val = if (600 : ℕ) = 1 then 0 else p.val; rw [if_neg (by decide)]
      | ⟨1, _⟩ => show (0 : ℕ) = if (1 : ℕ) = 1 then 0 else j.val; rw [if_pos rfl]
    refine (shapeCast_apply _ hc2 (ix2 p (0 : Fin 1)) (ix1 p) ?_).trans ?_
    · rw [Shape.rowMajor_val_one, Shape.rowMajor_val_two]; show p.val = p.val * 1 + 0; omega
    refine (shapeCast_apply _ hc1 (ix1 p) (ix2 p (0 : Fin 1)) ?_).trans ?_
    · rw [Shape.rowMajor_val_one, Shape.rowMajor_val_two]; show p.val * 1 + 0 = p.val; omega
    refine congrArg v32 (funext fun a => Fin.ext ?_)
    match a with
    | ⟨0, _⟩ => show off 0 + p.val = p.val; omega
    | ⟨1, _⟩ => show off 1 + 0 = s.val; omega
  have hB : iota .tc S600x600 32 [1] hi (ix2 p j) = BitVec.ofNat 32 j.val := by
    show BitVec.ofNat 32 (0 * 600 + j.val) = BitVec.ofNat 32 j.val
    rw [Nat.zero_mul, Nat.zero_add]
  show FloatOps.truncf (F := Ideal) .bf16 hbits (FloatOps.sitofp .f32 ((IntOp.cmpi .eq
      (broadcastTo S600x600 (shapeCast S600x1 (shapeCast S600 (extractStridedSlice S600x1 off v32 hsl) hc1) hc2) hb (ix2 p j))
      (iota .tc S600x600 32 [1] hi (ix2 p j))).setWidth 32)) = _
  rw [Ideal.truncf_def, sitofp_ideal, hA, hB]
  exact onehot_word _ _

/-- Two positions below 600 are equal when their 32-bit words are. -/
theorem ofNat_eq_iff (a b : Fin 600) : BitVec.ofNat 32 a.val = BitVec.ofNat 32 b.val ↔ a = b := by
  constructor
  · intro h
    have e := congrArg BitVec.toNat h
    simp only [BitVec.toNat_ofNat] at e
    apply Fin.ext
    omega
  · rintro rfl; rfl

/-- A 0/1 matrix built from column s of the word array picks slot s when the words are the neighbours' positions. -/
theorem isPick_of {oh : FVec Ideal S600x600 .bf16} {v32 : IVec S600x8 32} (s : Fin 8)
    (hv : ∀ p, v32 (ix2 p s) = BitVec.ofNat 32 (nb p s).val)
    (hoh : ∀ p j, oh (ix2 p j) = if v32 (ix2 p s) = BitVec.ofNat 32 j.val then (1 : EReal) else 0) : IsPick oh nb s := by
  intro p j
  rw [hoh, hv]
  by_cases h : nb p s = j
  · rw [if_pos h, if_pos (by rw [h])]
  · rw [if_neg h, if_neg (fun e => h ((ofNat_eq_iff _ _).1 e))]

/-- The loaded neighbour piece of trip k is row-block k of the staged block. -/
theorem load_nb (harg2 : arg2.IsWhole) (x1 : Vec Ideal S8x600x8 .i32) (g : Fin 8) (hg : g.val = k.val) (p : Fin 600) (s : Fin 8) :
    trip_k0_t1.sl.r_1 (F := Ideal) arg2 (harg2.unread x1) k (ix2 p s) = x1 (ix3 g p s) := by
  unfold trip_k0_t1.sl.r_1 k0_pay14
  exact load_block arg2 harg2 x1 (k0_off2 k) g ((off2_zero k).trans hg.symm) rfl rfl _ _ p s

end Loads

/-- The loaded feature piece of trip k is row-block k of the staged block. -/
theorem load_x (harg1 : arg1.IsWhole) (x0 : Vec Ideal S8x600x50 .f32) (g : Fin 8) (hg : g.val = k.val) (q : Fin 600) (ch : Fin 50) :
    trip_k0_t1.sl.r (F := Ideal) arg1 (harg1.unread x0) k (ix2 q ch) = x0 (ix3 g q ch) := by
  unfold trip_k0_t1.sl.r k0_pay13
  exact Loads.load_block arg1 harg1 x0 (k0_off1 k) g ((Loads.off1_zero k).trans hg.symm) rfl rfl _ _ q ch

/-- If the staged neighbour block holds, in row-block k, the local indices nb q s as 32-bit words, the trip's eight 0/1
    matrices pick the eight neighbour slots. -/
theorem picks (harg2 : arg2.IsWhole) (x1 : Vec Ideal S8x600x8 .i32) (g : Fin 8) (hg : g.val = k.val)
    (hnb : ∀ (q : Fin 600) (s : Fin 8), x1 (ix3 g q s) = BitVec.ofNat 32 (nb q s).val) :
    Picks arg2 (harg2.unread x1) k nb := by
  have hv : ∀ (s : Fin 8) (p : Fin 600),
      trip_k0_t1.sl.r_1 (F := Ideal) arg2 (harg2.unread x1) k (ix2 p s) = BitVec.ofNat 32 (nb p s).val :=
    fun s p => (Loads.load_nb harg2 x1 g hg p s).trans (hnb p s)
  refine ⟨?_, ?_, ?_, ?_, ?_, ?_, ?_, ?_⟩
  · refine Loads.isPick_of 0 (hv 0) (fun p j => ?_)
    unfold trip_k0_t1.sl.r_2 k0_pay15
    exact Loads.pick_entry _ ![0, 0] 0 rfl rfl _ _ _ _ _ _ _ p j
  · refine Loads.isPick_of 1 (hv 1) (fun p j => ?_)
    unfold trip_k0_t1.sl.r_3 k0_pay16
    exact Loads.pick_entry _ ![0, 1] 1 rfl rfl _ _ _ _ _ _ _ p j
  · refine Loads.isPick_of 2 (hv 2) (fun p j => ?_)
    unfold trip_k0_t1.sl.r_4 k0_pay17
    exact Loads.pick_entry _ ![0, 2] 2 rfl rfl _ _ _ _ _ _ _ p j
  · refine Loads.isPick_of 3 (hv 3) (fun p j => ?_)
    unfold trip_k0_t1.sl.r_5 k0_pay18
    exact Loads.pick_entry _ ![0, 3] 3 rfl rfl _ _ _ _ _ _ _ p j
  · refine Loads.isPick_of 4 (hv 4) (fun p j => ?_)
    unfold trip_k0_t1.sl.r_6 k0_pay19
    exact Loads.pick_entry _ ![0, 4] 4 rfl rfl _ _ _ _ _ _ _ p j
  · refine Loads.isPick_of 5 (hv 5) (fun p j => ?_)
    unfold trip_k0_t1.sl.r_8 trip_k0_t1.sl.r_7 k0_pay21 k0_pay20 trip_k0_t1.sl.v33
    exact Loads.pick_entry _ ![0, 5] 5 rfl rfl _ _ _ _ _ _ _ p j
  · refine Loads.isPick_of 6 (hv 6) (fun p j => ?_)
    unfold trip_k0_t1.sl.r_9 k0_pay22 trip_k0_t1.sl.v33
    exact Loads.pick_entry _ ![0, 6] 6 rfl rfl _ _ _ _ _ _ _ p j
  · refine Loads.isPick_of 7 (hv 7) (fun p j => ?_)
    unfold trip_k0_t1.sl.r_10 k0_pay23 trip_k0_t1.sl.v33
    exact Loads.pick_entry _ ![0, 7] 7 rfl rfl _ _ _ _ _ _ _ p j

end Cert.KernelRow

end
-- ==== Proof.KernelLayer1.lean ====
/-
  The first layer of a trip.

  With the loaded feature rows the coerced reals x and the eight 0/1 matrices picking the neighbour slots, the trip's
  value r_15 — tanh of ((max over the slots of θ₁ applied to the picked row) − θ₁ x + θ₁'s bias + (φ₁ x + φ₁'s bias)),
  kept in the narrow float format, which changes nothing over the extended reals — is the real first hidden layer.
-/
import Idealize.ShloMosaic.Lib.ValueIdx
import Idealize.ShloMosaic.Lib.ValueLayout
import Idealize.ShloMosaic.Lib.Pipeline.Value
import Idealize.ShloMosaic.PureOps.Ideal.Laws
import proofs.«411374_j22643067584549_2_alg».proof.Proof.LibPlainMatmul
import proofs.«411374_j22643067584549_2_alg».proof.Proof.KernelRow

noncomputable section

namespace Cert.KernelRow

open Idealize.ShloMosaic Idealize.ShloMosaic.ValueIdx Cert.KernelIdeal Cert.KernelIdeal.Gen

/-! Lemmas over variables: vectors with their hypotheses, instantiated at the trip's named values at the end. -/
namespace L1

/-- θ applied to the rows a 0/1 matrix picks: the product by the matrix, narrowed, then the product by θ. -/
def slot (oh : FVec Ideal S600x600 .bf16) (xb : FVec Ideal S600x50 .bf16) (w : FVec Ideal S50x100 .bf16) :
    FVec Ideal S600x100 .f32 :=
  matmul dot_S600x50_S50x100_S600x100_1_0_0_1_n_n none
    (truncf .bf16 (matmul dot_S600x600_S600x50_S600x50_1_0_0_1_n_n none oh xb (constant S600x50 .f32 0x00000000#32))
      bitsLt_bf16_f32) w (constant S600x100 .f32 0x00000000#32)

/-- An entry of a slot's value is the double sum. -/
theorem slot_apply (oh : FVec Ideal S600x600 .bf16) (xb : FVec Ideal S600x50 .bf16) (w : FVec Ideal S50x100 .bf16)
    (q : Fin 600) (d : Fin 100) :
    slot oh xb w (ix2 q d) = ∑ c : Fin 50, (∑ j : Fin 600, oh (ix2 q j) * xb (ix2 j c)) * w (ix2 c d) := by
  refine (PlainMatmul.matmul_zero_apply_of_eq (m := 600) (k := 50) (n := 100) _ rfl none _ w q d).trans ?_
  refine Finset.sum_congr rfl fun c _ => ?_
  refine congrArg (fun t : EReal => t * w (ix2 c d)) ?_
  exact PlainMatmul.matmul_zero_apply_of_eq (m := 600) (k := 600) (n := 50) _ rfl none oh xb q c

/-- The running maximum over the first five slots, entry by entry. -/
theorem pay27_apply (w : FVec Ideal S50x100 .bf16) (xr : FVec Ideal S600x50 .f32)
    (o0 o1 o2 o3 o4 : FVec Ideal S600x600 .bf16) (i : S600x100.Idx) :
    k0_pay27 w xr o0 o1 o2 o3 o4 i
      = max (max (max (max (max (Ideal.ofBits .f32 0xFF800000#32) (slot o0 (k0_pay24 xr) w i)) (slot o1 (k0_pay24 xr) w i))
          (slot o2 (k0_pay24 xr) w i)) (slot o3 (k0_pay24 xr) w i)) (slot o4 (k0_pay24 xr) w i) := rfl

/-- The first layer's value, entry by entry, in terms of the values it reads. -/
theorem pay28_apply (w : FVec Ideal S50x100 .bf16) (b : FVec Ideal S1x100 .f32) (o5 o6 o7 : FVec Ideal S600x600 .bf16)
    (xb : FVec Ideal S600x50 .bf16) (tx ph mx : FVec Ideal S600x100 .f32) (i : S600x100.Idx) :
    k0_pay28 w b o5 o6 o7 xb tx ph mx (constant S600x50 .f32 0x00000000#32) i
      = Ideal.tanh ((((max (max (max (mx i) (slot o5 xb w i)) (slot o6 xb w i)) (slot o7 xb w i)) - tx i)
          + broadcastTo S600x100 b broadcasts_S1x100_S600x100 i) + ph i) := rfl

/-- The −∞ word of the wide format is ⊥. -/
theorem negInf_eq_bot : Ideal.ofBits .f32 0xFF800000#32 = (⊥ : EReal) := by
  simp [Ideal.ofBits, Ideal.ieee]

/-- The first hidden layer from variables: weight blocks holding the real weights, feature rows the coerced reals,
    eight 0/1 matrices picking the eight neighbour slots. -/
theorem layer1_entry
    (w1 : FVec Ideal S50x100 .bf16) (b1 : FVec Ideal S1x100 .f32) (u1 : FVec Ideal S50x100 .bf16) (c1 : FVec Ideal S1x100 .f32)
    (xr : FVec Ideal S600x50 .f32) (o0 o1 o2 o3 o4 o5 o6 o7 : FVec Ideal S600x600 .bf16)
    (tw : Fin 100 → Fin 50 → ℝ) (tb : Fin 100 → ℝ) (pw : Fin 100 → Fin 50 → ℝ) (pb : Fin 100 → ℝ)
    (x : Fin 600 → Fin 50 → ℝ) (nb : Fin 600 → Fin 8 → Fin 600)
    (hw : ∀ (ch : Fin 50) (d : Fin 100), w1 (ix2 ch d) = ((tw d ch : ℝ) : EReal))
    (hb : ∀ d : Fin 100, b1 (ix2 (0 : Fin 1) d) = ((tb d : ℝ) : EReal))
    (hu : ∀ (ch : Fin 50) (d : Fin 100), u1 (ix2 ch d) = ((pw d ch : ℝ) : EReal))
    (hc : ∀ d : Fin 100, c1 (ix2 (0 : Fin 1) d) = ((pb d : ℝ) : EReal))
    (hx : ∀ (q : Fin 600) (ch : Fin 50), xr (ix2 q ch) = ((x q ch : ℝ) : EReal))
    (h0 : IsPick o0 nb 0) (h1 : IsPick o1 nb 1) (h2 : IsPick o2 nb 2) (h3 : IsPick o3 nb 3)
    (h4 : IsPick o4 nb 4) (h5 : IsPick o5 nb 5) (h6 : IsPick o6 nb 6) (h7 : IsPick o7 nb 7)
    (q : Fin 600) (c : Fin 100) :
    k0_pay28 w1 b1 o5 o6 o7 (k0_pay24 xr) (k0_pay25 w1 xr) (k0_pay26 u1 c1 xr) (k0_pay27 w1 xr o0 o1 o2 o3 o4)
        (constant S600x50 .f32 0x00000000#32) (ix2 q c)
      = ((Real.tanh (GNN.edge x nb tw tb pw pb q c) : ℝ) : EReal) := by
  -- the narrowed feature rows are the feature rows
  have hxb : ∀ (j : Fin 600) (ch : Fin 50), k0_pay24 xr (ix2 j ch) = ((x j ch : ℝ) : EReal) := fun j ch => hx j ch
  -- a slot's entry: θ on the row the 0/1 matrix picks
  have hslot : ∀ (oh : FVec Ideal S600x600 .bf16) (s : Fin 8), IsPick oh nb s →
      slot oh (k0_pay24 xr) w1 (ix2 q c)
        = ∑ ch : Fin 50, (∑ j : Fin 600, (if nb q s = j then (1 : EReal) else 0) * ((x j ch : ℝ) : EReal)) * ((tw c ch : ℝ) : EReal) := by
    intro oh s hs
    refine (slot_apply oh (k0_pay24 xr) w1 q c).trans ?_
    refine Finset.sum_congr rfl fun ch _ => ?_
    rw [hw ch c]
    refine congrArg (fun t : EReal => t * ((tw c ch : ℝ) : EReal)) (Finset.sum_congr rfl fun j _ => ?_)
    rw [hs q j, hxb j ch]
  -- θ on the node's own row
  have htx : k0_pay25 w1 xr (ix2 q c) = ∑ ch : Fin 50, ((x q ch : ℝ) : EReal) * ((tw c ch : ℝ) : EReal) := by
    refine (PlainMatmul.matmul_zero_apply_of_eq (m := 600) (k := 50) (n := 100) _ rfl none (k0_pay24 xr) w1 q c).trans ?_
    refine Finset.sum_congr rfl fun ch _ => ?_
    rw [hw ch c, hxb q ch]
  -- φ on the node's own row, plus its bias
  have hph : k0_pay26 u1 c1 xr (ix2 q c)
      = (∑ ch : Fin 50, ((x q ch : ℝ) : EReal) * ((pw c ch : ℝ) : EReal)) + ((pb c : ℝ) : EReal) := by
    show matmul dot_S600x50_S50x100_S600x100_1_0_0_1_n_n none (k0_pay24 xr) u1 (constant S600x100 .f32 0x00000000#32) (ix2 q c)
        + broadcastTo S600x100 c1 broadcasts_S1x100_S600x100 (ix2 q c) = _
    rw [broadcastTo_1b_ab_apply c1 broadcasts_S1x100_S600x100 q c, hc c]
    refine congrArg (fun t : EReal => t + ((pb c : ℝ) : EReal)) ?_
    refine (PlainMatmul.matmul_zero_apply_of_eq (m := 600) (k := 50) (n := 100) _ rfl none (k0_pay24 xr) u1 q c).trans ?_
    refine Finset.sum_congr rfl fun ch _ => ?_
    rw [hu ch c, hxb q ch]
  rw [pay28_apply, pay27_apply, negInf_eq_bot, hslot o0 0 h0, hslot o1 1 h1, hslot o2 2 h2, hslot o3 3 h3, hslot o4 4 h4,
    hslot o5 5 h5, hslot o6 6 h6, hslot o7 7 h7, htx, hph, broadcastTo_1b_ab_apply b1 broadcasts_S1x100_S600x100 q c, hb c]
  rw [GNN.kernel_layer x nb tw tb pw pb q c
    (fun s => ∑ ch : Fin 50, (∑ j : Fin 600, (if nb q s = j then (1 : EReal) else 0) * ((x j ch : ℝ) : EReal)) * ((tw c ch : ℝ) : EReal))
    (fun _ => rfl)]
  rfl

end L1

variable {arg1 : Memref sig .tc .vmem S8x600x50 .f32} {arg2 : Memref sig .tc .vmem S8x600x8 .i32}
  {v0 : Vec Ideal S50x100 .bf16} {v2 : Vec Ideal S1x100 .f32} {v4 : Vec Ideal S50x100 .bf16} {v6 : Vec Ideal S1x100 .f32}
  {v8 : Vec Ideal S100x200 .bf16} {v10 : Vec Ideal S1x200 .f32} {v12 : Vec Ideal S100x200 .bf16} {v14 : Vec Ideal S1x200 .f32}
  {v16 : Vec Ideal S200x600 .bf16} {v18 : Vec Ideal S1x600 .f32} {v20 : Vec Ideal S200x600 .bf16} {v22 : Vec Ideal S1x600 .f32}
  {X1 : BufTy.Contents (Elt Ideal) arg1.view.ty} {X2 : BufTy.Contents (Elt Ideal) arg2.view.ty} {k : Fin k0_t1_loop.trips}
  {W : GNN.Params} {x : Fin 600 → Fin 50 → ℝ} {nb : Fin 600 → Fin 8 → Fin 600}

/-- The trip's first hidden layer at node q, channel c. -/
theorem layer1 (hW : Weights v0 v2 v4 v6 v8 v10 v12 v14 v16 v18 v20 v22 W) (hP : Picks arg2 X2 k nb)
    (hx : ∀ (q : Fin 600) (ch : Fin 50), trip_k0_t1.sl.r (F := Ideal) arg1 X1 k (ix2 q ch) = ((x q ch : ℝ) : EReal))
    (q : Fin 600) (c : Fin 100) :
    trip_k0_t1.sl.r_15 (F := Ideal) arg1 arg2 v0 v2 v4 v6 X1 X2 k (ix2 q c) = ((GNN.h1 W x nb q c : ℝ) : EReal) := by
  -- the weight blocks pass through a cast of a shape to itself
  have hw : ∀ (ch : Fin 50) (d : Fin 100), k0_pay1 v0 (ix2 ch d) = ((W.t1w d ch : ℝ) : EReal) := fun ch d =>
    (congrFun (shapeCast_self v0 shapeCasts_S50x100_S50x100) (ix2 ch d)).trans (hW.t1w ch d)
  have hb : ∀ d : Fin 100, k0_pay2 v2 (ix2 (0 : Fin 1) d) = ((W.t1b d : ℝ) : EReal) := fun d =>
    (congrFun (shapeCast_self v2 shapeCasts_S1x100_S1x100) (ix2 (0 : Fin 1) d)).trans (hW.t1b d)
  have hu : ∀ (ch : Fin 50) (d : Fin 100), k0_pay3 v4 (ix2 ch d) = ((W.p1w d ch : ℝ) : EReal) := fun ch d =>
    (congrFun (shapeCast_self v4 shapeCasts_S50x100_S50x100) (ix2 ch d)).trans (hW.p1w ch d)
  have hc : ∀ d : Fin 100, k0_pay4 v6 (ix2 (0 : Fin 1) d) = ((W.p1b d : ℝ) : EReal) := fun d =>
    (congrFun (shapeCast_self v6 shapeCasts_S1x100_S1x100) (ix2 (0 : Fin 1) d)).trans (hW.p1b d)
  -- the named value is the first layer's chain read off the named loads and 0/1 matrices
  exact L1.layer1_entry (k0_pay1 v0) (k0_pay2 v2) (k0_pay3 v4) (k0_pay4 v6) (trip_k0_t1.sl.r arg1 X1 k)
    (trip_k0_t1.sl.r_2 arg2 X2 k) (trip_k0_t1.sl.r_3 arg2 X2 k) (trip_k0_t1.sl.r_4 arg2 X2 k) (trip_k0_t1.sl.r_5 arg2 X2 k)
    (trip_k0_t1.sl.r_6 arg2 X2 k) (trip_k0_t1.sl.r_8 arg2 X2 k) (trip_k0_t1.sl.r_9 arg2 X2 k) (trip_k0_t1.sl.r_10 arg2 X2 k)
    W.t1w W.t1b W.p1w W.p1b x nb hw hb hu hc hx hP.s0 hP.s1 hP.s2 hP.s3 hP.s4 hP.s5 hP.s6 hP.s7 q c

end Cert.KernelRow

end
-- ==== Proof.KernelLayer2.lean ====
/-
  The second layer of a trip: the same computation over the first hidden layer's rows with the second layer's weights;
  the trip's value r_20.
-/
import Idealize.ShloMosaic.Lib.ValueIdx
import Idealize.ShloMosaic.Lib.ValueLayout
import Idealize.ShloMosaic.Lib.Pipeline.Value
import Idealize.ShloMosaic.PureOps.Ideal.Laws
import proofs.«411374_j22643067584549_2_alg».proof.Proof.LibPlainMatmul
import proofs.«411374_j22643067584549_2_alg».proof.Proof.KernelRow

noncomputable section

namespace Cert.KernelRow

open Idealize.ShloMosaic Idealize.ShloMosaic.ValueIdx Cert.KernelIdeal Cert.KernelIdeal.Gen

variable {arg1 : Memref sig .tc .vmem S8x600x50 .f32} {arg2 : Memref sig .tc .vmem S8x600x8 .i32}
  {v0 : Vec Ideal S50x100 .bf16} {v2 : Vec Ideal S1x100 .f32} {v4 : Vec Ideal S50x100 .bf16} {v6 : Vec Ideal S1x100 .f32}
  {v8 : Vec Ideal S100x200 .bf16} {v10 : Vec Ideal S1x200 .f32} {v12 : Vec Ideal S100x200 .bf16} {v14 : Vec Ideal S1x200 .f32}
  {v16 : Vec Ideal S200x600 .bf16} {v18 : Vec Ideal S1x600 .f32} {v20 : Vec Ideal S200x600 .bf16} {v22 : Vec Ideal S1x600 .f32}
  {X1 : BufTy.Contents (Elt Ideal) arg1.view.ty} {X2 : BufTy.Contents (Elt Ideal) arg2.view.ty} {k : Fin k0_t1_loop.trips}
  {W : GNN.Params} {x : Fin 600 → Fin 50 → ℝ} {nb : Fin 600 → Fin 8 → Fin 600}

namespace L2

/-! ## The layer over a hidden layer given as a vector -/

/-- One neighbour slot of the layer: the rows of H picked by the 0/1 matrix oh (a product into zero, narrowed), then θ
    applied (a product into zero by the transposed weights). -/
def slot2 (oh : FVec Ideal S600x600 .bf16) (H : FVec Ideal S600x100 .bf16) (T : FVec Ideal S100x200 .bf16) :
    FVec Ideal S600x200 .f32 :=
  matmul dot_S600x100_S100x200_S600x200_1_0_0_1_n_n none
    (truncf .bf16 (matmul dot_S600x600_S600x100_S600x100_1_0_0_1_n_n none oh H (constant S600x100 .f32 0x00000000#32))
      bitsLt_bf16_f32) T (constant S600x200 .f32 0x00000000#32)

/-- θ applied to the hidden layer's own rows. -/
def self2 (H : FVec Ideal S600x100 .bf16) (T : FVec Ideal S100x200 .bf16) : FVec Ideal S600x200 .f32 :=
  matmul dot_S600x100_S100x200_S600x200_1_0_0_1_n_n none H T (constant S600x200 .f32 0x00000000#32)

/-- φ applied to the hidden layer's own rows, plus its bias row. -/
def phi2 (H : FVec Ideal S600x100 .bf16) (P : FVec Ideal S100x200 .bf16) (pb : FVec Ideal S1x200 .f32) :
    FVec Ideal S600x200 .f32 :=
  addf (self2 H P) (broadcastTo S600x200 pb broadcasts_S1x200_S600x200)

/-- The running maximum from −∞ over the first four slots. -/
def max4 (o0 o1 o2 o3 : FVec Ideal S600x600 .bf16) (H : FVec Ideal S600x100 .bf16) (T : FVec Ideal S100x200 .bf16) :
    FVec Ideal S600x200 .f32 :=
  maximumf (maximumf (maximumf (maximumf (broadcast S600x200 (Scalar.ofBits .f32 0xFF800000#32)) (slot2 o0 H T))
    (slot2 o1 H T)) (slot2 o2 H T)) (slot2 o3 H T)

/-- The value r_20 is the layer's last payload over the first hidden layer r_15 as one vector: the four values it reads
    that recompute the first hidden layer inside are the products above over r_15. -/
theorem r20_eq :
    trip_k0_t1.sl.r_20 (F := Ideal) arg1 arg2 v0 v2 v4 v6 v8 v10 v12 v14 X1 X2 k
      = k0_pay33 (k0_pay5 v8) (k0_pay6 v10) (trip_k0_t1.sl.r_8 arg2 X2 k) (trip_k0_t1.sl.r_9 arg2 X2 k)
          (trip_k0_t1.sl.r_10 arg2 X2 k) (trip_k0_t1.sl.r_15 arg1 arg2 v0 v2 v4 v6 X1 X2 k)
          (self2 (trip_k0_t1.sl.r_15 arg1 arg2 v0 v2 v4 v6 X1 X2 k) (k0_pay5 v8))
          (phi2 (trip_k0_t1.sl.r_15 arg1 arg2 v0 v2 v4 v6 X1 X2 k) (k0_pay7 v12) (k0_pay8 v14))
          (max4 (trip_k0_t1.sl.r_2 arg2 X2 k) (trip_k0_t1.sl.r_3 arg2 X2 k) (trip_k0_t1.sl.r_4 arg2 X2 k)
            (trip_k0_t1.sl.r_5 arg2 X2 k) (trip_k0_t1.sl.r_15 arg1 arg2 v0 v2 v4 v6 X1 X2 k) (k0_pay5 v8))
          (slot2 (trip_k0_t1.sl.r_6 arg2 X2 k) (trip_k0_t1.sl.r_15 arg1 arg2 v0 v2 v4 v6 X1 X2 k) (k0_pay5 v8)) := rfl

/-! ## Read at an entry -/

section Entry

variable {H : FVec Ideal S600x100 .bf16} {T P : FVec Ideal S100x200 .bf16} {tbv pbv : FVec Ideal S1x200 .f32}
  {xr : Fin 600 → Fin 100 → ℝ} {tw pw : Fin 200 → Fin 100 → ℝ} {tb pb : Fin 200 → ℝ} {nbr : Fin 600 → Fin 8 → Fin 600}

/-- θ on the node's own row: the entry (q, d) is Σ_c x(q, c) · θ(d, c). -/
theorem self2_apply (hH : ∀ q c, H (ix2 q c) = ((xr q c : ℝ) : EReal)) (hT : ∀ ch d, T (ix2 ch d) = ((tw d ch : ℝ) : EReal))
    (q : Fin 600) (d : Fin 200) :
    self2 H T (ix2 q d) = ∑ c : Fin 100, ((xr q c : ℝ) : EReal) * ((tw d c : ℝ) : EReal) := by
  unfold self2
  refine (PlainMatmul.matmul_zero_apply_of_eq dot_S600x100_S100x200_S600x200_1_0_0_1_n_n rfl none H T q d).trans ?_
  refine Finset.sum_congr rfl fun c _ => ?_
  rw [hH q c, hT c d]

/-- One slot: the entry (q, d) is Σ_c (Σ_j [nb q s = j] · x(j, c)) · θ(d, c) — the inner sum is the row the 0/1 matrix picks. -/
theorem slot2_apply {oh : FVec Ideal S600x600 .bf16} {s : Fin 8} (hoh : IsPick oh nbr s)
    (hH : ∀ q c, H (ix2 q c) = ((xr q c : ℝ) : EReal)) (hT : ∀ ch d, T (ix2 ch d) = ((tw d ch : ℝ) : EReal))
    (q : Fin 600) (d : Fin 200) :
    slot2 oh H T (ix2 q d)
      = ∑ c : Fin 100, (∑ j : Fin 600, (if nbr q s = j then (1 : EReal) else 0) * ((xr j c : ℝ) : EReal))
          * ((tw d c : ℝ) : EReal) := by
  unfold slot2
  refine (PlainMatmul.matmul_zero_apply_of_eq dot_S600x100_S100x200_S600x200_1_0_0_1_n_n rfl none _ T q d).trans ?_
  refine Finset.sum_congr rfl fun c _ => ?_
  rw [hT c d]
  refine congrArg (· * ((tw d c : ℝ) : EReal)) ?_
  -- the narrowing is the identity on extended reals; below it is the product by the 0/1 matrix
  refine (truncf_apply (ψ := .bf16) _ bitsLt_bf16_f32 (ix2 q c)).trans ?_
  refine (PlainMatmul.matmul_zero_apply_of_eq dot_S600x600_S600x100_S600x100_1_0_0_1_n_n rfl none oh H q c).trans ?_
  refine Finset.sum_congr rfl fun j _ => ?_
  rw [hoh q j, hH j c]

/-- φ on the node's own row plus the bias: the entry (q, d) is Σ_c x(q, c) · φ(d, c) + φb(d). -/
theorem phi2_apply (hH : ∀ q c, H (ix2 q c) = ((xr q c : ℝ) : EReal)) (hP : ∀ ch d, P (ix2 ch d) = ((pw d ch : ℝ) : EReal))
    (hpb : ∀ d, pbv (ix2 (0 : Fin 1) d) = ((pb d : ℝ) : EReal)) (q : Fin 600) (d : Fin 200) :
    phi2 H P pbv (ix2 q d) = (∑ c : Fin 100, ((xr q c : ℝ) : EReal) * ((pw d c : ℝ) : EReal)) + ((pb d : ℝ) : EReal) := by
  unfold phi2
  refine (addf_apply _ _ (ix2 q d)).trans ?_
  rw [self2_apply hH hP q d, broadcastTo_1b_ab_apply pbv broadcasts_S1x200_S600x200 q d, hpb d]

/-- The splat of the word 0xFF800000 is −∞. -/
theorem negInf_f32 : Ideal.ofBits .f32 0xFF800000#32 = (⊥ : EReal) := by simp [Ideal.ofBits, Ideal.ieee]

/-- The running maximum over the first four slots at an entry: a left-nested maximum from −∞. -/
theorem max4_apply (o0 o1 o2 o3 : FVec Ideal S600x600 .bf16) (i : S600x200.Idx) :
    max4 o0 o1 o2 o3 H T i
      = max (max (max (max (⊥ : EReal) (slot2 o0 H T i)) (slot2 o1 H T i)) (slot2 o2 H T i)) (slot2 o3 H T i) := by
  unfold max4
  show max (max (max (max (Ideal.ofBits .f32 0xFF800000#32) _) _) _) _ = _
  rw [negInf_f32]

/-- The layer's last payload at an entry: the maximum goes on over slots 4 … 7, then θ·x_q is subtracted, the θ bias and
    the φ term are added, and tanh is applied (the final narrowing is the identity). -/
theorem pay33_apply (o5 o6 o7 : FVec Ideal S600x600 .bf16) (a b m s4 : FVec Ideal S600x200 .f32) (i : S600x200.Idx) :
    k0_pay33 T tbv o5 o6 o7 H a b m s4 i
      = Ideal.tanh ((((max (max (max (max (m i) (s4 i)) (slot2 o5 H T i)) (slot2 o6 H T i)) (slot2 o7 H T i)) - a i)
          + broadcastTo S600x200 tbv broadcasts_S1x200_S600x200 i) + b i) := rfl

/-- THE LAYER over a hidden layer H that holds the reals xr, with weights that hold θ, φ and their biases, and eight 0/1
    matrices that pick the eight neighbour slots: tanh of the edge convolution of xr. -/
theorem layer2_of {o0 o1 o2 o3 o4 o5 o6 o7 : FVec Ideal S600x600 .bf16}
    (h0 : IsPick o0 nbr 0) (h1 : IsPick o1 nbr 1) (h2 : IsPick o2 nbr 2) (h3 : IsPick o3 nbr 3)
    (h4 : IsPick o4 nbr 4) (h5 : IsPick o5 nbr 5) (h6 : IsPick o6 nbr 6) (h7 : IsPick o7 nbr 7)
    (hH : ∀ q c, H (ix2 q c) = ((xr q c : ℝ) : EReal))
    (hT : ∀ ch d, T (ix2 ch d) = ((tw d ch : ℝ) : EReal)) (htb : ∀ d, tbv (ix2 (0 : Fin 1) d) = ((tb d : ℝ) : EReal))
    (hP : ∀ ch d, P (ix2 ch d) = ((pw d ch : ℝ) : EReal)) (hpb : ∀ d, pbv (ix2 (0 : Fin 1) d) = ((pb d : ℝ) : EReal))
    (q : Fin 600) (d : Fin 200) :
    k0_pay33 T tbv o5 o6 o7 H (self2 H T) (phi2 H P pbv) (max4 o0 o1 o2 o3 H T) (slot2 o4 H T) (ix2 q d)
      = ((Real.tanh (GNN.edge xr nbr tw tb pw pb q d) : ℝ) : EReal) := by
  refine (pay33_apply o5 o6 o7 _ _ _ _ (ix2 q d)).trans ?_
  rw [max4_apply, slot2_apply h0 hH hT q d, slot2_apply h1 hH hT q d, slot2_apply h2 hH hT q d, slot2_apply h3 hH hT q d,
    slot2_apply h4 hH hT q d, slot2_apply h5 hH hT q d, slot2_apply h6 hH hT q d, slot2_apply h7 hH hT q d,
    self2_apply hH hT q d, phi2_apply hH hP hpb q d, broadcastTo_1b_ab_apply tbv broadcasts_S1x200_S600x200 q d, htb d]
  -- the gather-free reading of the layer, with M s the s-th slot
  refine (congrArg Ideal.tanh (GNN.kernel_layer xr nbr tw tb pw pb q d
    (fun s => ∑ c : Fin 100, (∑ j : Fin 600, (if nbr q s = j then (1 : EReal) else 0) * ((xr j c : ℝ) : EReal))
      * ((tw d c : ℝ) : EReal)) (fun _ => rfl))).trans ?_
  exact Ideal.tanh_coe _

end Entry

end L2

/-! ## The value r_20 -/

/-- The trip's second hidden layer at node q, channel c. -/
theorem layer2 (hW : Weights v0 v2 v4 v6 v8 v10 v12 v14 v16 v18 v20 v22 W) (hP : Picks arg2 X2 k nb)
    (h1 : ∀ (q : Fin 600) (c : Fin 100),
      trip_k0_t1.sl.r_15 (F := Ideal) arg1 arg2 v0 v2 v4 v6 X1 X2 k (ix2 q c) = ((GNN.h1 W x nb q c : ℝ) : EReal))
    (q : Fin 600) (c : Fin 200) :
    trip_k0_t1.sl.r_20 (F := Ideal) arg1 arg2 v0 v2 v4 v6 v8 v10 v12 v14 X1 X2 k (ix2 q c) = ((GNN.h2 W x nb q c : ℝ) : EReal) := by
  refine (congrFun L2.r20_eq (ix2 q c)).trans ?_
  -- a shape cast to the same shape is the identity: the four weight blocks read as they were loaded
  have hT : ∀ ch d, k0_pay5 v8 (ix2 ch d) = ((W.t2w d ch : ℝ) : EReal) := fun ch d =>
    (congrFun (shapeCast_self v8 _) (ix2 ch d)).trans (hW.t2w ch d)
  have htb : ∀ d, k0_pay6 v10 (ix2 (0 : Fin 1) d) = ((W.t2b d : ℝ) : EReal) := fun d =>
    (congrFun (shapeCast_self v10 _) (ix2 (0 : Fin 1) d)).trans (hW.t2b d)
  have hPw : ∀ ch d, k0_pay7 v12 (ix2 ch d) = ((W.p2w d ch : ℝ) : EReal) := fun ch d =>
    (congrFun (shapeCast_self v12 _) (ix2 ch d)).trans (hW.p2w ch d)
  have hpb : ∀ d, k0_pay8 v14 (ix2 (0 : Fin 1) d) = ((W.p2b d : ℝ) : EReal) := fun d =>
    (congrFun (shapeCast_self v14 _) (ix2 (0 : Fin 1) d)).trans (hW.p2b d)
  -- the layer over the first hidden layer's reals; its tanh is the second hidden layer by definition
  exact L2.layer2_of hP.s0 hP.s1 hP.s2 hP.s3 hP.s4 hP.s5 hP.s6 hP.s7 h1 hT htb hPw hpb q c

end Cert.KernelRow

end
-- ==== Proof.KernelLayer3.lean ====
/-
  The third layer of a trip and the row it stores: the layer over the second hidden layer's rows (no tanh), then the
  maximum over the 600 channels folded from −∞, laid as one [1, 600] row: entry (0, p) is node p's result.
-/
import Idealize.ShloMosaic.Lib.ValueIdx
import Idealize.ShloMosaic.Lib.ValueLayout
import Idealize.ShloMosaic.Lib.Pipeline.Value
import Idealize.ShloMosaic.PureOps.Ideal.Laws
import proofs.«411374_j22643067584549_2_alg».proof.Proof.LibPlainMatmul
import proofs.«411374_j22643067584549_2_alg».proof.Proof.KernelRow

noncomputable section

namespace Cert.KernelRow

open Idealize.ShloMosaic Idealize.ShloMosaic.ValueIdx Cert.KernelIdeal Cert.KernelIdeal.Gen

variable {arg1 : Memref sig .tc .vmem S8x600x50 .f32} {arg2 : Memref sig .tc .vmem S8x600x8 .i32}
  {v0 : Vec Ideal S50x100 .bf16} {v2 : Vec Ideal S1x100 .f32} {v4 : Vec Ideal S50x100 .bf16} {v6 : Vec Ideal S1x100 .f32}
  {v8 : Vec Ideal S100x200 .bf16} {v10 : Vec Ideal S1x200 .f32} {v12 : Vec Ideal S100x200 .bf16} {v14 : Vec Ideal S1x200 .f32}
  {v16 : Vec Ideal S200x600 .bf16} {v18 : Vec Ideal S1x600 .f32} {v20 : Vec Ideal S200x600 .bf16} {v22 : Vec Ideal S1x600 .f32}
  {X1 : BufTy.Contents (Elt Ideal) arg1.view.ty} {X2 : BufTy.Contents (Elt Ideal) arg2.view.ty} {k : Fin k0_t1_loop.trips}
  {W : GNN.Params} {x : Fin 600 → Fin 50 → ℝ} {nb : Fin 600 → Fin 8 → Fin 600}

namespace Layer3

/-- θ applied to the row that the 0/1 row vector of slot s picks for node p, at output channel d. -/
def pickTheta (g : Fin 600 → Fin 200 → ℝ) (nb : Fin 600 → Fin 8 → Fin 600) (tw : Fin 600 → Fin 200 → ℝ)
    (p d : Fin 600) (s : Fin 8) : EReal :=
  ∑ c : Fin 200, (∑ j : Fin 600, (if nb p s = j then (1 : EReal) else 0) * ((g j c : ℝ) : EReal)) * ((tw d c : ℝ) : EReal)

/-- The product of a 0/1 matrix with the rows, at (p, c): the 0/1 row vector of p against column c. -/
theorem pick_apply (g : Fin 600 → Fin 200 → ℝ) (s : Fin 8) (oh : FVec Ideal S600x600 .bf16) (H : FVec Ideal S600x200 .bf16)
    (hoh : IsPick oh nb s) (hH : ∀ (q : Fin 600) (c : Fin 200), H (ix2 q c) = ((g q c : ℝ) : EReal)) (p : Fin 600) (c : Fin 200) :
    matmul (F := Ideal) dot_S600x600_S600x200_S600x200_1_0_0_1_n_n none oh H (constant S600x200 .f32 0x00000000#32) (ix2 p c)
      = ∑ j : Fin 600, (if nb p s = j then (1 : EReal) else 0) * ((g j c : ℝ) : EReal) := by
  refine (PlainMatmul.matmul_zero_apply_of_eq _ rfl none oh H p c).trans ?_
  refine Finset.sum_congr rfl fun j _ => ?_
  rw [hoh p j, hH j c]

/-- θ (stored transposed) applied to rows G, at (p, d). -/
theorem theta_apply (tw : Fin 600 → Fin 200 → ℝ) (G : FVec Ideal S600x200 .bf16) (T : FVec Ideal S200x600 .bf16)
    (hT : ∀ (c : Fin 200) (d : Fin 600), T (ix2 c d) = ((tw d c : ℝ) : EReal)) (p d : Fin 600) :
    matmul (F := Ideal) dot_S600x200_S200x600_S600x600_1_0_0_1_n_n none G T (constant S600x600 .f32 0x00000000#32) (ix2 p d)
      = ∑ c : Fin 200, G (ix2 p c) * ((tw d c : ℝ) : EReal) := by
  refine (PlainMatmul.matmul_zero_apply_of_eq _ rfl none G T p d).trans ?_
  refine Finset.sum_congr rfl fun c _ => ?_
  rw [hT c d]

/-- θ applied to the rows a 0/1 matrix picks (the picked rows pass through the narrow format unchanged), at (p, d). -/
theorem pick_theta_apply (g : Fin 600 → Fin 200 → ℝ) (tw : Fin 600 → Fin 200 → ℝ) (s : Fin 8)
    (oh : FVec Ideal S600x600 .bf16) (H : FVec Ideal S600x200 .bf16) (T : FVec Ideal S200x600 .bf16)
    (hoh : IsPick oh nb s) (hH : ∀ (q : Fin 600) (c : Fin 200), H (ix2 q c) = ((g q c : ℝ) : EReal))
    (hT : ∀ (c : Fin 200) (d : Fin 600), T (ix2 c d) = ((tw d c : ℝ) : EReal)) (p d : Fin 600) :
    matmul (F := Ideal) dot_S600x200_S200x600_S600x600_1_0_0_1_n_n none
        (truncf .bf16 (matmul (F := Ideal) dot_S600x600_S600x200_S600x200_1_0_0_1_n_n none oh H (constant S600x200 .f32 0x00000000#32))
          bitsLt_bf16_f32)
        T (constant S600x600 .f32 0x00000000#32) (ix2 p d)
      = pickTheta g nb tw p d s := by
  refine (theta_apply tw _ T hT p d).trans ?_
  unfold pickTheta
  refine Finset.sum_congr rfl fun c _ => ?_
  refine congrArg (fun z : EReal => z * ((tw d c : ℝ) : EReal)) ?_
  exact pick_apply g s oh H hoh hH p c

/-- The word 0xFF800000 is −∞. -/
theorem ofBits_neg_inf : (FloatOps.ofBits (F := Ideal) .f32 0xFF800000#32) = (⊥ : EReal) := by
  show Ideal.ofBits .f32 0xFF800000#32 = ⊥
  simp [Ideal.ofBits, Ideal.ieee]

/-- The index over the reduced index p with channel d put back on the dropped axis is (p, d). -/
theorem lift_row (h : S600x600.Reduces [1] S600) (p d : Fin 600) : h.lift (ix1 p) d = ix2 p d := by
  funext a
  match a with
  | ⟨0, _⟩ => exact Fin.ext rfl
  | ⟨1, _⟩ => exact Fin.ext rfl

/-- The maximum over the channel axis, folded from −∞, of a matrix of coerced reals is the coerced row maximum. -/
theorem max_row (V : FVec Ideal S600x600 .f32) (f : Fin 600 → Fin 600 → ℝ)
    (hV : ∀ (p d : Fin 600), V (ix2 p d) = ((f p d : ℝ) : EReal)) (p : Fin 600) :
    multiReduction (F := Ideal) .maximumf [1] S600 V 0xFF800000#32 reduces_S600x600_S600 (.inl rfl) rfl (ix1 p)
      = ((Finset.univ.sup' Finset.univ_nonempty (f p) : ℝ) : EReal) := by
  refine (Ideal.multiReduction_maximumf_single V 0xFF800000#32 reduces_S600x600_S600 (.inl rfl) rfl (ix1 p)).trans ?_
  have hfun : (V ∘ reduces_S600x600_S600.lift (ix1 p)) = fun d : Fin 600 => ((f p d : ℝ) : EReal) := by
    funext d
    show V (reduces_S600x600_S600.lift (ix1 p) d) = _
    rw [lift_row reduces_S600x600_S600 p d]
    exact hV p d
  refine (congrArg₂ (fun (b : EReal) (F : Fin 600 → EReal) => (Finset.univ : Finset (Fin 600)).fold max b F) ofBits_neg_inf hfun).trans ?_
  exact GNN.fold_max_coe (n := 599) (f p)

/-- The transposed weight block passes through its shape cast unchanged. -/
theorem pay9_apply (tw : Fin 600 → Fin 200 → ℝ) (v16 : Vec Ideal S200x600 .bf16)
    (h16 : ∀ (c : Fin 200) (d : Fin 600), v16 (ix2 c d) = ((tw d c : ℝ) : EReal)) (c : Fin 200) (d : Fin 600) :
    k0_pay9 (F := Ideal) v16 (ix2 c d) = ((tw d c : ℝ) : EReal) := by
  show shapeCast S200x600 v16 shapeCasts_S200x600_S200x600 (ix2 c d) = _
  rw [shapeCast_self]
  exact h16 c d

/-- The same for the second transposed weight block. -/
theorem pay10_apply (pw : Fin 600 → Fin 200 → ℝ) (v20 : Vec Ideal S200x600 .bf16)
    (h20 : ∀ (c : Fin 200) (d : Fin 600), v20 (ix2 c d) = ((pw d c : ℝ) : EReal)) (c : Fin 200) (d : Fin 600) :
    k0_pay10 (F := Ideal) v20 (ix2 c d) = ((pw d c : ℝ) : EReal) := by
  show shapeCast S200x600 v20 shapeCasts_S200x600_S200x600 (ix2 c d) = _
  rw [shapeCast_self]
  exact h20 c d

/-- A bias row broadcast over the 600 nodes reads the row's entry at the channel. -/
theorem bias_apply (b : Fin 600 → ℝ) (v : Vec Ideal S1x600 .f32)
    (hv : ∀ d : Fin 600, v (ix2 (0 : Fin 1) d) = ((b d : ℝ) : EReal)) (q d : Fin 600) :
    broadcastTo S600x600 (shapeCast S1x600 v shapeCasts_S1x600_S1x600) broadcasts_S1x600_S600x600 (ix2 q d)
      = ((b d : ℝ) : EReal) := by
  refine (broadcastTo_1b_ab_apply (a := 600) (b := 600) _ broadcasts_S1x600_S600x600 q d).trans ?_
  rw [shapeCast_self]
  exact hv d

/-- θ applied to rows that are already the picked ones. -/
theorem theta_picked_apply (g : Fin 600 → Fin 200 → ℝ) (tw : Fin 600 → Fin 200 → ℝ) (s : Fin 8)
    (G : FVec Ideal S600x200 .bf16) (T : FVec Ideal S200x600 .bf16)
    (hG : ∀ (p : Fin 600) (c : Fin 200), G (ix2 p c)
      = ∑ j : Fin 600, (if nb p s = j then (1 : EReal) else 0) * ((g j c : ℝ) : EReal))
    (hT : ∀ (c : Fin 200) (d : Fin 600), T (ix2 c d) = ((tw d c : ℝ) : EReal)) (p d : Fin 600) :
    matmul (F := Ideal) dot_S600x200_S200x600_S600x600_1_0_0_1_n_n none G T (constant S600x600 .f32 0x00000000#32) (ix2 p d)
      = pickTheta g nb tw p d s := by
  refine (theta_apply tw G T hT p d).trans ?_
  unfold pickTheta
  exact Finset.sum_congr rfl fun c _ => congrArg (fun z : EReal => z * ((tw d c : ℝ) : EReal)) (hG p c)

/-- The stored row from its parts: with the rows H the coerced reals g, three matrices picking slots 5, 6, 7,
    A = θ g, B = φ g + bias, C the running maximum over slots 0 … 3 and G4 the rows slot 4 picks, the entry (0, p) is
    the maximum over the channels of the layer over g at node p. -/
theorem pay12_apply (g : Fin 600 → Fin 200 → ℝ) (tw pw : Fin 600 → Fin 200 → ℝ) (tb pb : Fin 600 → ℝ)
    (v16 : Vec Ideal S200x600 .bf16) (v18 : Vec Ideal S1x600 .f32)
    (oh5 oh6 oh7 : FVec Ideal S600x600 .bf16) (H : FVec Ideal S600x200 .bf16)
    (A B C : FVec Ideal S600x600 .f32) (G4 : FVec Ideal S600x200 .bf16)
    (h16 : ∀ (c : Fin 200) (d : Fin 600), v16 (ix2 c d) = ((tw d c : ℝ) : EReal))
    (h18 : ∀ d : Fin 600, v18 (ix2 (0 : Fin 1) d) = ((tb d : ℝ) : EReal))
    (h5 : IsPick oh5 nb 5) (h6 : IsPick oh6 nb 6) (h7 : IsPick oh7 nb 7)
    (hH : ∀ (q : Fin 600) (c : Fin 200), H (ix2 q c) = ((g q c : ℝ) : EReal))
    (hA : ∀ (p d : Fin 600), A (ix2 p d) = ∑ c : Fin 200, ((g p c : ℝ) : EReal) * ((tw d c : ℝ) : EReal))
    (hB : ∀ (p d : Fin 600), B (ix2 p d)
      = (∑ c : Fin 200, ((g p c : ℝ) : EReal) * ((pw d c : ℝ) : EReal)) + ((pb d : ℝ) : EReal))
    (hC : ∀ (p d : Fin 600), C (ix2 p d)
      = max (max (max (max (⊥ : EReal) (pickTheta g nb tw p d 0)) (pickTheta g nb tw p d 1)) (pickTheta g nb tw p d 2))
          (pickTheta g nb tw p d 3))
    (hG : ∀ (p : Fin 600) (c : Fin 200), G4 (ix2 p c)
      = ∑ j : Fin 600, (if nb p 4 = j then (1 : EReal) else 0) * ((g j c : ℝ) : EReal))
    (p : Fin 600) :
    k0_pay12 (F := Ideal) v16 v18 oh5 oh6 oh7 H A B C G4 (ix2 (0 : Fin 1) p)
      = ((Finset.univ.sup' Finset.univ_nonempty (fun d : Fin 600 => GNN.edge g nb tw tb pw pb p d) : ℝ) : EReal) := by
  unfold k0_pay12
  refine (shapeCast_a_1a_apply (a := 600) _ shapeCasts_S600_S1x600 (0 : Fin 1) p).trans ?_
  refine max_row _ (fun p d => GNN.edge g nb tw tb pw pb p d) ?_ p
  intro q d
  have hT := pay9_apply tw v16 h16
  have e4 := theta_picked_apply g tw 4 G4 (k0_pay9 v16) hG hT q d
  have e5 := pick_theta_apply g tw 5 oh5 H (k0_pay9 v16) h5 hH hT q d
  have e6 := pick_theta_apply g tw 6 oh6 H (k0_pay9 v16) h6 hH hT q d
  have e7 := pick_theta_apply g tw 7 oh7 H (k0_pay9 v16) h7 hH hT q d
  have eb := bias_apply tb v18 h18 q d
  refine Eq.trans ?_ (GNN.kernel_layer g nb tw tb pw pb q d (pickTheta g nb tw q d) (fun _ => rfl))
  simp only [addf_apply, subf_apply, maximumf_apply]
  rw [hC q d, e4, e5, e6, e7, hA q d, eb, hB q d]

section Parts

variable (g : Fin 600 → Fin 200 → ℝ)
  (v9 : FVec Ideal S100x200 .bf16) (v11 : FVec Ideal S1x200 .f32)
  (oh0 oh1 oh2 oh3 oh4 oh5 oh6 oh7 : FVec Ideal S600x600 .bf16) (v141 : FVec Ideal S600x100 .bf16)
  (v142 v145 v162 v165 : FVec Ideal S600x200 .f32)
  (hH : ∀ (q : Fin 600) (c : Fin 200),
    k0_pay33 (F := Ideal) v9 v11 oh5 oh6 oh7 v141 v142 v145 v162 v165 (ix2 q c) = ((g q c : ℝ) : EReal))
include hH

/-- θ of the rows g at (p, d). -/
theorem pay34_apply (tw : Fin 600 → Fin 200 → ℝ) (T : FVec Ideal S200x600 .bf16)
    (hT : ∀ (c : Fin 200) (d : Fin 600), T (ix2 c d) = ((tw d c : ℝ) : EReal)) (p d : Fin 600) :
    k0_pay34 (F := Ideal) v9 v11 T oh5 oh6 oh7 v141 v142 v145 v162 v165 (ix2 p d)
      = ∑ c : Fin 200, ((g p c : ℝ) : EReal) * ((tw d c : ℝ) : EReal) := by
  unfold k0_pay34
  refine (theta_apply tw _ T hT p d).trans ?_
  exact Finset.sum_congr rfl fun c _ => congrArg (fun z : EReal => z * ((tw d c : ℝ) : EReal)) (hH p c)

/-- φ of the rows g plus the bias row at (p, d). -/
theorem pay35_apply (pw : Fin 600 → Fin 200 → ℝ) (pb : Fin 600 → ℝ) (T : FVec Ideal S200x600 .bf16)
    (v23 : FVec Ideal S1x600 .f32)
    (hT : ∀ (c : Fin 200) (d : Fin 600), T (ix2 c d) = ((pw d c : ℝ) : EReal))
    (h23 : ∀ d : Fin 600, v23 (ix2 (0 : Fin 1) d) = ((pb d : ℝ) : EReal)) (p d : Fin 600) :
    k0_pay35 (F := Ideal) v9 v11 T v23 oh5 oh6 oh7 v141 v142 v145 v162 v165 (ix2 p d)
      = (∑ c : Fin 200, ((g p c : ℝ) : EReal) * ((pw d c : ℝ) : EReal)) + ((pb d : ℝ) : EReal) := by
  unfold k0_pay35
  have e1 : matmul (F := Ideal) dot_S600x200_S200x600_S600x600_1_0_0_1_n_n none
      (k0_pay33 v9 v11 oh5 oh6 oh7 v141 v142 v145 v162 v165) T (constant S600x600 .f32 0x00000000#32) (ix2 p d)
      = ∑ c : Fin 200, ((g p c : ℝ) : EReal) * ((pw d c : ℝ) : EReal) := by
    refine (theta_apply pw _ T hT p d).trans ?_
    exact Finset.sum_congr rfl fun c _ => congrArg (fun z : EReal => z * ((pw d c : ℝ) : EReal)) (hH p c)
  have e2 : broadcastTo S600x600 v23 broadcasts_S1x600_S600x600 (ix2 p d) = ((pb d : ℝ) : EReal) :=
    (broadcastTo_1b_ab_apply (a := 600) (b := 600) v23 broadcasts_S1x600_S600x600 p d).trans (h23 d)
  simp only [addf_apply]
  rw [e1, e2]

/-- The running maximum from −∞ over slots 0 … 3 at (p, d). -/
theorem pay36_apply (tw : Fin 600 → Fin 200 → ℝ) (T : FVec Ideal S200x600 .bf16)
    (hT : ∀ (c : Fin 200) (d : Fin 600), T (ix2 c d) = ((tw d c : ℝ) : EReal))
    (h0 : IsPick oh0 nb 0) (h1 : IsPick oh1 nb 1) (h2 : IsPick oh2 nb 2) (h3 : IsPick oh3 nb 3) (p d : Fin 600) :
    k0_pay36 (F := Ideal) v9 v11 T oh0 oh1 oh2 oh3 oh5 oh6 oh7 v141 v142 v145 v162 v165 (ix2 p d)
      = max (max (max (max (⊥ : EReal) (pickTheta g nb tw p d 0)) (pickTheta g nb tw p d 1)) (pickTheta g nb tw p d 2))
          (pickTheta g nb tw p d 3) := by
  unfold k0_pay36
  have e0 := pick_theta_apply g tw 0 oh0 _ T h0 hH hT p d
  have e1 := pick_theta_apply g tw 1 oh1 _ T h1 hH hT p d
  have e2 := pick_theta_apply g tw 2 oh2 _ T h2 hH hT p d
  have e3 := pick_theta_apply g tw 3 oh3 _ T h3 hH hT p d
  have eb : broadcast S600x600 (Scalar.ofBits (F := Ideal) .f32 0xFF800000#32) (ix2 p d) = (⊥ : EReal) := ofBits_neg_inf
  simp only [maximumf_apply]
  rw [eb, e0, e1, e2, e3]

/-- The rows slot 4 picks, at (p, c). -/
theorem pay37_apply (h4 : IsPick oh4 nb 4) (p : Fin 600) (c : Fin 200) :
    k0_pay37 (F := Ideal) v9 v11 oh4 oh5 oh6 oh7 v141 v142 v145 v162 v165 (ix2 p c)
      = ∑ j : Fin 600, (if nb p 4 = j then (1 : EReal) else 0) * ((g j c : ℝ) : EReal) := by
  unfold k0_pay37
  exact pick_apply g 4 oh4 _ h4 hH p c

end Parts

end Layer3

open Layer3

/-- The row trip k stores, at node p. -/
theorem stored_row (hW : Weights v0 v2 v4 v6 v8 v10 v12 v14 v16 v18 v20 v22 W) (hP : Picks arg2 X2 k nb)
    (h2 : ∀ (q : Fin 600) (c : Fin 200),
      trip_k0_t1.sl.r_20 (F := Ideal) arg1 arg2 v0 v2 v4 v6 v8 v10 v12 v14 X1 X2 k (ix2 q c) = ((GNN.h2 W x nb q c : ℝ) : EReal))
    (p : Fin 600) :
    k0_pay12 (F := Ideal) v16 v18 (trip_k0_t1.sl.r_8 arg2 X2 k) (trip_k0_t1.sl.r_9 arg2 X2 k) (trip_k0_t1.sl.r_10 arg2 X2 k)
        (trip_k0_t1.sl.r_20 arg1 arg2 v0 v2 v4 v6 v8 v10 v12 v14 X1 X2 k)
        (trip_k0_t1.sl.r_21 arg1 arg2 v0 v2 v4 v6 v8 v10 v12 v14 v16 X1 X2 k)
        (trip_k0_t1.sl.r_22 arg1 arg2 v0 v2 v4 v6 v8 v10 v12 v14 v20 v22 X1 X2 k)
        (trip_k0_t1.sl.r_23 arg1 arg2 v0 v2 v4 v6 v8 v10 v12 v14 v16 X1 X2 k)
        (trip_k0_t1.sl.r_24 arg1 arg2 v0 v2 v4 v6 v8 v10 v12 v14 X1 X2 k) (ix2 (0 : Fin 1) p)
      = ((GNN.node W x nb p : ℝ) : EReal) := by
  -- the second hidden layer's rows, spelt as the vector the third layer's four values are built over
  have hH : ∀ (q : Fin 600) (c : Fin 200),
      k0_pay33 (F := Ideal) (k0_pay5 v8) (k0_pay6 v10) (trip_k0_t1.sl.r_8 arg2 X2 k) (trip_k0_t1.sl.r_9 arg2 X2 k)
        (trip_k0_t1.sl.r_10 arg2 X2 k) (trip_k0_t1.sl.r_15 arg1 arg2 v0 v2 v4 v6 X1 X2 k)
        (trip_k0_t1.sl.r_16 arg1 arg2 v0 v2 v4 v6 v8 X1 X2 k) (trip_k0_t1.sl.r_17 arg1 arg2 v0 v2 v4 v6 v12 v14 X1 X2 k)
        (trip_k0_t1.sl.r_18 arg1 arg2 v0 v2 v4 v6 v8 X1 X2 k) (trip_k0_t1.sl.r_19 arg1 arg2 v0 v2 v4 v6 v8 X1 X2 k) (ix2 q c)
        = ((GNN.h2 W x nb q c : ℝ) : EReal) := h2
  have hT := pay9_apply W.t3w v16 hW.t3w
  have hT' := pay10_apply W.p3w v20 hW.p3w
  have h23 : ∀ d : Fin 600, k0_pay11 (F := Ideal) v22 (ix2 (0 : Fin 1) d) = ((W.p3b d : ℝ) : EReal) := by
    intro d
    show shapeCast S1x600 v22 shapeCasts_S1x600_S1x600 (ix2 (0 : Fin 1) d) = _
    rw [shapeCast_self]
    exact hW.p3b d
  refine (pay12_apply (GNN.h2 W x nb) W.t3w W.p3w W.t3b W.p3b v16 v18 _ _ _ _ _ _ _ _ hW.t3w hW.t3b hP.s5 hP.s6 hP.s7 h2
    ?_ ?_ ?_ ?_ p).trans rfl
  · exact pay34_apply _ _ _ _ _ _ _ _ _ _ _ hH W.t3w _ hT
  · exact pay35_apply _ _ _ _ _ _ _ _ _ _ _ hH W.p3w W.p3b _ _ hT' h23
  · exact pay36_apply _ _ _ _ _ _ _ _ _ _ _ _ _ _ _ hH W.t3w _ hT hP.s0 hP.s1 hP.s2 hP.s3
  · exact pay37_apply _ _ _ _ _ _ _ _ _ _ _ _ hH hP.s4

end Cert.KernelRow

end
-- ==== Proof.KernelArray.lean ====
/-
  The region's output array.

  At grid point t the body leaves in the staged [8, 600] block, at (g, p), the result of node p of graph b = 8·t + g:
  trip g stored that row, computed from graph b's feature rows and local neighbour positions and the weights. The
  output window is written back at every point, point t to rows 8·t … 8·t + 7 of the [64, 600] array; the eight blocks
  tile the array, so after the region the array holds, at (b, p), the real result of node p of graph b.
-/
import proofs.«411374_j22643067584549_2_alg».proof.Proof.KernelBlocks
import proofs.«411374_j22643067584549_2_alg».proof.Proof.KernelTrip
import proofs.«411374_j22643067584549_2_alg».proof.Proof.KernelLoads
import proofs.«411374_j22643067584549_2_alg».proof.Proof.KernelLayer1
import proofs.«411374_j22643067584549_2_alg».proof.Proof.KernelLayer2
import proofs.«411374_j22643067584549_2_alg».proof.Proof.KernelLayer3

set_option maxRecDepth 16384

noncomputable section

namespace Cert.KernelValue

open Idealize.ShloMosaic Idealize.ShloMosaic.ValueIdx Idealize.ShloMosaic.TcCoe Idealize.SL.Sem Idealize.ShloMosaic.StableHlo
  Cert.KernelIdeal Cert.KernelIdeal.Gen

variable (m : (ℓ : Loc nD τ sig) → Buf (Elt Ideal) ℓ)
  {X : Fin 64 → Fin 600 → Fin 50 → ℝ} {NB : Fin 64 → Fin 600 → Fin 8 → Fin 600} {W : GNN.Params}

/-- The staged output block after the body at point t, at (g, p): node p of graph b = 8·t + g. -/
theorem outs_at (c : Dev nD) (hA : GNN.Agrees (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) X NB W)
    (t : Fin cfg0.N) (g : Fin 8) (b : Fin 64) (hb : b.val = 8 * t.val + g.val) (p : Fin 600) :
    outsAt0 (F := Ideal) m c t (ix2 g p) = ((GNN.node W (X b) (NB b) p : ℝ) : EReal) := by
  unfold outsAt0
  obtain ⟨k, hk, e⟩ := Cert.KernelTrip.out_row c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) g p
  rw [e]
  have hW := block_weights m c hA t
  have hP := Cert.KernelRow.picks (hs0_1 t) (iblk m c 1 t) g hk (fun q s => block_nb m c hA t g b hb q s)
  have hx := fun q ch => (Cert.KernelRow.load_x (hs0_0 t) (iblk m c 0 t) g hk q ch).trans (block_x m c hA t g b hb q ch)
  have h1 := fun q c' => Cert.KernelRow.layer1 hW hP hx q c'
  have h2 := fun q c' => Cert.KernelRow.layer2 hW hP h1 q c'
  exact Cert.KernelRow.stored_row hW hP h2 p

/-- The [64, 600] array of node results. -/
def nodes (X : Fin 64 → Fin 600 → Fin 50 → ℝ) (NB : Fin 64 → Fin 600 → Fin 8 → Fin 600) (W : GNN.Params) : FVec Ideal S64x600 .f32 :=
  fun i => ((GNN.node W (X (i 0)) (NB (i 0)) (i 1) : ℝ) : EReal)

/-- The output window's block at point t starts at row 8·t, column 0, and is a full [8, 600] block. -/
theorem idx14 : ∀ t : Fin cfg0.N, win0_14.index t (0 : Fin 2) = t.val ∧ win0_14.index t (1 : Fin 2) = 0
    ∧ win0_14.xsize (grid0.coords t) (0 : Fin 2) = 8 ∧ win0_14.xsize (grid0.coords t) (1 : Fin 2) = 600 :=
  (by decide +kernel : ∀ t : Fin grid0.N, _)

/-- What point t writes back is rows 8·t … 8·t + 7 of the array of node results. -/
theorem flushed_eq (c : Dev nD) (hA : GNN.Agrees (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) X NB W)
    (t : Fin cfg0.N) (hf : (cfg0.win 14).flush t = true) :
    (dats m 0 c).flushed 14 t = ((cfg0.win 14).blk t).view.read (Elt Ideal) (nodes X NB W) := by
  funext y
  obtain ⟨g, p, rfl⟩ : ∃ (g : Fin 8) (p : Fin 600), y = ix2 g p := ⟨y 0, y 1, eq_ix2 y⟩
  show (dats m 0 c).after 14 t (ix2 g p) = _
  rw [after0_14, View.read_apply]
  have ht : t.val < 8 := by have := t.isLt; have hN : cfg0.N = 8 := N_0; omega
  have hb : 8 * t.val + g.val < 64 := by have := g.isLt; omega
  rw [outs_at m c hA t g ⟨8 * t.val + g.val, hb⟩ rfl p]
  show _ = nodes X NB W (((cfg0.win 14).blk t).view.emb (ix2 g p))
  unfold nodes
  have h := idx14 t
  have e0 : (((cfg0.win 14).blk t).view.emb (ix2 g p)) 0 = (⟨8 * t.val + g.val, hb⟩ : Fin 64) :=
    Fin.ext (by show win0_14.index t 0 * 8 + 1 * g.val = 8 * t.val + g.val; rw [h.1]; omega)
  have e1 : (((cfg0.win 14).blk t).view.emb (ix2 g p)) 1 = p :=
    Fin.ext (by show win0_14.index t 1 * 600 + 1 * p.val = p.val; rw [h.2.1]; omega)
  rw [e0, e1]

/-- The eight blocks tile the array: after the region it holds the node results. -/
theorem final (c : Dev nD) (hA : GNN.Agrees (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) X NB W) :
    (dats m 0 c).arrAt 14 cfg0.N = nodes X NB W :=
  (dats m 0 c).arrAt_eq_of_cover 14 (nodes X NB W) (flushed_eq m c hA) fun i => by
    have h0 : (i 0 : Nat) < 64 := (i 0).isLt
    have h1 : (i 1 : Nat) < 600 := (i 1).isLt
    have hN : cfg0.N = 8 := N_0
    have htt : (i 0).val / 8 < cfg0.N := by omega
    refine ⟨⟨(i 0).val / 8, htt⟩, flush0_14 _, ?_⟩
    show i ∈ ((View.whole main_v25).slice (win0_14.rect ⟨(i 0).val / 8, htt⟩)).set
    rw [View.set_slice_whole, Rect.mem_set_unit]
    intro a
    have h := idx14 ⟨(i 0).val / 8, htt⟩
    match a with
    | ⟨0, _⟩ =>
      show win0_14.index _ 0 * win0_14.size 0 ≤ (i 0 : Nat) ∧ (i 0 : Nat) < win0_14.index _ 0 * win0_14.size 0 + win0_14.xsize (grid0.coords _) 0
      rw [h.1, h.2.2.1, show win0_14.size 0 = 8 from rfl]
      show (i 0).val / 8 * 8 ≤ (i 0 : Nat) ∧ (i 0 : Nat) < (i 0).val / 8 * 8 + 8
      constructor <;> omega
    | ⟨1, _⟩ =>
      show win0_14.index _ 1 * win0_14.size 1 ≤ (i 1 : Nat) ∧ (i 1 : Nat) < win0_14.index _ 1 * win0_14.size 1 + win0_14.xsize (grid0.coords _) 1
      rw [h.2.1, h.2.2.2, show win0_14.size 1 = 600 from rfl]
      show 0 * 600 ≤ (i 1 : Nat) ∧ (i 1 : Nat) < 0 * 600 + 600
      constructor <;> omega

end Cert.KernelValue

end
-- ==== Proof.KernelTail.lean ====
/-
  The kernel's result from the region's output array.

  After the region the program applies five dense layers with tanh and the final clip to [−2, 2] to the [64, 600] output
  array and the last ten arguments — the same operations, in the same order, as the reference applies to its own [64, 600]
  array. Those operations read the output array as the region left it and every argument as launched, so the result is
  the dense head of the array of node results.
-/
import Idealize.ShloMosaic.Lib.StableHlo.Run
import proofs.«411374_j22643067584549_2_alg».proof.Proof.KernelArray
import proofs.«411374_j22643067584549_2_alg».proof.Proof.RefArray

set_option maxRecDepth 16384

noncomputable section

namespace Cert.KernelValue

open Idealize.ShloMosaic Idealize.ShloMosaic.ValueIdx Idealize.ShloMosaic.TcCoe Idealize.SL.Sem Idealize.ShloMosaic.StableHlo
  Cert.KernelIdeal Cert.KernelIdeal.Gen

variable (m : (ℓ : Loc nD τ sig) → Buf (Elt Ideal) ℓ)
  {X : Fin 64 → Fin 600 → Fin 50 → ℝ} {NB : Fin 64 → Fin 600 → Fin 8 → Fin 600} {W : GNN.Params}

/-- A buffer as the operations after the region find it: the region's arrays as the region left them, every other buffer
    as it was at the region's entry. -/
abbrev seen (c : Dev nD) (b : Ref sig .tc) :=
  Pipeline.withArrays (cfgs 0).spec c (V0 m c) (fun w => (dats m 0 c).arrAt w (cfgs 0).N) (Proc.devRef .tc b)

set_option maxHeartbeats 16000000 in
/-- The result buffer after the program's last operations: the dense head of what those operations read. -/
theorem tail_raw (c : Dev nD) :
    (Pipeline.afterTail₀ cfgs (dats m) 0 (V0 m) [hostOps1, hostOps1_1] c main_v55 : S64x9.Idx → EReal)
      = Cert.RefValue.head (seen m c main_v25) (seen m c main_arg14) (seen m c main_arg15) (seen m c main_arg16) (seen m c main_arg17) (seen m c main_arg18) (seen m c main_arg19) (seen m c main_arg20) (seen m c main_arg21) (seen m c main_arg22) (seen m c main_arg23) := by
  unfold Pipeline.afterTail₀
  simp only [hostOps1, hostOps1_1, List.flatten_cons, List.flatten_nil, List.append_nil, List.cons_append, List.nil_append]
  after_results
  rfl

/-- The output array is read as the region left it. -/
theorem seen_out (c : Dev nD) : seen m c main_v25 = (dats m 0 c).arrAt 14 cfg0.N :=
  Pipeline.withArrays_arr spec0 launch0.win.arr_inj c _ _ 14

theorem seen_arg14 (c : Dev nD) : seen m c main_arg14 = m ((c : Thread nD τ).loc main_arg14) :=
  (Pipeline.withArrays_of_ne _ c (V0 m c) _ main_arg14 (by exact (by decide : ∀ w, Pipeline.arrRef spec0 w ≠ main_arg14))).trans (V_main_arg14 m c)
theorem seen_arg15 (c : Dev nD) : seen m c main_arg15 = m ((c : Thread nD τ).loc main_arg15) :=
  (Pipeline.withArrays_of_ne _ c (V0 m c) _ main_arg15 (by exact (by decide : ∀ w, Pipeline.arrRef spec0 w ≠ main_arg15))).trans (V_main_arg15 m c)
theorem seen_arg16 (c : Dev nD) : seen m c main_arg16 = m ((c : Thread nD τ).loc main_arg16) :=
  (Pipeline.withArrays_of_ne _ c (V0 m c) _ main_arg16 (by exact (by decide : ∀ w, Pipeline.arrRef spec0 w ≠ main_arg16))).trans (V_main_arg16 m c)
theorem seen_arg17 (c : Dev nD) : seen m c main_arg17 = m ((c : Thread nD τ).loc main_arg17) :=
  (Pipeline.withArrays_of_ne _ c (V0 m c) _ main_arg17 (by exact (by decide : ∀ w, Pipeline.arrRef spec0 w ≠ main_arg17))).trans (V_main_arg17 m c)
theorem seen_arg18 (c : Dev nD) : seen m c main_arg18 = m ((c : Thread nD τ).loc main_arg18) :=
  (Pipeline.withArrays_of_ne _ c (V0 m c) _ main_arg18 (by exact (by decide : ∀ w, Pipeline.arrRef spec0 w ≠ main_arg18))).trans (V_main_arg18 m c)
theorem seen_arg19 (c : Dev nD) : seen m c main_arg19 = m ((c : Thread nD τ).loc main_arg19) :=
  (Pipeline.withArrays_of_ne _ c (V0 m c) _ main_arg19 (by exact (by decide : ∀ w, Pipeline.arrRef spec0 w ≠ main_arg19))).trans (V_main_arg19 m c)
theorem seen_arg20 (c : Dev nD) : seen m c main_arg20 = m ((c : Thread nD τ).loc main_arg20) :=
  (Pipeline.withArrays_of_ne _ c (V0 m c) _ main_arg20 (by exact (by decide : ∀ w, Pipeline.arrRef spec0 w ≠ main_arg20))).trans (V_main_arg20 m c)
theorem seen_arg21 (c : Dev nD) : seen m c main_arg21 = m ((c : Thread nD τ).loc main_arg21) :=
  (Pipeline.withArrays_of_ne _ c (V0 m c) _ main_arg21 (by exact (by decide : ∀ w, Pipeline.arrRef spec0 w ≠ main_arg21))).trans (V_main_arg21 m c)
theorem seen_arg22 (c : Dev nD) : seen m c main_arg22 = m ((c : Thread nD τ).loc main_arg22) :=
  (Pipeline.withArrays_of_ne _ c (V0 m c) _ main_arg22 (by exact (by decide : ∀ w, Pipeline.arrRef spec0 w ≠ main_arg22))).trans (V_main_arg22 m c)
theorem seen_arg23 (c : Dev nD) : seen m c main_arg23 = m ((c : Thread nD τ).loc main_arg23) :=
  (Pipeline.withArrays_of_ne _ c (V0 m c) _ main_arg23 (by exact (by decide : ∀ w, Pipeline.arrRef spec0 w ≠ main_arg23))).trans (V_main_arg23 m c)

/-- The kernel's result: the dense head of the array of node results and the last ten arguments. -/
theorem result_eq (c : Dev nD) (hA : GNN.Agrees (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) X NB W) :
    (Pipeline.afterTail₀ cfgs (dats m) 0 (V0 m) [hostOps1, hostOps1_1] c main_v55 : S64x9.Idx → EReal)
      = Cert.RefValue.head (nodes X NB W) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  rw [tail_raw, seen_out, final m c hA, seen_arg14, seen_arg15, seen_arg16, seen_arg17, seen_arg18, seen_arg19, seen_arg20,
    seen_arg21, seen_arg22, seen_arg23]

end Cert.KernelValue

end
-- ==== Proof.KernelRun.lean ====
/-
  The kernel's run, with its result read.

  Every weakly fair execution of the program terminates; at the end the result buffer holds what the operations after
  the region compute from the region's output array and the arguments, and the arguments are as launched.
-/
import proofs.«411374_j22643067584549_2_alg».proof.Proof.KernelTail

set_option maxRecDepth 16384

noncomputable section

namespace Cert.KernelValue

open Idealize.ShloMosaic Idealize.ShloMosaic.ValueIdx Idealize.ShloMosaic.TcCoe Idealize.SL.Sem Idealize.ShloMosaic.StableHlo
  Cert.KernelIdeal Cert.KernelIdeal.Gen

variable (m : (ℓ : Loc nD τ sig) → Buf (Elt Ideal) ℓ)

set_option maxHeartbeats 1440000 in
/-- The run's end state: the result buffer at the tail's term, every argument unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v55) = Pipeline.afterTail₀ cfgs (dats m) 0 (V0 m) [hostOps1, hostOps1_1] c main_v55
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨(h c).2 main_v55 (Pipeline.mem_restRefs_of main_v55 (by decide) (by decide)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c)),
      (((h c).2 main_arg21 (Pipeline.mem_restRefs_of main_arg21 (by decide) (by decide))).trans (W_main_arg21 m (dats m) c)),
      (((h c).2 main_arg22 (Pipeline.mem_restRefs_of main_arg22 (by decide) (by decide))).trans (W_main_arg22 m (dats m) c)),
      (((h c).2 main_arg23 (Pipeline.mem_restRefs_of main_arg23 (by decide) (by decide))).trans (W_main_arg23 m (dats m) c))⟩) (run_main m ρ)

end Cert.KernelValue

end
-- ==== Proof.lean ====
/-
  The claim: the kernel and its reference compute the same function over the extended reals.

  Both programs compute, for each of 64 graphs of 600 nodes, three stacked edge-convolution layers
  (max over a node's 8 neighbours of θ applied to the difference of the neighbour's and the node's rows, plus φ of the
  node's row; tanh after the first two) and the maximum over the last layer's channels, and then apply the same five
  dense layers and clip to the resulting [64, 600] array. The reference gathers neighbour rows from the whole batched
  node array; the kernel picks them inside the node's own graph by products with 0/1 matrices and applies θ before
  subtracting. Under the precondition — every float argument finite, every neighbour index inside its node's own
  graph — both [64, 600] arrays are the coerced real node results (the kernel's by Proof/KernelArray, the reference's by
  Proof/RefArray), and the two results are the same dense head of that array.
-/
import proofs.«411374_j22643067584549_2_alg».proof.Defs
import proofs.«411374_j22643067584549_2_alg».proof.Proof.Gen.Kernel
import proofs.«411374_j22643067584549_2_alg».proof.Proof.Gen.Kernel.Skeleton
import proofs.«411374_j22643067584549_2_alg».proof.Proof.Gen.Kernel.Loops
import proofs.«411374_j22643067584549_2_alg».proof.Proof.Gen.Kernel.Launch
import proofs.«411374_j22643067584549_2_alg».proof.Proof.Gen.Kernel.Points
import proofs.«411374_j22643067584549_2_alg».proof.Proof.Gen.Kernel.Frame
import proofs.«411374_j22643067584549_2_alg».proof.Proof.Gen.KernelIdeal
import proofs.«411374_j22643067584549_2_alg».proof.Proof.Gen.KernelIdeal.Skeleton
import proofs.«411374_j22643067584549_2_alg».proof.Proof.Gen.KernelIdeal.Loops
import proofs.«411374_j22643067584549_2_alg».proof.Proof.Gen.KernelIdeal.Launch
import proofs.«411374_j22643067584549_2_alg».proof.Proof.Gen.KernelIdeal.Points
import proofs.«411374_j22643067584549_2_alg».proof.Proof.Gen.KernelIdeal.Frame
import proofs.«411374_j22643067584549_2_alg».proof.Proof.Gen.ReferenceIdeal
import proofs.«411374_j22643067584549_2_alg».proof.Proof.Gen.ReferenceIdeal.Run
import proofs.«411374_j22643067584549_2_alg».proof.Proof.Gen.ReferenceIdeal.Read
import proofs.«411374_j22643067584549_2_alg».proof.Proof.Gen.Pre_finite_inputs
import proofs.«411374_j22643067584549_2_alg».proof.Proof.PreFacts
import proofs.«411374_j22643067584549_2_alg».proof.Proof.RefArray
import proofs.«411374_j22643067584549_2_alg».proof.Proof.KernelRun
import Idealize.ShloMosaic.Adequacy
import Idealize.ShloMosaic.Init

noncomputable section

namespace Cert.Proof

open Idealize.ShloMosaic Idealize.ShloMosaic.TcCoe Idealize.SL.Sem

/-- The printed kernel runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the dense head of the array of node results. -/
theorem algebraic : Cert.algebraic_KernelIdeal_ReferenceIdeal := by
  intro m ρ m' ρ' hpre hagree
  refine ⟨fun c => Cert.ReferenceIdeal.Value.res_main_v97 (F := Ideal) m' c, ?_, Cert.ReferenceIdeal.Value.run (F := Ideal) m' ρ'⟩
  refine (θ_run (Cert.KernelIdeal.defs (F := Ideal)) _ _).mono (fun r h c => ⟨(h c).1.trans ?_, (h c).2⟩)
    (Cert.KernelValue.run_value m ρ)
  obtain ⟨X, NB, W, hA⟩ := Cert.PreFacts.exists_reading (h := hpre c)
  show _ = Cert.ReferenceIdeal.Value.res_main_v97 (F := Ideal) m' c
  rw [Cert.KernelValue.result_eq m c hA, Cert.ReferenceIdeal.Read.val_main_v97_eq, Cert.RefValue.result_eq_head,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2,
    Cert.RefValue.ref_array hA]
  rfl

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
